-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S1000000x4 : Shape := ⟨2, ![1000000, 4]⟩
abbrev S4x1000000x7 : Shape := ⟨3, ![4, 1000000, 7]⟩
abbrev S4 : Shape := ⟨1, ![4]⟩
abbrev S11x2 : Shape := ⟨2, ![11, 2]⟩
abbrev S2 : Shape := ⟨1, ![2]⟩
abbrev S2x15 : Shape := ⟨2, ![2, 15]⟩
abbrev S15 : Shape := ⟨1, ![15]⟩
abbrev S11x4 : Shape := ⟨2, ![11, 4]⟩
abbrev S4x4 : Shape := ⟨2, ![4, 4]⟩
abbrev S4x5 : Shape := ⟨2, ![4, 5]⟩

class Facts : Prop where
  reducesTo_S_S_d : S_.ReducesTo [] S_
  h_S_ : 0 < S_.numel
  bcast_S_S1000000x4 : S_.BroadcastsInDim S1000000x4 (![] : Fin 0 → Fin S1000000x4.rank)
  reducesTo_S1000000x4_S_d0_1 : S1000000x4.ReducesTo [0, 1] S_
  bcast_S_S4x1000000x7 : S_.BroadcastsInDim S4x1000000x7 (![] : Fin 0 → Fin S4x1000000x7.rank)
  reducesTo_S4x1000000x7_S_d0_1_2 : S4x1000000x7.ReducesTo [0, 1, 2] S_
  bcast_S_S4 : S_.BroadcastsInDim S4 (![] : Fin 0 → Fin S4.rank)
  reducesTo_S4_S_d0 : S4.ReducesTo [0] S_
  bcast_S_S11x2 : S_.BroadcastsInDim S11x2 (![] : Fin 0 → Fin S11x2.rank)
  reducesTo_S11x2_S_d0_1 : S11x2.ReducesTo [0, 1] S_
  bcast_S_S2 : S_.BroadcastsInDim S2 (![] : Fin 0 → Fin S2.rank)
  reducesTo_S2_S_d0 : S2.ReducesTo [0] S_
  bcast_S_S2x15 : S_.BroadcastsInDim S2x15 (![] : Fin 0 → Fin S2x15.rank)
  reducesTo_S2x15_S_d0_1 : S2x15.ReducesTo [0, 1] S_
  bcast_S_S15 : S_.BroadcastsInDim S15 (![] : Fin 0 → Fin S15.rank)
  reducesTo_S15_S_d0 : S15.ReducesTo [0] S_
  bcast_S_S11x4 : S_.BroadcastsInDim S11x4 (![] : Fin 0 → Fin S11x4.rank)
  reducesTo_S11x4_S_d0_1 : S11x4.ReducesTo [0, 1] S_
  bcast_S_S4x4 : S_.BroadcastsInDim S4x4 (![] : Fin 0 → Fin S4x4.rank)
  reducesTo_S4x4_S_d0_1 : S4x4.ReducesTo [0, 1] S_
  bcast_S_S4x5 : S_.BroadcastsInDim S4x5 (![] : Fin 0 → Fin S4x5.rank)
  reducesTo_S4x5_S_d0_1 : S4x5.ReducesTo [0, 1] S_

variable [Facts]

def fn_part4 {F : FTy → Type} [FloatOps F] (main_arg0 : FVec F S_ .f32) (main_arg13 : IVec S4x5 32) (main_arg14 : IVec S2 32) (main_v64 : IVec S_ 1) (main_v66 : IVec S4x5 1) (main_c_26 : IVec S_ 32) : IVec S_ 1 :=
  let main_v67 : IVec S4x5 32 := broadcastInDim S4x5 ![] bcast_S_S4x5 main_c_26
  let main_v68 : IVec S4x5 1 := cmpi .slt main_arg13 main_v67
  let main_v69 : IVec S4x5 1 := andi main_v66 main_v68
  let main_c_27 : IVec S_ 1 := constantI S_ 1 1#1
  let main_v70 : IVec S_ 1 := (fun x v => Host.reduce IntOp.andi x v reducesTo_S4x5_S_d0_1 h_S_) main_v69 main_c_27
  let main_v71 : IVec S_ 1 := andi main_v64 main_v70
  let main_c_28 : IVec S_ 32 := constantI S_ 32 0#32
  let main_v72 : IVec S2 32 := broadcastInDim S2 ![] bcast_S_S2 main_c_28
  let main_v73 : IVec S2 1 := cmpi .sge main_arg14 main_v72
  let main_c_29 : IVec S_ 32 := constantI S_ 32 7#32
  let main_v74 : IVec S2 32 := broadcastInDim S2 ![] bcast_S_S2 main_c_29
  let main_v75 : IVec S2 1 := cmpi .slt main_arg14 main_v74
  let main_v76 : IVec S2 1 := andi main_v73 main_v75
  let main_c_30 : IVec S_ 1 := constantI S_ 1 1#1
  let main_v77 : IVec S_ 1 := (fun x v => Host.reduce IntOp.andi x v reducesTo_S2_S_d0 h_S_) main_v76 main_c_30
  let main_v78 : IVec S_ 1 := andi main_v71 main_v77
  let main_cst_31 : FVec F S_ .f32 := constant S_ .f32 0x40000000#32
  let main_v79 : FVec F S_ .f32 := mulf main_arg0 main_cst_31
  let main_v80 : IVec S_ 32 := fptosi 32 main_v79
  let main_c_32 : IVec S_ 32 := constantI S_ 32 0#32
  let main_v81 : IVec S_ 1 := cmpi .sge main_v80 main_c_32
  let main_v82 : IVec S_ 1 := andi main_v78 main_v81
  main_v82

def fn_part3 {F : FTy → Type} [FloatOps F] (main_arg0 : FVec F S_ .f32) (main_arg11 : FVec F S4 .f32) (main_arg12 : IVec S4x5 32) (main_arg13 : IVec S4x5 32) (main_arg14 : IVec S2 32) (main_v47 : IVec S_ 1) (main_v50 : IVec S4x4 1) : IVec S_ 1 :=
  let main_c_19 : IVec S_ 1 := constantI S_ 1 1#1
  let main_v51 : IVec S_ 1 := (fun x v => Host.reduce IntOp.andi x v reducesTo_S4x4_S_d0_1 h_S_) main_v50 main_c_19
  let main_v52 : IVec S_ 1 := andi main_v47 main_v51
  let main_v53 : FVec F S4 .f32 := Host.absf main_arg11
  let main_cst_20 : FVec F S_ .f32 := constant S_ .f32 0x7F800000#32
  let main_v54 : FVec F S4 .f32 := broadcastInDim S4 ![] bcast_S_S4 main_cst_20
  let main_v55 : IVec S4 1 := cmpf .olt main_v53 main_v54
  let main_c_21 : IVec S_ 1 := constantI S_ 1 1#1
  let main_v56 : IVec S_ 1 := (fun x v => Host.reduce IntOp.andi x v reducesTo_S4_S_d0 h_S_) main_v55 main_c_21
  let main_v57 : IVec S_ 1 := andi main_v52 main_v56
  let main_c_22 : IVec S_ 32 := constantI S_ 32 0#32
  let main_v58 : IVec S4x5 32 := broadcastInDim S4x5 ![] bcast_S_S4x5 main_c_22
  let main_v59 : IVec S4x5 1 := cmpi .sge main_arg12 main_v58
  let main_c_23 : IVec S_ 32 := constantI S_ 32 6#32
  let main_v60 : IVec S4x5 32 := broadcastInDim S4x5 ![] bcast_S_S4x5 main_c_23
  let main_v61 : IVec S4x5 1 := cmpi .slt main_arg12 main_v60
  let main_v62 : IVec S4x5 1 := andi main_v59 main_v61
  let main_c_24 : IVec S_ 1 := constantI S_ 1 1#1
  let main_v63 : IVec S_ 1 := (fun x v => Host.reduce IntOp.andi x v reducesTo_S4x5_S_d0_1 h_S_) main_v62 main_c_24
  let main_v64 : IVec S_ 1 := andi main_v57 main_v63
  let main_c_25 : IVec S_ 32 := constantI S_ 32 0#32
  let main_v65 : IVec S4x5 32 := broadcastInDim S4x5 ![] bcast_S_S4x5 main_c_25
  let main_v66 : IVec S4x5 1 := cmpi .sge main_arg13 main_v65
  let main_c_26 : IVec S_ 32 := constantI S_ 32 15#32
  fn_part4 (F := F) main_arg0 main_arg13 main_arg14 main_v64 main_v66 main_c_26

def fn_part2 {F : FTy → Type} [FloatOps F] (main_arg0 : FVec F S_ .f32) (main_arg8 : FVec F S11x4 .f32) (main_arg9 : FVec F S4 .f32) (main_arg10 : FVec F S4x4 .f32) (main_arg11 : FVec F S4 .f32) (main_arg12 : IVec S4x5 32) (main_arg13 : IVec S4x5 32) (main_arg14 : IVec S2 32) (main_v32 : IVec S_ 1) (main_v33 : FVec F S15 .f32) : IVec S_ 1 :=
  let main_cst_12 : FVec F S_ .f32 := constant S_ .f32 0x7F800000#32
  let main_v34 : FVec F S15 .f32 := broadcastInDim S15 ![] bcast_S_S15 main_cst_12
  let main_v35 : IVec S15 1 := cmpf .olt main_v33 main_v34
  let main_c_13 : IVec S_ 1 := constantI S_ 1 1#1
  let main_v36 : IVec S_ 1 := (fun x v => Host.reduce IntOp.andi x v reducesTo_S15_S_d0 h_S_) main_v35 main_c_13
  let main_v37 : IVec S_ 1 := andi main_v32 main_v36
  let main_v38 : FVec F S11x4 .f32 := Host.absf main_arg8
  let main_cst_14 : FVec F S_ .f32 := constant S_ .f32 0x7F800000#32
  let main_v39 : FVec F S11x4 .f32 := broadcastInDim S11x4 ![] bcast_S_S11x4 main_cst_14
  let main_v40 : IVec S11x4 1 := cmpf .olt main_v38 main_v39
  let main_c_15 : IVec S_ 1 := constantI S_ 1 1#1
  let main_v41 : IVec S_ 1 := (fun x v => Host.reduce IntOp.andi x v reducesTo_S11x4_S_d0_1 h_S_) main_v40 main_c_15
  let main_v42 : IVec S_ 1 := andi main_v37 main_v41
  let main_v43 : FVec F S4 .f32 := Host.absf main_arg9
  let main_cst_16 : FVec F S_ .f32 := constant S_ .f32 0x7F800000#32
  let main_v44 : FVec F S4 .f32 := broadcastInDim S4 ![] bcast_S_S4 main_cst_16
  let main_v45 : IVec S4 1 := cmpf .olt main_v43 main_v44
  let main_c_17 : IVec S_ 1 := constantI S_ 1 1#1
  let main_v46 : IVec S_ 1 := (fun x v => Host.reduce IntOp.andi x v reducesTo_S4_S_d0 h_S_) main_v45 main_c_17
  let main_v47 : IVec S_ 1 := andi main_v42 main_v46
  let main_v48 : FVec F S4x4 .f32 := Host.absf main_arg10
  let main_cst_18 : FVec F S_ .f32 := constant S_ .f32 0x7F800000#32
  let main_v49 : FVec F S4x4 .f32 := broadcastInDim S4x4 ![] bcast_S_S4x4 main_cst_18
  let main_v50 : IVec S4x4 1 := cmpf .olt main_v48 main_v49
  fn_part3 (F := F) main_arg0 main_arg11 main_arg12 main_arg13 main_arg14 main_v47 main_v50

def fn_part1 {F : FTy → Type} [FloatOps F] (main_arg0 : FVec F S_ .f32) (main_arg4 : FVec F S11x2 .f32) (main_arg5 : FVec F S2 .f32) (main_arg6 : FVec F S2x15 .f32) (main_arg7 : FVec F S15 .f32) (main_arg8 : FVec F S11x4 .f32) (main_arg9 : FVec F S4 .f32) (main_arg10 : FVec F S4x4 .f32) (main_arg11 : FVec F S4 .f32) (main_arg12 : IVec S4x5 32) (main_arg13 : IVec S4x5 32) (main_arg14 : IVec S2 32) (main_v12 : IVec S_ 1) (main_v15 : IVec S4 1) (main_c_5 : IVec S_ 1) : IVec S_ 1 :=
  let main_v16 : IVec S_ 1 := (fun x v => Host.reduce IntOp.andi x v reducesTo_S4_S_d0 h_S_) main_v15 main_c_5
  let main_v17 : IVec S_ 1 := andi main_v12 main_v16
  let main_v18 : FVec F S11x2 .f32 := Host.absf main_arg4
  let main_cst_6 : FVec F S_ .f32 := constant S_ .f32 0x7F800000#32
  let main_v19 : FVec F S11x2 .f32 := broadcastInDim S11x2 ![] bcast_S_S11x2 main_cst_6
  let main_v20 : IVec S11x2 1 := cmpf .olt main_v18 main_v19
  let main_c_7 : IVec S_ 1 := constantI S_ 1 1#1
  let main_v21 : IVec S_ 1 := (fun x v => Host.reduce IntOp.andi x v reducesTo_S11x2_S_d0_1 h_S_) main_v20 main_c_7
  let main_v22 : IVec S_ 1 := andi main_v17 main_v21
  let main_v23 : FVec F S2 .f32 := Host.absf main_arg5
  let main_cst_8 : FVec F S_ .f32 := constant S_ .f32 0x7F800000#32
  let main_v24 : FVec F S2 .f32 := broadcastInDim S2 ![] bcast_S_S2 main_cst_8
  let main_v25 : IVec S2 1 := cmpf .olt main_v23 main_v24
  let main_c_9 : IVec S_ 1 := constantI S_ 1 1#1
  let main_v26 : IVec S_ 1 := (fun x v => Host.reduce IntOp.andi x v reducesTo_S2_S_d0 h_S_) main_v25 main_c_9
  let main_v27 : IVec S_ 1 := andi main_v22 main_v26
  let main_v28 : FVec F S2x15 .f32 := Host.absf main_arg6
  let main_cst_10 : FVec F S_ .f32 := constant S_ .f32 0x7F800000#32
  let main_v29 : FVec F S2x15 .f32 := broadcastInDim S2x15 ![] bcast_S_S2x15 main_cst_10
  let main_v30 : IVec S2x15 1 := cmpf .olt main_v28 main_v29
  let main_c_11 : IVec S_ 1 := constantI S_ 1 1#1
  let main_v31 : IVec S_ 1 := (fun x v => Host.reduce IntOp.andi x v reducesTo_S2x15_S_d0_1 h_S_) main_v30 main_c_11
  let main_v32 : IVec S_ 1 := andi main_v27 main_v31
  let main_v33 : FVec F S15 .f32 := Host.absf main_arg7
  fn_part2 (F := F) main_arg0 main_arg8 main_arg9 main_arg10 main_arg11 main_arg12 main_arg13 main_arg14 main_v32 main_v33

def fn {F : FTy → Type} [FloatOps F] (main_arg0 : FVec F S_ .f32) (main_arg1 : FVec F S1000000x4 .f32) (main_arg2 : FVec F S4x1000000x7 .f32) (main_arg3 : FVec F S4 .f32) (main_arg4 : FVec F S11x2 .f32) (main_arg5 : FVec F S2 .f32) (main_arg6 : FVec F S2x15 .f32) (main_arg7 : FVec F S15 .f32) (main_arg8 : FVec F S11x4 .f32) (main_arg9 : FVec F S4 .f32) (main_arg10 : FVec F S4x4 .f32) (main_arg11 : FVec F S4 .f32) (main_arg12 : IVec S4x5 32) (main_arg13 : IVec S4x5 32) (main_arg14 : IVec S2 32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S1000000x4 .f32 := Host.absf main_arg1
  let main_cst_0 : FVec F S_ .f32 := constant S_ .f32 0x7F800000#32
  let main_v4 : FVec F S1000000x4 .f32 := broadcastInDim S1000000x4 ![] bcast_S_S1000000x4 main_cst_0
  let main_v5 : IVec S1000000x4 1 := cmpf .olt main_v3 main_v4
  let main_c_1 : IVec S_ 1 := constantI S_ 1 1#1
  let main_v6 : IVec S_ 1 := (fun x v => Host.reduce IntOp.andi x v reducesTo_S1000000x4_S_d0_1 h_S_) main_v5 main_c_1
  let main_v7 : IVec S_ 1 := andi main_v2 main_v6
  let main_v8 : FVec F S4x1000000x7 .f32 := Host.absf main_arg2
  let main_cst_2 : FVec F S_ .f32 := constant S_ .f32 0x7F800000#32
  let main_v9 : FVec F S4x1000000x7 .f32 := broadcastInDim S4x1000000x7 ![] bcast_S_S4x1000000x7 main_cst_2
  let main_v10 : IVec S4x1000000x7 1 := cmpf .olt main_v8 main_v9
  let main_c_3 : IVec S_ 1 := constantI S_ 1 1#1
  let main_v11 : IVec S_ 1 := (fun x v => Host.reduce IntOp.andi x v reducesTo_S4x1000000x7_S_d0_1_2 h_S_) main_v10 main_c_3
  let main_v12 : IVec S_ 1 := andi main_v7 main_v11
  let main_v13 : FVec F S4 .f32 := Host.absf main_arg3
  let main_cst_4 : FVec F S_ .f32 := constant S_ .f32 0x7F800000#32
  let main_v14 : FVec F S4 .f32 := broadcastInDim S4 ![] bcast_S_S4 main_cst_4
  let main_v15 : IVec S4 1 := cmpf .olt main_v13 main_v14
  let main_c_5 : IVec S_ 1 := constantI S_ 1 1#1
  fn_part1 (F := F) main_arg0 main_arg4 main_arg5 main_arg6 main_arg7 main_arg8 main_arg9 main_arg10 main_arg11 main_arg12 main_arg13 main_arg14 main_v12 main_v15 main_c_5
-- ==== Kernel.lean ====
abbrev S_ : Shape := ⟨0, ![]⟩
abbrev S1000000x4 : Shape := ⟨2, ![1000000, 4]⟩
abbrev S4x1000000x7 : Shape := ⟨3, ![4, 1000000, 7]⟩
abbrev S4 : Shape := ⟨1, ![4]⟩
abbrev S11x2 : Shape := ⟨2, ![11, 2]⟩
abbrev S2 : Shape := ⟨1, ![2]⟩
abbrev S2x15 : Shape := ⟨2, ![2, 15]⟩
abbrev S15 : Shape := ⟨1, ![15]⟩
abbrev S11x4 : Shape := ⟨2, ![11, 4]⟩
abbrev S4x4 : Shape := ⟨2, ![4, 4]⟩
abbrev S4x5 : Shape := ⟨2, ![4, 5]⟩
abbrev S20x4 : Shape := ⟨2, ![20, 4]⟩
abbrev S1 : Shape := ⟨1, ![1]⟩
abbrev S4x5x1 : Shape := ⟨3, ![4, 5, 1]⟩
abbrev S1x1x6 : Shape := ⟨3, ![1, 1, 6]⟩
abbrev S4x5x6 : Shape := ⟨3, ![4, 5, 6]⟩
abbrev S20x6 : Shape := ⟨2, ![20, 6]⟩
abbrev S6x20 : Shape := ⟨2, ![6, 20]⟩
abbrev S1x1x15 : Shape := ⟨3, ![1, 1, 15]⟩
abbrev S4x5x15 : Shape := ⟨3, ![4, 5, 15]⟩
abbrev S20x15 : Shape := ⟨2, ![20, 15]⟩
abbrev S15x20 : Shape := ⟨2, ![15, 20]⟩
abbrev S2x1 : Shape := ⟨2, ![2, 1]⟩
abbrev S1x7 : Shape := ⟨2, ![1, 7]⟩
abbrev S2x7 : Shape := ⟨2, ![2, 7]⟩
abbrev S4x20 : Shape := ⟨2, ![4, 20]⟩
abbrev S2x20 : Shape := ⟨2, ![2, 20]⟩
abbrev S7x2 : Shape := ⟨2, ![7, 2]⟩
abbrev S7x20 : Shape := ⟨2, ![7, 20]⟩
abbrev S20x7 : Shape := ⟨2, ![20, 7]⟩
abbrev S4x2 : Shape := ⟨2, ![4, 2]⟩
abbrev S7x4 : Shape := ⟨2, ![7, 4]⟩
abbrev S2x4 : Shape := ⟨2, ![2, 4]⟩
abbrev S15x2 : Shape := ⟨2, ![15, 2]⟩
abbrev S4x7 : Shape := ⟨2, ![4, 7]⟩
abbrev S4x1 : Shape := ⟨2, ![4, 1]⟩
abbrev S15x1 : Shape := ⟨2, ![15, 1]⟩
abbrev S10000x4 : Shape := ⟨2, ![10000, 4]⟩
abbrev S1x10000x7 : Shape := ⟨3, ![1, 10000, 7]⟩
abbrev S10000x7 : Shape := ⟨2, ![10000, 7]⟩
abbrev S2x10000 : Shape := ⟨2, ![2, 10000]⟩
abbrev S15x10000 : Shape := ⟨2, ![15, 10000]⟩
abbrev S4x10000 : Shape := ⟨2, ![4, 10000]⟩
abbrev S20x10000 : Shape := ⟨2, ![20, 10000]⟩

abbrev nBuf : Space → Nat
  | .hbm => 79
  | .vmem => 22
  | .smem => 1
  | _ => 0

abbrev bufTy : (tb : Table) → Fin (tcTables nBuf tb) → BufTy
  | .hbm, ⟨0, _⟩ => ⟨S_, .f32⟩
  | .hbm, ⟨1, _⟩ => ⟨S1000000x4, .f32⟩
  | .hbm, ⟨2, _⟩ => ⟨S4x1000000x7, .f32⟩
  | .hbm, ⟨3, _⟩ => ⟨S4, .f32⟩
  | .hbm, ⟨4, _⟩ => ⟨S11x2, .f32⟩
  | .hbm, ⟨5, _⟩ => ⟨S2, .f32⟩
  | .hbm, ⟨6, _⟩ => ⟨S2x15, .f32⟩
  | .hbm, ⟨7, _⟩ => ⟨S15, .f32⟩
  | .hbm, ⟨8, _⟩ => ⟨S11x4, .f32⟩
  | .hbm, ⟨9, _⟩ => ⟨S4, .f32⟩
  | .hbm, ⟨10, _⟩ => ⟨S4x4, .f32⟩
  | .hbm, ⟨11, _⟩ => ⟨S4, .f32⟩
  | .hbm, ⟨12, _⟩ => ⟨S4x5, .i32⟩
  | .hbm, ⟨13, _⟩ => ⟨S4x5, .i32⟩
  | .hbm, ⟨14, _⟩ => ⟨S2, .i32⟩
  | .hbm, ⟨15, _⟩ => ⟨S20x4, .f32⟩
  | .hbm, ⟨16, _⟩ => ⟨S_, .f32⟩
  | .hbm, ⟨17, _⟩ => ⟨S_, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x5x1, .i32⟩
  | .hbm, ⟨26, _⟩ => ⟨S1x1x6, .i32⟩
  | .hbm, ⟨27, _⟩ => ⟨S4x5x6, .i32⟩
  | .hbm, ⟨28, _⟩ => ⟨S4x5x6, .i32⟩
  | .hbm, ⟨29, _⟩ => ⟨S4x5x6, .i1⟩
  | .hbm, ⟨30, _⟩ => ⟨S4x5x6, .f32⟩
  | .hbm, ⟨31, _⟩ => ⟨S20x6, .f32⟩
  | .hbm, ⟨32, _⟩ => ⟨S6x20, .f32⟩
  | .hbm, ⟨33, _⟩ => ⟨S4x5x1, .i32⟩
  | .hbm, ⟨34, _⟩ => ⟨S1x1x15, .i32⟩
  | .hbm, ⟨35, _⟩ => ⟨S4x5x15, .i32⟩
  | .hbm, ⟨36, _⟩ => ⟨S4x5x15, .i32⟩
  | .hbm, ⟨37, _⟩ => ⟨S4x5x15, .i1⟩
  | .hbm, ⟨38, _⟩ => ⟨S4x5x15, .f32⟩
  | .hbm, ⟨39, _⟩ => ⟨S20x15, .f32⟩
  | .hbm, ⟨40, _⟩ => ⟨S15x20, .f32⟩
  | .hbm, ⟨41, _⟩ => ⟨S2x1, .i32⟩
  | .hbm, ⟨42, _⟩ => ⟨S1x7, .i32⟩
  | .hbm, ⟨43, _⟩ => ⟨S2x7, .i32⟩
  | .hbm, ⟨44, _⟩ => ⟨S2x7, .i32⟩
  | .hbm, ⟨45, _⟩ => ⟨S2x7, .i1⟩
  | .hbm, ⟨46, _⟩ => ⟨S2x7, .f32⟩
  | .hbm, ⟨47, _⟩ => ⟨S4x20, .f32⟩
  | .hbm, ⟨48, _⟩ => ⟨S2x20, .f32⟩
  | .hbm, ⟨49, _⟩ => ⟨S7x2, .f32⟩
  | .hbm, ⟨50, _⟩ => ⟨S7x20, .f32⟩
  | .hbm, ⟨51, _⟩ => ⟨S20x4, .f32⟩
  | .hbm, ⟨52, _⟩ => ⟨S20x7, .f32⟩
  | .hbm, ⟨53, _⟩ => ⟨S20x15, .f32⟩
  | .hbm, ⟨54, _⟩ => ⟨S4x20, .f32⟩
  | .hbm, ⟨55, _⟩ => ⟨S4x4, .i32⟩
  | .hbm, ⟨56, _⟩ => ⟨S4x4, .i32⟩
  | .hbm, ⟨57, _⟩ => ⟨S_, .i32⟩
  | .hbm, ⟨58, _⟩ => ⟨S4x4, .i32⟩
  | .hbm, ⟨59, _⟩ => ⟨S4x4, .i32⟩
  | .hbm, ⟨60, _⟩ => ⟨S4x4, .i1⟩
  | .hbm, ⟨61, _⟩ => ⟨S4x4, .f32⟩
  | .hbm, ⟨62, _⟩ => ⟨S7x2, .f32⟩
  | .hbm, ⟨63, _⟩ => ⟨S4x2, .f32⟩
  | .hbm, ⟨64, _⟩ => ⟨S7x4, .f32⟩
  | .hbm, ⟨65, _⟩ => ⟨S4x4, .f32⟩
  | .hbm, ⟨66, _⟩ => ⟨S2x7, .f32⟩
  | .hbm, ⟨67, _⟩ => ⟨S2x4, .f32⟩
  | .hbm, ⟨68, _⟩ => ⟨S15x2, .f32⟩
  | .hbm, ⟨69, _⟩ => ⟨S4x7, .f32⟩
  | .hbm, ⟨70, _⟩ => ⟨S4x4, .f32⟩
  | .hbm, ⟨71, _⟩ => ⟨S4x4, .f32⟩
  | .hbm, ⟨72, _⟩ => ⟨S4, .f32⟩
  | .hbm, ⟨73, _⟩ => ⟨S4x1, .f32⟩
  | .hbm, ⟨74, _⟩ => ⟨S2x1, .f32⟩
  | .hbm, ⟨75, _⟩ => ⟨S15x1, .f32⟩
  | .hbm, ⟨76, _⟩ => ⟨S4x1, .f32⟩
  | .hbm, ⟨77, _⟩ => ⟨S4x1, .f32⟩
  | .hbm, ⟨78, _⟩ => ⟨S1000000x4, .f32⟩
  | .local _ .vmem, ⟨0, _⟩ => ⟨S10000x4, .f32⟩
  | .local _ .vmem, ⟨1, _⟩ => ⟨S10000x4, .f32⟩
  | .local _ .vmem, ⟨2, _⟩ => ⟨S1x10000x7, .f32⟩
  | .local _ .vmem, ⟨3, _⟩ => ⟨S1x10000x7, .f32⟩
  | .local _ .vmem, ⟨4, _⟩ => ⟨S4x1, .f32⟩
  | .local _ .vmem, ⟨5, _⟩ => ⟨S2x7, .f32⟩
  | .local _ .vmem, ⟨6, _⟩ => ⟨S2x4, .f32⟩
  | .local _ .vmem, ⟨7, _⟩ => ⟨S2x1, .f32⟩
  | .local _ .vmem, ⟨8, _⟩ => ⟨S15x2, .f32⟩
  | .local _ .vmem, ⟨9, _⟩ => ⟨S15x1, .f32⟩
  | .local _ .vmem, ⟨10, _⟩ => ⟨S4x7, .f32⟩
  | .local _ .vmem, ⟨11, _⟩ => ⟨S4x4, .f32⟩
  | .local _ .vmem, ⟨12, _⟩ => ⟨S4x1, .f32⟩
  | .local _ .vmem, ⟨13, _⟩ => ⟨S4x4, .f32⟩
  | .local _ .vmem, ⟨14, _⟩ => ⟨S4x1, .f32⟩
  | .local _ .vmem, ⟨15, _⟩ => ⟨S20x4, .f32⟩
  | .local _ .vmem, ⟨16, _⟩ => ⟨S20x7, .f32⟩
  | .local _ .vmem, ⟨17, _⟩ => ⟨S20x15, .f32⟩
  | .local _ .vmem, ⟨18, _⟩ => ⟨S4x20, .f32⟩
  | .local _ .vmem, ⟨19, _⟩ => ⟨S4x4, .f32⟩
  | .local _ .vmem, ⟨20, _⟩ => ⟨S10000x4, .f32⟩
  | .local _ .vmem, ⟨21, _⟩ => ⟨S10000x4, .f32⟩
  | .local _ .smem, ⟨0, _⟩ => ⟨S1, .i32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![100], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S20x7 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20x15 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x20 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S10000x4 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S_S1 : S_.ShapeCasts S1
  bcast_S4x5_S4x5x1_0_1 : S4x5.BroadcastsInDim S4x5x1 (![0, 1] : Fin 2 → Fin S4x5x1.rank)
  bcast_S4x5x1_S4x5x6_0_1_2 : S4x5x1.BroadcastsInDim S4x5x6 (![0, 1, 2] : Fin 3 → Fin S4x5x6.rank)
  bcast_S1x1x6_S4x5x6_0_1_2 : S1x1x6.BroadcastsInDim S4x5x6 (![0, 1, 2] : Fin 3 → Fin S4x5x6.rank)
  shapeCasts_S4x5x6_S20x6 : S4x5x6.ShapeCasts S20x6
  transposes_S20x6_S6x20_1_0 : S20x6.Transposes [1, 0] S6x20
  bcast_S4x5x1_S4x5x15_0_1_2 : S4x5x1.BroadcastsInDim S4x5x15 (![0, 1, 2] : Fin 3 → Fin S4x5x15.rank)
  bcast_S1x1x15_S4x5x15_0_1_2 : S1x1x15.BroadcastsInDim S4x5x15 (![0, 1, 2] : Fin 3 → Fin S4x5x15.rank)
  shapeCasts_S4x5x15_S20x15 : S4x5x15.ShapeCasts S20x15
  transposes_S20x15_S15x20_1_0 : S20x15.Transposes [1, 0] S15x20
  bcast_S2_S2x1_0 : S2.BroadcastsInDim S2x1 (![0] : Fin 1 → Fin S2x1.rank)
  bcast_S2x1_S2x7_0_1 : S2x1.BroadcastsInDim S2x7 (![0, 1] : Fin 2 → Fin S2x7.rank)
  bcast_S1x7_S2x7_0_1 : S1x7.BroadcastsInDim S2x7 (![0, 1] : Fin 2 → Fin S2x7.rank)
  slices_S6x20_S4x20_0_0 : S6x20.Slices ![0, 0] S4x20
  slices_S6x20_S2x20_4_0 : S6x20.Slices ![4, 0] S2x20
  transposes_S2x7_S7x2_1_0 : S2x7.Transposes [1, 0] S7x2
  transposes_S4x20_S20x4_1_0 : S4x20.Transposes [1, 0] S20x4
  transposes_S7x20_S20x7_1_0 : S7x20.Transposes [1, 0] S20x7
  transposes_S15x20_S20x15_1_0 : S15x20.Transposes [1, 0] S20x15
  transposes_S20x4_S4x20_1_0 : S20x4.Transposes [1, 0] S4x20
  bcast_S_S4x4 : S_.BroadcastsInDim S4x4 (![] : Fin 0 → Fin S4x4.rank)
  slices_S11x2_S7x2_0_0 : S11x2.Slices ![0, 0] S7x2
  slices_S11x2_S4x2_7_0 : S11x2.Slices ![7, 0] S4x2
  slices_S11x4_S7x4_0_0 : S11x4.Slices ![0, 0] S7x4
  slices_S11x4_S4x4_7_0 : S11x4.Slices ![7, 0] S4x4
  transposes_S7x2_S2x7_1_0 : S7x2.Transposes [1, 0] S2x7
  transposes_S4x2_S2x4_1_0 : S4x2.Transposes [1, 0] S2x4
  transposes_S2x15_S15x2_1_0 : S2x15.Transposes [1, 0] S15x2
  transposes_S7x4_S4x7_1_0 : S7x4.Transposes [1, 0] S4x7
  transposes_S4x4_S4x4_1_0 : S4x4.Transposes [1, 0] S4x4
  shapeCasts_S4_S4x1 : S4.ShapeCasts S4x1
  shapeCasts_S2_S2x1 : S2.ShapeCasts S2x1
  shapeCasts_S15_S15x1 : S15.ShapeCasts S15x1
  inb_S1_S1_0 : ∀ a, (![0] : Fin 1 → Nat) a + S1.size a ≤ S1.size a
  numel1_S1 : S1.numel = 1
  inb_S10000x4_S10000x4_0_0 : ∀ a, (![0, 0] : Fin 2 → Nat) a + S10000x4.size a ≤ S10000x4.size a
  h_S10000x4 : 0 < S10000x4.numel
  inb_S1x10000x7_S1x10000x7_0_0_0 : ∀ a, (![0, 0, 0] : Fin 3 → Nat) a + S1x10000x7.size a ≤ S1x10000x7.size a
  h_S1x10000x7 : 0 < S1x10000x7.numel
  shapeCasts_S1x10000x7_S10000x7 : S1x10000x7.ShapeCasts S10000x7
  inb_S2x7_S2x7_0_0 : ∀ a, (![0, 0] : Fin 2 → Nat) a + S2x7.size a ≤ S2x7.size a
  h_S2x7 : 0 < S2x7.numel
  shapeCasts_S2x7_S2x7 : S2x7.ShapeCasts S2x7
  inb_S2x4_S2x4_0_0 : ∀ a, (![0, 0] : Fin 2 → Nat) a + S2x4.size a ≤ S2x4.size a
  h_S2x4 : 0 < S2x4.numel
  shapeCasts_S2x4_S2x4 : S2x4.ShapeCasts S2x4
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x10000 : S2x1.Broadcasts S2x10000
  inb_S15x2_S15x2_0_0 : ∀ a, (![0, 0] : Fin 2 → Nat) a + S15x2.size a ≤ S15x2.size a
  h_S15x2 : 0 < S15x2.numel
  shapeCasts_S15x2_S15x2 : S15x2.ShapeCasts S15x2
  inb_S15x1_S15x1_0_0 : ∀ a, (![0, 0] : Fin 2 → Nat) a + S15x1.size a ≤ S15x1.size a
  h_S15x1 : 0 < S15x1.numel
  shapeCasts_S15x1_S15x1 : S15x1.ShapeCasts S15x1
  broadcasts_S15x1_S15x10000 : S15x1.Broadcasts S15x10000
  inb_S4x7_S4x7_0_0 : ∀ a, (![0, 0] : Fin 2 → Nat) a + S4x7.size a ≤ S4x7.size a
  h_S4x7 : 0 < S4x7.numel
  shapeCasts_S4x7_S4x7 : S4x7.ShapeCasts S4x7
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x10000 : S4x1.Broadcasts S4x10000
  inb_S20x4_S20x4_0_0 : ∀ a, (![0, 0] : Fin 2 → Nat) a + S20x4.size a ≤ S20x4.size a
  h_S20x4 : 0 < S20x4.numel
  shapeCasts_S20x4_S20x4 : S20x4.ShapeCasts S20x4
  inb_S20x7_S20x7_0_0 : ∀ a, (![0, 0] : Fin 2 → Nat) a + S20x7.size a ≤ S20x7.size a
  h_S20x7 : 0 < S20x7.numel
  shapeCasts_S20x7_S20x7 : S20x7.ShapeCasts S20x7
  inb_S20x15_S20x15_0_0 : ∀ a, (![0, 0] : Fin 2 → Nat) a + S20x15.size a ≤ S20x15.size a
  h_S20x15 : 0 < S20x15.numel
  shapeCasts_S20x15_S20x15 : S20x15.ShapeCasts S20x15
  inb_S4x20_S4x20_0_0 : ∀ a, (![0, 0] : Fin 2 → Nat) a + S4x20.size a ≤ S4x20.size a
  h_S4x20 : 0 < S4x20.numel
  shapeCasts_S4x20_S4x20 : S4x20.ShapeCasts S4x20
  dot_S7x2_S2x20_S7x20_1_0_0_1_n_n_wf : DotDims.WF S7x2 S2x20 S7x20 [1] [0] [0] [1] [] []
  dot_S2x7_S10000x7_S2x10000_1_1_0_0_n_n_wf : DotDims.WF S2x7 S10000x7 S2x10000 [1] [1] [0] [0] [] []
  dot_S2x4_S10000x4_S2x10000_1_1_0_0_n_n_wf : DotDims.WF S2x4 S10000x4 S2x10000 [1] [1] [0] [0] [] []
  dot_S15x2_S2x10000_S15x10000_1_0_0_1_n_n_wf : DotDims.WF S15x2 S2x10000 S15x10000 [1] [0] [0] [1] [] []
  dot_S4x7_S10000x7_S4x10000_1_1_0_0_n_n_wf : DotDims.WF S4x7 S10000x7 S4x10000 [1] [1] [0] [0] [] []
  dot_S4x4_S10000x4_S4x10000_1_1_0_0_n_n_wf : DotDims.WF S4x4 S10000x4 S4x10000 [1] [1] [0] [0] [] []
  dot_S4x4_S4x10000_S4x10000_1_0_0_1_n_n_wf : DotDims.WF S4x4 S4x10000 S4x10000 [1] [0] [0] [1] [] []
  dot_S20x4_S10000x4_S20x10000_1_1_0_0_n_n_wf : DotDims.WF S20x4 S10000x4 S20x10000 [1] [1] [0] [0] [] []
  dot_S20x7_S10000x7_S20x10000_1_1_0_0_n_n_wf : DotDims.WF S20x7 S10000x7 S20x10000 [1] [1] [0] [0] [] []
  dot_S20x15_S15x10000_S20x10000_1_0_0_1_n_n_wf : DotDims.WF S20x15 S15x10000 S20x10000 [1] [0] [0] [1] [] []
  dot_S4x20_S20x10000_S4x10000_1_0_0_1_n_n_wf : DotDims.WF S4x20 S20x10000 S4x10000 [1] [0] [0] [1] [] []
  dot_S4x10000_S4x4_S10000x4_0_0_1_1_n_n_wf : DotDims.WF S4x10000 S4x4 S10000x4 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S1000000x4.size a
  hwx0_0 : ∀ i : grid0.Coords, EltTy.bits .f32 = 32 ∨ (Rect.block (s := S1000000x4) S10000x4.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S1_S1_0 numel1_S1 pf i = cc0_transform_1 inb_S1_S1_0 numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x7.size a ≤ S2x7.size a
  hwx0_3 : ∀ i : grid0.Coords, EltTy.bits .f32 = 32 ∨ (Rect.block (s := S2x7) S2x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x4.size a ≤ S2x4.size a
  hwx0_4 : ∀ i : grid0.Coords, EltTy.bits .f32 = 32 ∨ (Rect.block (s := S2x4) S2x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1.size a ≤ S2x1.size a
  hwx0_5 : ∀ i : grid0.Coords, EltTy.bits .f32 = 32 ∨ (Rect.block (s := S2x1) S2x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x2.size a ≤ S15x2.size a
  hwx0_6 : ∀ i : grid0.Coords, EltTy.bits .f32 = 32 ∨ (Rect.block (s := S15x2) S15x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x1.size a ≤ S15x1.size a
  hwx0_7 : ∀ i : grid0.Coords, EltTy.bits .f32 = 32 ∨ (Rect.block (s := S15x1) S15x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x7.size a ≤ S4x7.size a
  hwx0_8 : ∀ i : grid0.Coords, EltTy.bits .f32 = 32 ∨ (Rect.block (s := S4x7) S4x7.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x4.size a ≤ S4x4.size a
  hwx0_9 : ∀ i : grid0.Coords, EltTy.bits .f32 = 32 ∨ (Rect.block (s := S4x4) S4x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1.size a ≤ S4x1.size a
  hwx0_10 : ∀ i : grid0.Coords, EltTy.bits .f32 = 32 ∨ (Rect.block (s := S4x1) S4x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x4.size a ≤ S4x4.size a
  hwx0_11 : ∀ i : grid0.Coords, EltTy.bits .f32 = 32 ∨ (Rect.block (s := S4x4) S4x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .f32 = 32 ∨ (Rect.block (s := S4x1) S4x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x4.size a ≤ S20x4.size a
  hwx0_13 : ∀ i : grid0.Coords, EltTy.bits .f32 = 32 ∨ (Rect.block (s := S20x4) S20x4.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S20x7.size a ≤ S20x7.size a
  hwx0_14 : ∀ i : grid0.Coords, EltTy.bits .f32 = 32 ∨ (Rect.block (s := S20x7) S20x7.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S20x15.size a ≤ S20x15.size a
  hwx0_15 : ∀ i : grid0.Coords, EltTy.bits .f32 = 32 ∨ (Rect.block (s := S20x15) S20x15.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4x20.size a ≤ S4x20.size a
  hwx0_16 : ∀ i : grid0.Coords, EltTy.bits .f32 = 32 ∨ (Rect.block (s := S4x20) S4x20.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x4.size a ≤ S4x4.size a
  hwx0_17 : ∀ i : grid0.Coords, EltTy.bits .f32 = 32 ∨ (Rect.block (s := S4x4) S4x4.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S10000x4.size a ≤ S1000000x4.size a
  hwx0_18 : ∀ i : grid0.Coords, EltTy.bits .f32 = 32 ∨ (Rect.block (s := S1000000x4) S10000x4.size (cc0_transform_18 i) (hinb0_18 i)).WholeWords (EltTy.packing .f32)

variable [Facts₀]

def dot_S7x2_S2x20_S7x20_1_0_0_1_n_n : DotDims S7x2 S2x20 S7x20 where
  lhsContracting := [1]
  rhsContracting := [0]
  lhsNonContracting := [0]
  rhsNonContracting := [1]
  lhsBatch := []
  rhsBatch := []
  wf := dot_S7x2_S2x20_S7x20_1_0_0_1_n_n_wf
def dot_S2x7_S10000x7_S2x10000_1_1_0_0_n_n : DotDims S2x7 S10000x7 S2x10000 where
  lhsContracting := [1]
  rhsContracting := [1]
  lhsNonContracting := [0]
  rhsNonContracting := [0]
  lhsBatch := []
  rhsBatch := []
  wf := dot_S2x7_S10000x7_S2x10000_1_1_0_0_n_n_wf
def dot_S2x4_S10000x4_S2x10000_1_1_0_0_n_n : DotDims S2x4 S10000x4 S2x10000 where
  lhsContracting := [1]
  rhsContracting := [1]
  lhsNonContracting := [0]
  rhsNonContracting := [0]
  lhsBatch := []
  rhsBatch := []
  wf := dot_S2x4_S10000x4_S2x10000_1_1_0_0_n_n_wf
def dot_S15x2_S2x10000_S15x10000_1_0_0_1_n_n : DotDims S15x2 S2x10000 S15x10000 where
  lhsContracting := [1]
  rhsContracting := [0]
  lhsNonContracting := [0]
  rhsNonContracting := [1]
  lhsBatch := []
  rhsBatch := []
  wf := dot_S15x2_S2x10000_S15x10000_1_0_0_1_n_n_wf
def dot_S4x7_S10000x7_S4x10000_1_1_0_0_n_n : DotDims S4x7 S10000x7 S4x10000 where
  lhsContracting := [1]
  rhsContracting := [1]
  lhsNonContracting := [0]
  rhsNonContracting := [0]
  lhsBatch := []
  rhsBatch := []
  wf := dot_S4x7_S10000x7_S4x10000_1_1_0_0_n_n_wf
def dot_S4x4_S10000x4_S4x10000_1_1_0_0_n_n : DotDims S4x4 S10000x4 S4x10000 where
  lhsContracting := [1]
  rhsContracting := [1]
  lhsNonContracting := [0]
  rhsNonContracting := [0]
  lhsBatch := []
  rhsBatch := []
  wf := dot_S4x4_S10000x4_S4x10000_1_1_0_0_n_n_wf
def dot_S4x4_S4x10000_S4x10000_1_0_0_1_n_n : DotDims S4x4 S4x10000 S4x10000 where
  lhsContracting := [1]
  rhsContracting := [0]
  lhsNonContracting := [0]
  rhsNonContracting := [1]
  lhsBatch := []
  rhsBatch := []
  wf := dot_S4x4_S4x10000_S4x10000_1_0_0_1_n_n_wf
def dot_S20x4_S10000x4_S20x10000_1_1_0_0_n_n : DotDims S20x4 S10000x4 S20x10000 where
  lhsContracting := [1]
  rhsContracting := [1]
  lhsNonContracting := [0]
  rhsNonContracting := [0]
  lhsBatch := []
  rhsBatch := []
  wf := dot_S20x4_S10000x4_S20x10000_1_1_0_0_n_n_wf
def dot_S20x7_S10000x7_S20x10000_1_1_0_0_n_n : DotDims S20x7 S10000x7 S20x10000 where
  lhsContracting := [1]
  rhsContracting := [1]
  lhsNonContracting := [0]
  rhsNonContracting := [0]
  lhsBatch := []
  rhsBatch := []
  wf := dot_S20x7_S10000x7_S20x10000_1_1_0_0_n_n_wf
def dot_S20x15_S15x10000_S20x10000_1_0_0_1_n_n : DotDims S20x15 S15x10000 S20x10000 where
  lhsContracting := [1]
  rhsContracting := [0]
  lhsNonContracting := [0]
  rhsNonContracting := [1]
  lhsBatch := []
  rhsBatch := []
  wf := dot_S20x15_S15x10000_S20x10000_1_0_0_1_n_n_wf
def dot_S4x20_S20x10000_S4x10000_1_0_0_1_n_n : DotDims S4x20 S20x10000 S4x10000 where
  lhsContracting := [1]
  rhsContracting := [0]
  lhsNonContracting := [0]
  rhsNonContracting := [1]
  lhsBatch := []
  rhsBatch := []
  wf := dot_S4x20_S20x10000_S4x10000_1_0_0_1_n_n_wf
def dot_S4x10000_S4x4_S10000x4_0_0_1_1_n_n : DotDims S4x10000 S4x4 S10000x4 where
  lhsContracting := [0]
  rhsContracting := [0]
  lhsNonContracting := [1]
  rhsNonContracting := [1]
  lhsBatch := []
  rhsBatch := []
  wf := dot_S4x10000_S4x4_S10000x4_0_0_1_1_n_n_wf

abbrev spec0_0 : Pipeline.WinSpec sig grid0.rank :=
  Pipeline.WinSpec.ofSpec (Memref.whole main_arg1) S10000x4.size reads0_0 false false 2 stage0_0 sem0_0 nbuf0_0 hstage0_0

abbrev spec0_1 : Pipeline.WinSpec sig grid0.rank :=
  Pipeline.WinSpec.ofSpec (Memref.whole main_arg2) S1x10000x7.size reads0_1 false false 2 stage0_1 sem0_1 nbuf0_1 hstage0_1

abbrev spec0_2 : Pipeline.WinSpec sig grid0.rank :=
  Pipeline.WinSpec.ofSpec (Memref.whole main_v36) S4x1.size reads0_2 false true 1 stage0_2 sem0_2 nbuf0_2 hstage0_2

abbrev spec0_3 : Pipeline.WinSpec sig grid0.rank :=
  Pipeline.WinSpec.ofSpec (Memref.whole main_v29) S2x7.size reads0_3 false true 1 stage0_3 sem0_3 nbuf0_3 hstage0_3

abbrev spec0_4 : Pipeline.WinSpec sig grid0.rank :=
  Pipeline.WinSpec.ofSpec (Memref.whole main_v30) S2x4.size reads0_4 false true 1 stage0_4 sem0_4 nbuf0_4 hstage0_4

abbrev spec0_5 : Pipeline.WinSpec sig grid0.rank :=
  Pipeline.WinSpec.ofSpec (Memref.whole main_v37) S2x1.size reads0_5 false true 1 stage0_5 sem0_5 nbuf0_5 hstage0_5

abbrev spec0_6 : Pipeline.WinSpec sig grid0.rank :=
  Pipeline.WinSpec.ofSpec (Memref.whole main_v31) S15x2.size reads0_6 false true 1 stage0_6 sem0_6 nbuf0_6 hstage0_6

abbrev spec0_7 : Pipeline.WinSpec sig grid0.rank :=
  Pipeline.WinSpec.ofSpec (Memref.whole main_v38) S15x1.size reads0_7 false true 1 stage0_7 sem0_7 nbuf0_7 hstage0_7

abbrev spec0_8 : Pipeline.WinSpec sig grid0.rank :=
  Pipeline.WinSpec.ofSpec (Memref.whole main_v32) S4x7.size reads0_8 false true 1 stage0_8 sem0_8 nbuf0_8 hstage0_8

abbrev spec0_9 : Pipeline.WinSpec sig grid0.rank :=
  Pipeline.WinSpec.ofSpec (Memref.whole main_v33) S4x4.size reads0_9 false true 1 stage0_9 sem0_9 nbuf0_9 hstage0_9

abbrev spec0_10 : Pipeline.WinSpec sig grid0.rank :=
  Pipeline.WinSpec.ofSpec (Memref.whole main_v39) S4x1.size reads0_10 false true 1 stage0_10 sem0_10 nbuf0_10 hstage0_10

abbrev spec0_11 : Pipeline.WinSpec sig grid0.rank :=
  Pipeline.WinSpec.ofSpec (Memref.whole main_v34) S4x4.size reads0_11 false true 1 stage0_11 sem0_11 nbuf0_11 hstage0_11

abbrev spec0_12 : Pipeline.WinSpec sig grid0.rank :=
  Pipeline.WinSpec.ofSpec (Memref.whole main_v40) S4x1.size reads0_12 false true 1 stage0_12 sem0_12 nbuf0_12 hstage0_12

abbrev spec0_13 : Pipeline.WinSpec sig grid0.rank :=
  Pipeline.WinSpec.ofSpec (Memref.whole main_v15) S20x4.size reads0_13 false true 1 stage0_13 sem0_13 nbuf0_13 hstage0_13

abbrev spec0_14 : Pipeline.WinSpec sig grid0.rank :=
  Pipeline.WinSpec.ofSpec (Memref.whole main_v16) S20x7.size reads0_14 false true 1 stage0_14 sem0_14 nbuf0_14 hstage0_14

abbrev spec0_15 : Pipeline.WinSpec sig grid0.rank :=
  Pipeline.WinSpec.ofSpec (Memref.whole main_v17) S20x15.size reads0_15 false true 1 stage0_15 sem0_15 nbuf0_15 hstage0_15

abbrev spec0_16 : Pipeline.WinSpec sig grid0.rank :=
  Pipeline.WinSpec.ofSpec (Memref.whole main_v18) S4x20.size reads0_16 false true 1 stage0_16 sem0_16 nbuf0_16 hstage0_16

abbrev spec0_17 : Pipeline.WinSpec sig grid0.rank :=
  Pipeline.WinSpec.ofSpec (Memref.whole main_v24) S4x4.size reads0_17 false true 1 stage0_17 sem0_17 nbuf0_17 hstage0_17

abbrev spec0_18 : Pipeline.WinSpec sig grid0.rank :=
  Pipeline.WinSpec.ofSpec (Memref.whole main_v41) S10000x4.size reads0_18 true false 2 stage0_18 sem0_18 nbuf0_18 hstage0_18

abbrev spec0 : Fin 19 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | 15 => spec0_15 | 16 => spec0_16 | 17 => spec0_17 | 18 => spec0_18 | ⟨_ + 19, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | 15 => nbuf0_15 | 16 => nbuf0_16 | 17 => nbuf0_17 | 18 => nbuf0_18 | ⟨_ + 19, h⟩ => absurd h (Nat.not_lt.2 (Nat.le_add_left _ _))
abbrev ix0 (pf : pre0.Contents (Elt F)) : (w : Fin 19) → grid0.Coords → Fin (spec0 w).shape.rank → Nat := fun | 0 => cc0_transform_0 | 1 => cc0_transform_1 inb_S1_S1_0 numel1_S1 pf | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | 11 => cc0_transform_11 | 12 => cc0_transform_12 | 13 => cc0_transform_13 | 14 => cc0_transform_14 | 15 => cc0_transform_15 | 16 => cc0_transform_16 | 17 => cc0_transform_17 | 18 => cc0_transform_18 | ⟨_ + 19, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | 13 => hreads0_13 | 14 => hreads0_14 | 15 => hreads0_15 | 16 => hreads0_16 | 17 => hreads0_17 | 18 => hreads0_18 | ⟨_ + 19, h⟩ => absurd h (Nat.not_lt.2 (Nat.le_add_left _ _))
def ok0 (pf : pre0.Contents (Elt F)) : Prop :=
  (∀ i : grid0.Coords, ∃ h : (∀ a, (cc0_transform_1 inb_S1_S1_0 numel1_S1 pf i a + 1) * S1x10000x7.size a ≤ S4x1000000x7.size a), EltTy.bits .f32 = 32 ∨ (Rect.block (s := S4x1000000x7) S1x10000x7.size (cc0_transform_1 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | 13 => hinb0_13 | 14 => hinb0_14 | 15 => hinb0_15 | 16 => hinb0_16 | 17 => hinb0_17 | 18 => hinb0_18 | ⟨_ + 19, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | 13 => hwx0_13 | 14 => hwx0_14 | 15 => hwx0_15 | 16 => hwx0_16 | 17 => hwx0_17 | 18 => hwx0_18 | ⟨_ + 19, h⟩ => absurd h (Nat.not_lt.2 (Nat.le_add_left _ _))

class Facts : Prop extends Facts₀ where
  harr0 : ∀ w, (spec0 w).arr.IsWhole

variable [Facts]
-- ==== ReferenceIdeal.lean ====
abbrev S_ : Shape := ⟨0, ![]⟩
abbrev S1000000x4 : Shape := ⟨2, ![1000000, 4]⟩
abbrev S4x1000000x7 : Shape := ⟨3, ![4, 1000000, 7]⟩
abbrev S4 : Shape := ⟨1, ![4]⟩
abbrev S11x2 : Shape := ⟨2, ![11, 2]⟩
abbrev S2 : Shape := ⟨1, ![2]⟩
abbrev S2x15 : Shape := ⟨2, ![2, 15]⟩
abbrev S15 : Shape := ⟨1, ![15]⟩
abbrev S11x4 : Shape := ⟨2, ![11, 4]⟩
abbrev S4x4 : Shape := ⟨2, ![4, 4]⟩
abbrev S4x5 : Shape := ⟨2, ![4, 5]⟩
abbrev S1x1000000x7 : Shape := ⟨3, ![1, 1000000, 7]⟩
abbrev S1000000x7 : Shape := ⟨2, ![1000000, 7]⟩
abbrev S2x1 : Shape := ⟨2, ![2, 1]⟩
abbrev S1000000x2 : Shape := ⟨2, ![1000000, 2]⟩
abbrev S1000000x6 : Shape := ⟨2, ![1000000, 6]⟩
abbrev S1000000x11 : Shape := ⟨2, ![1000000, 11]⟩
abbrev S1x2 : Shape := ⟨2, ![1, 2]⟩
abbrev S1000000x15 : Shape := ⟨2, ![1000000, 15]⟩
abbrev S1x15 : Shape := ⟨2, ![1, 15]⟩
abbrev S1x4 : Shape := ⟨2, ![1, 4]⟩
abbrev S4x5x1 : Shape := ⟨3, ![4, 5, 1]⟩
abbrev S1000000x4x5 : Shape := ⟨3, ![1000000, 4, 5]⟩
abbrev S1000000x4x1 : Shape := ⟨3, ![1000000, 4, 1]⟩

abbrev nBuf : Space → Nat
  | .hbm => 133
  | .vmem => 0
  | .smem => 0
  | _ => 0

abbrev hbmTy0_0 (i : Nat) : BufTy := match i % 128 with
  | 0 => ⟨S_, .f32⟩
  | 1 => ⟨S1000000x4, .f32⟩
  | 2 => ⟨S4x1000000x7, .f32⟩
  | 3 => ⟨S4, .f32⟩
  | 4 => ⟨S11x2, .f32⟩
  | 5 => ⟨S2, .f32⟩
  | 6 => ⟨S2x15, .f32⟩
  | 7 => ⟨S15, .f32⟩
  | 8 => ⟨S11x4, .f32⟩
  | 9 => ⟨S4, .f32⟩
  | 10 => ⟨S4x4, .f32⟩
  | 11 => ⟨S4, .f32⟩
  | 12 => ⟨S4x5, .i32⟩
  | 13 => ⟨S4x5, .i32⟩
  | 14 => ⟨S2, .i32⟩
  | 15 => ⟨S_, .f32⟩
  | 16 => ⟨S_, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x1000000x7, .f32⟩
  | 40 => ⟨S1000000x7, .f32⟩
  | 41 => ⟨S_, .i32⟩
  | 42 => ⟨S2, .i32⟩
  | 43 => ⟨S2, .i1⟩
  | 44 => ⟨S_, .i32⟩
  | 45 => ⟨S2, .i32⟩
  | 46 => ⟨S2, .i32⟩
  | 47 => ⟨S2, .i32⟩
  | 48 => ⟨S2x1, .i32⟩
  | 49 => ⟨S1000000x2, .f32⟩
  | 50 => ⟨S1000000x6, .f32⟩
  | 51 => ⟨S1000000x11, .f32⟩
  | 52 => ⟨S1000000x2, .f32⟩
  | 53 => ⟨S1x2, .f32⟩
  | 54 => ⟨S1000000x2, .f32⟩
  | 55 => ⟨S1000000x2, .f32⟩
  | 56 => ⟨S1000000x2, .f32⟩
  | 57 => ⟨S1000000x15, .f32⟩
  | 58 => ⟨S1x15, .f32⟩
  | 59 => ⟨S1000000x15, .f32⟩
  | 60 => ⟨S1000000x15, .f32⟩
  | 61 => ⟨S_, .f32⟩
  | 62 => ⟨S1000000x15, .f32⟩
  | 63 => ⟨S1000000x15, .i1⟩
  | 64 => ⟨S_, .f32⟩
  | 65 => ⟨S1000000x15, .f32⟩
  | 66 => ⟨S1000000x15, .i1⟩
  | 67 => ⟨S_, .f32⟩
  | 68 => ⟨S_, .f32⟩
  | 69 => ⟨S1000000x15, .f32⟩
  | 70 => ⟨S1000000x15, .f32⟩
  | 71 => ⟨S1000000x15, .f32⟩
  | 72 => ⟨S_, .f32⟩
  | 73 => ⟨S1000000x15, .f32⟩
  | 74 => ⟨S1000000x15, .f32⟩
  | 75 => ⟨S1000000x15, .f32⟩
  | 76 => ⟨S_, .f32⟩
  | 77 => ⟨S1000000x15, .f32⟩
  | 78 => ⟨S1000000x15, .f32⟩
  | 79 => ⟨S1000000x4, .f32⟩
  | 80 => ⟨S1x4, .f32⟩
  | 81 => ⟨S1000000x4, .f32⟩
  | 82 => ⟨S1000000x4, .f32⟩
  | 83 => ⟨S1000000x4, .f32⟩
  | 84 => ⟨S1000000x4, .f32⟩
  | 85 => ⟨S1x4, .f32⟩
  | 86 => ⟨S1000000x4, .f32⟩
  | 87 => ⟨S1000000x4, .f32⟩
  | 88 => ⟨S1000000x4, .f32⟩
  | 89 => ⟨S1000000x4, .f32⟩
  | 90 => ⟨S_, .f32⟩
  | 91 => ⟨S1000000x4, .f32⟩
  | 92 => ⟨S1000000x4, .f32⟩
  | 93 => ⟨S_, .f32⟩
  | 94 => ⟨S1000000x4, .f32⟩
  | 95 => ⟨S1000000x4, .f32⟩
  | 96 => ⟨S_, .i32⟩
  | 97 => ⟨S4x5, .i32⟩
  | 98 => ⟨S4x5, .i1⟩
  | 99 => ⟨S_, .i32⟩
  | 100 => ⟨S4x5, .i32⟩
  | 101 => ⟨S4x5, .i32⟩
  | 102 => ⟨S4x5, .i32⟩
  | 103 => ⟨S4x5x1, .i32⟩
  | 104 => ⟨S1000000x4x5, .f32⟩
  | 105 => ⟨S1000000x4x1, .f32⟩
  | 106 => ⟨S1000000x4x5, .f32⟩
  | 107 => ⟨S1000000x4x5, .f32⟩
  | 108 => ⟨S_, .i32⟩
  | 109 => ⟨S4x5, .i32⟩
  | 110 => ⟨S4x5, .i1⟩
  | 111 => ⟨S_, .i32⟩
  | 112 => ⟨S4x5, .i32⟩
  | 113 => ⟨S4x5, .i32⟩
  | 114 => ⟨S4x5, .i32⟩
  | 115 => ⟨S4x5x1, .i32⟩
  | 116 => ⟨S1000000x4x5, .f32⟩
  | 117 => ⟨S1000000x4x5, .f32⟩
  | 118 => ⟨S_, .f32⟩
  | 119 => ⟨S1000000x4, .f32⟩
  | 120 => ⟨S4, .f32⟩
  | 121 => ⟨S1000000x4, .f32⟩
  | 122 => ⟨S1x4, .f32⟩
  | 123 => ⟨S1000000x4, .f32⟩
  | 124 => ⟨S1000000x4, .f32⟩
  | 125 => ⟨S_, .f32⟩
  | 126 => ⟨S_, .f32⟩
  | 127 => ⟨S_, .f32⟩
  | _ => ⟨S_, .f32⟩

abbrev hbmTy0_1 (i : Nat) : BufTy := match i % 128 with
  | 0 => ⟨S1000000x4, .f32⟩
  | 1 => ⟨S1000000x4, .f32⟩
  | 2 => ⟨S_, .f32⟩
  | 3 => ⟨S1000000x4, .f32⟩
  | 4 => ⟨S1000000x4, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_c_2 : Ref sig .tc := ⟨.hbm, 24, rfl⟩
abbrev main_v5 : Ref sig .tc := ⟨.hbm, 25, rfl⟩
abbrev main_c_3 : Ref sig .tc := ⟨.hbm, 26, rfl⟩
abbrev main_c_4 : Ref sig .tc := ⟨.hbm, 27, rfl⟩
abbrev main_v6 : Ref sig .tc := ⟨.hbm, 28, rfl⟩
abbrev main_c_5 : Ref sig .tc := ⟨.hbm, 29, rfl⟩
abbrev main_v7 : Ref sig .tc := ⟨.hbm, 30, rfl⟩
abbrev main_c_6 : Ref sig .tc := ⟨.hbm, 31, rfl⟩
abbrev main_c_7 : Ref sig .tc := ⟨.hbm, 32, rfl⟩
abbrev main_v8 : Ref sig .tc := ⟨.hbm, 33, rfl⟩
abbrev main_c_8 : Ref sig .tc := ⟨.hbm, 34, rfl⟩
abbrev main_c_9 : Ref sig .tc := ⟨.hbm, 35, rfl⟩
abbrev main_v9 : Ref sig .tc := ⟨.hbm, 36, rfl⟩
abbrev main_c_10 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_11 : Ref sig .tc := ⟨.hbm, 41, rfl⟩
abbrev main_v13 : Ref sig .tc := ⟨.hbm, 42, rfl⟩
abbrev main_v14 : Ref sig .tc := ⟨.hbm, 43, rfl⟩
abbrev main_c_12 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_cst_1 : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_v4 : Ref sig .tc := ⟨.hbm, 70, rfl⟩
abbrev main_call0_v5 : Ref sig .tc := ⟨.hbm, 71, rfl⟩
abbrev main_call0_cst_2 : Ref sig .tc := ⟨.hbm, 72, rfl⟩
abbrev main_call0_v6 : Ref sig .tc := ⟨.hbm, 73, rfl⟩
abbrev main_call0_v7 : Ref sig .tc := ⟨.hbm, 74, rfl⟩
abbrev main_v31 : Ref sig .tc := ⟨.hbm, 75, rfl⟩
abbrev main_cst_13 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_14 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_c_16 : Ref sig .tc := ⟨.hbm, 96, rfl⟩
abbrev main_v49 : Ref sig .tc := ⟨.hbm, 97, rfl⟩
abbrev main_v50 : Ref sig .tc := ⟨.hbm, 98, rfl⟩
abbrev main_c_17 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_18 : Ref sig .tc := ⟨.hbm, 108, rfl⟩
abbrev main_v59 : Ref sig .tc := ⟨.hbm, 109, rfl⟩
abbrev main_v60 : Ref sig .tc := ⟨.hbm, 110, rfl⟩
abbrev main_c_19 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_20 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_21 : Ref sig .tc := ⟨.hbm, 125, rfl⟩
abbrev main_cst_22 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_v73 : Ref sig .tc := ⟨.hbm, 132, rfl⟩

abbrev nD : Nat := 1
abbrev τ : Topo := Topo.v7x

variable {F : FTy → Type} [FloatOps F]

class Facts₀ : Prop where
  sliceFits_S4x1000000x7_S1x1000000x7 : S4x1000000x7.Slices (fun _ => 0) S1x1000000x7
  h_S_ : 0 < S_.numel
  shapeCasts_S1x1000000x7_S1000000x7 : S1x1000000x7.ShapeCasts S1000000x7
  bcast_S_S2 : S_.BroadcastsInDim S2 (![] : Fin 0 → Fin S2.rank)
  bcast_S2_S2x1_0 : S2.BroadcastsInDim S2x1 (![0] : Fin 1 → Fin S2x1.rank)
  concatenates_S1000000x4_S1000000x2_S1000000x6_d1 : Shape.Concatenates [S1000000x4, S1000000x2] S1000000x6 1
  concatenates_S1000000x7_S1000000x4_S1000000x11_d1 : Shape.Concatenates [S1000000x7, S1000000x4] S1000000x11 1
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S15_S1x15_1 : S15.BroadcastsInDim S1x15 (![1] : Fin 1 → Fin S1x15.rank)
  bcast_S1x15_S1000000x15_0_1 : S1x15.BroadcastsInDim S1000000x15 (![0, 1] : Fin 2 → Fin S1000000x15.rank)
  bcast_S_S1000000x15 : S_.BroadcastsInDim S1000000x15 (![] : Fin 0 → Fin S1000000x15.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S1000000x4 : S_.BroadcastsInDim S1000000x4 (![] : Fin 0 → Fin S1000000x4.rank)
  bcast_S_S4x5 : S_.BroadcastsInDim S4x5 (![] : Fin 0 → Fin S4x5.rank)
  bcast_S4x5_S4x5x1_0_1 : S4x5.BroadcastsInDim S4x5x1 (![0, 1] : Fin 2 → Fin S4x5x1.rank)
  bcast_S1000000x4_S1000000x4x1_0_1 : S1000000x4.BroadcastsInDim S1000000x4x1 (![0, 1] : Fin 2 → Fin S1000000x4x1.rank)
  bcast_S1000000x4x1_S1000000x4x5_0_1_2 : S1000000x4x1.BroadcastsInDim S1000000x4x5 (![0, 1, 2] : Fin 3 → Fin S1000000x4x5.rank)
  reducesTo_S1000000x4x5_S1000000x4_d2 : S1000000x4x5.ReducesTo [2] S1000000x4
  gather_S1000000x7_S2x1_S1000000x2_0_1_n_n_1_1_10000001_wf : GatherDims.WF S1000000x7 S2x1 S1000000x2 [0] [1] [] [1] [] 1 ![1000000, 1]
  dot_S1000000x11_S11x2_S1000000x2_1_0_0_1_n_n_wf : DotDims.WF S1000000x11 S11x2 S1000000x2 [1] [0] [0] [1] [] []
  dot_S1000000x2_S2x15_S1000000x15_1_0_0_1_n_n_wf : DotDims.WF S1000000x2 S2x15 S1000000x15 [1] [0] [0] [1] [] []
  dot_S1000000x11_S11x4_S1000000x4_1_0_0_1_n_n_wf : DotDims.WF S1000000x11 S11x4 S1000000x4 [1] [0] [0] [1] [] []
  dot_S1000000x4_S4x4_S1000000x4_1_0_0_1_n_n_wf : DotDims.WF S1000000x4 S4x4 S1000000x4 [1] [0] [0] [1] [] []
  gather_S1000000x6_S4x5x1_S1000000x4x5_0_1_n_n_1_2_10000001_wf : GatherDims.WF S1000000x6 S4x5x1 S1000000x4x5 [0] [1] [] [1] [] 2 ![1000000, 1]
  gather_S1000000x15_S4x5x1_S1000000x4x5_0_1_n_n_1_2_10000001_wf : GatherDims.WF S1000000x15 S4x5x1 S1000000x4x5 [0] [1] [] [1] [] 2 ![1000000, 1]

variable [Facts₀]

def gather_S1000000x7_S2x1_S1000000x2_0_1_n_n_1_1_10000001 : GatherDims S1000000x7 S2x1 S1000000x2 where
  offsetDims := [0]
  collapsedSliceDims := [1]
  operandBatchingDims := []
  startIndicesBatchingDims := []
  startIndexMap := [1]
  indexVectorDim := 1
  sliceSizes := ![1000000, 1]
  wf := gather_S1000000x7_S2x1_S1000000x2_0_1_n_n_1_1_10000001_wf
def dot_S1000000x11_S11x2_S1000000x2_1_0_0_1_n_n : DotDims S1000000x11 S11x2 S1000000x2 where
  lhsContracting := [1]
  rhsContracting := [0]
  lhsNonContracting := [0]
  rhsNonContracting := [1]
  lhsBatch := []
  rhsBatch := []
  wf := dot_S1000000x11_S11x2_S1000000x2_1_0_0_1_n_n_wf
def dot_S1000000x2_S2x15_S1000000x15_1_0_0_1_n_n : DotDims S1000000x2 S2x15 S1000000x15 where
  lhsContracting := [1]
  rhsContracting := [0]
  lhsNonContracting := [0]
  rhsNonContracting := [1]
  lhsBatch := []
  rhsBatch := []
  wf := dot_S1000000x2_S2x15_S1000000x15_1_0_0_1_n_n_wf
def dot_S1000000x11_S11x4_S1000000x4_1_0_0_1_n_n : DotDims S1000000x11 S11x4 S1000000x4 where
  lhsContracting := [1]
  rhsContracting := [0]
  lhsNonContracting := [0]
  rhsNonContracting := [1]
  lhsBatch := []
  rhsBatch := []
  wf := dot_S1000000x11_S11x4_S1000000x4_1_0_0_1_n_n_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def gather_S1000000x6_S4x5x1_S1000000x4x5_0_1_n_n_1_2_10000001 : GatherDims S1000000x6 S4x5x1 S1000000x4x5 where
  offsetDims := [0]
  collapsedSliceDims := [1]
  operandBatchingDims := []
  startIndicesBatchingDims := []
  startIndexMap := [1]
  indexVectorDim := 2
  sliceSizes := ![1000000, 1]
  wf := gather_S1000000x6_S4x5x1_S1000000x4x5_0_1_n_n_1_2_10000001_wf
def gather_S1000000x15_S4x5x1_S1000000x4x5_0_1_n_n_1_2_10000001 : GatherDims S1000000x15 S4x5x1 S1000000x4x5 where
  offsetDims := [0]
  collapsedSliceDims := [1]
  operandBatchingDims := []
  startIndicesBatchingDims := []
  startIndexMap := [1]
  indexVectorDim := 2
  sliceSizes := ![1000000, 1]
  wf := gather_S1000000x15_S4x5x1_S1000000x4x5_0_1_n_n_1_2_10000001_wf

class Facts : Prop extends Facts₀ where

variable [Facts]
-- ==== Proof.KernelOk.lean ====
/-
  The one prefetched word is the host's `clip(step, 0, 3)`: whatever the scalar argument, it is one of
  0, 1, 2, 3, so the slice of `u` the pipeline fetches at every grid point lies inside the array. At
  any float family: only the integer clip matters.
-/
import proofs.«405011_j38749194944738_3_alg».proof.Proof.Gen.Kernel.Frame.Runs
import Idealize.ShloMosaic.Lib.StableHlo.Run
import Idealize.ShloMosaic.Lib.ValueIdx

noncomputable section

namespace Cert.Kernel.Hand

open Idealize.ShloMosaic Idealize.ShloMosaic.TcCoe Idealize.ShloMosaic.ValueIdx Idealize.SL.Sem Cert.Kernel Cert.Kernel.Gen

variable {F : FTy → Type} [FloatOps F]

/-- A 32-bit word clipped, as a signed integer, to `[0, 3]`: `min 3 (max 0 w)` in the host's spelling. -/
def clipW (w : BitVec 32) : BitVec 32 := IntOp.minsi 3#32 (IntOp.maxsi 0#32 w)

/-- The signed order of two words is the order of their signed values. -/
theorem slt_iff (x y : BitVec 32) : x.slt y = true ↔ x.toInt < y.toInt := by
  simp only [BitVec.slt, decide_eq_true_eq]

/-- A word's signed value: the word itself below 2³¹, the word less 2³² from 2³¹ on. -/
theorem toInt_cases (w : BitVec 32) :
    (w.toNat < 2147483648 ∧ w.toInt = (w.toNat : Int)) ∨ (2147483648 ≤ w.toNat ∧ w.toInt = (w.toNat : Int) - 4294967296) := by
  have hw := w.isLt
  rw [BitVec.toInt_eq_toNat_cond]
  split <;> omega

/-- The clipped word is at most 3: it is 0 (w negative), 3 (w above 3) or w itself, then between 0 and 3. -/
theorem clipW_le (w : BitVec 32) : (clipW w).toNat ≤ 3 := by
  have h3 : (3#32 : BitVec 32).toInt = 3 := by decide
  have h0 : (0#32 : BitVec 32).toInt = 0 := by decide
  have hc := toInt_cases w
  unfold clipW IntOp.minsi IntOp.maxsi
  split_ifs with a b b
  · decide
  · decide
  · decide
  · rw [slt_iff] at a b
    rw [h3] at b; rw [h0] at a
    omega

/-- On a word that is nonnegative as a signed integer the lower clip does nothing: the result is min(w, 3). -/
theorem clipW_of_nonneg (w : BitVec 32) (h : 0 ≤ w.toInt) : (clipW w).toNat = min w.toNat 3 := by
  have h3 : (3#32 : BitVec 32).toInt = 3 := by decide
  have h0 : (0#32 : BitVec 32).toInt = 0 := by decide
  have hc := toInt_cases w
  unfold clipW IntOp.minsi IntOp.maxsi
  split_ifs with a b b
  · rw [slt_iff] at a; rw [h0] at a; omega
  · rw [slt_iff] at a; rw [h0] at a; omega
  · rw [slt_iff] at a b; rw [h0] at a; rw [h3] at b
    show 3 = min w.toNat 3
    omega
  · rw [slt_iff] at a b; rw [h0] at a; rw [h3] at b
    omega

variable (m : (ℓ : Loc nD τ sig) → Buf (Elt F) ℓ)

open Idealize.ShloMosaic.StableHlo in
/-- The prefetched word is the clip of the truncated, doubled scalar argument (the word `0x40000000` is the float 2). -/
theorem tbl_word : (tbl m 0 : IVec S1 32) (ix1 0)
    = clipW (fptosi 32 (mulf (m (((0 : Dev nD).tc : Thread nD τ).loc main_arg0) : FVec F S_ .f32) (constant S_ .f32 0x40000000#32)) ValueIdx.ix0) := by
  unfold tbl
  show (V m (0 : Dev nD) main_v3 : IVec S1 32) (ix1 0) = _
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- An array of one entry has one index. -/
theorem idx_S1 (x : S1.Idx) : x = ix1 0 := by
  funext a
  have ha : a = (0 : Fin 1) := Subsingleton.elim _ _
  subst ha
  exact Subsingleton.elim (α := Fin 1) _ _

/-- The block index of the slice of `u`, at any contents `pf` of the table: the table's word, the grid point, 0. -/
theorem transform_eq (pf : pre0.Contents (Elt F)) (i : grid0.Coords) :
    ∃ x : S1.Idx, cc0_transform_1 Facts₀.inb_S1_S1_0 Facts₀.numel1_S1 pf i
      = ![((pf 0 : IVec S1 32) x).toNat, (BitVec.ofNat 32 (i 0).val).toNat, 0] := ⟨_, rfl⟩

/-- The pipeline's side condition: the selected slice of `u` is one of its four. -/
theorem ok : Ok m := by
  intro i
  obtain ⟨x, e⟩ := transform_eq (tbl m) i
  have hx : ((tbl m 0 : IVec S1 32) x).toNat ≤ 3 := by
    rw [idx_S1 x, tbl_word]; exact clipW_le _
  have hi : (BitVec.ofNat 32 (i 0).val).toNat < 100 := by
    have hb : (i 0).val < 100 := (i 0).isLt
    rw [BitVec.toNat_ofNat]; omega
  refine ⟨fun a => ?_, Or.inl rfl⟩
  rw [e]
  match a with
  | ⟨0, _⟩ => show (((tbl m 0 : IVec S1 32) x).toNat + 1) * 1 ≤ 4; omega
  | ⟨1, _⟩ => show ((BitVec.ofNat 32 (i 0).val).toNat + 1) * 10000 ≤ 1000000; omega
  | ⟨2, _⟩ => show (0 + 1) * 7 ≤ 7; omega

end Cert.Kernel.Hand

end
-- ==== Proof.Spec.lean ====
/-
  The thermal network's step, row by row, as plain functions on the extended reals.

  One row of the batch has a state `x : Fin 4 → EReal` and an input `inp : Fin 7 → EReal` (the row of
  the time slice `u[step]`). Six temperatures are the four states followed by the two inputs the table
  `tc` names; eleven features are the seven inputs followed by the four states. Two small networks read
  the features: the conductances `cond : Fin 15 → EReal` (a tanh layer, an affine layer, then
  `p ↦ p + 1` for `p > 0` and `exp p` otherwise), and the power loss `pl : Fin 4 → EReal` (a tanh
  layer, an affine layer, the logistic function). State `v` then moves by
  `exp (caps v) · (∑ k, (temps (ti v k) − x v) · cond (adj v k) + pl v)`, clipped to `[−1, 1]`.

  `rowSpec` is that formula. `rowK` is the same computation arranged as products with small dense
  matrices: the lookups `temps (ti v k)`, `cond (adj v k)` become products with 0/1 selection
  matrices, the sum over the five neighbours a product with a 0/1 grouping matrix, and the transposes
  products with the identity.
-/
import Idealize.ShloMosaic.PureOps.Ideal
import Idealize.ShloMosaic.Lib.ValueIdx

noncomputable section

namespace Cert.Tnn

open Idealize.ShloMosaic Idealize.ShloMosaic.ValueIdx

/-- The network's parameters, entry by entry. -/
structure Net where
  caps : Fin 4 → EReal
  cw1 : Fin 11 → Fin 2 → EReal
  cb1 : Fin 2 → EReal
  cw2 : Fin 2 → Fin 15 → EReal
  cb2 : Fin 15 → EReal
  pw1 : Fin 11 → Fin 4 → EReal
  pb1 : Fin 4 → EReal
  pw2 : Fin 4 → Fin 4 → EReal
  pb2 : Fin 4 → EReal

/-- An extended real that is a real number. -/
def Fin' (a : EReal) : Prop := a ≠ ⊤ ∧ a ≠ ⊥

/-- Every parameter is a real number. -/
structure Net.Finite (N : Net) : Prop where
  caps : ∀ v, Fin' (N.caps v)
  cw1 : ∀ k h, Fin' (N.cw1 k h)
  cb1 : ∀ h, Fin' (N.cb1 h)
  cw2 : ∀ h c, Fin' (N.cw2 h c)
  cb2 : ∀ c, Fin' (N.cb2 c)
  pw1 : ∀ k h, Fin' (N.pw1 k h)
  pb1 : ∀ h, Fin' (N.pb1 h)
  pw2 : ∀ h v, Fin' (N.pw2 h v)
  pb2 : ∀ v, Fin' (N.pb2 v)

/-- The eleven features of a row: its seven inputs, then its four states. -/
def feats (x : Fin 4 → EReal) (inp : Fin 7 → EReal) (k : Fin 11) : EReal :=
  if h : k.val < 7 then inp ⟨k.val, h⟩ else x ⟨k.val - 7, by omega⟩

/-- The six temperatures of a row: its four states, then the two inputs `tc` names. -/
def temps (tc : Fin 2 → Fin 7) (x : Fin 4 → EReal) (inp : Fin 7 → EReal) (k : Fin 6) : EReal :=
  if h : k.val < 4 then x ⟨k.val, h⟩ else inp (tc ⟨k.val - 4, by omega⟩)

/-- `p ↦ elu p + 1`: `p + 1` above zero, `exp p` at and below. -/
def elu1 (p : EReal) : EReal := if 0 < p then p + 1 else Ideal.exp p

/-- The conductances of a row. -/
def condOf (N : Net) (x : Fin 4 → EReal) (inp : Fin 7 → EReal) (c : Fin 15) : EReal :=
  elu1 ((∑ h : Fin 2, Ideal.tanh ((∑ k : Fin 11, feats x inp k * N.cw1 k h) + N.cb1 h) * N.cw2 h c) + N.cb2 c)

/-- The power loss of a row. -/
def plossOf (N : Net) (x : Fin 4 → EReal) (inp : Fin 7 → EReal) (v : Fin 4) : EReal :=
  Ideal.logistic ((∑ h : Fin 4, Ideal.tanh ((∑ k : Fin 11, feats x inp k * N.pw1 k h) + N.pb1 h) * N.pw2 h v) + N.pb2 v)

/-- One row's step: the clipped rate of change of each of its four states. -/
def rowSpec (N : Net) (ti : Fin 4 → Fin 5 → Fin 6) (adj : Fin 4 → Fin 5 → Fin 15) (tc : Fin 2 → Fin 7)
    (x : Fin 4 → EReal) (inp : Fin 7 → EReal) (v : Fin 4) : EReal :=
  min 1 (max (-1) (Ideal.exp (N.caps v) *
    ((∑ k : Fin 5, (temps tc x inp (ti v k) - x v) * condOf N x inp (adj v k)) + plossOf N x inp v)))

/-! ## The same step as products with small dense matrices -/

/-- One row's step computed feature-major with dense matrices: `a1u, a1x, c1, a2, c2` the conductance
    network's layers (first layer split into its input and state columns), `q1u, q1x, d1, q2, d2` the
    power-loss network's, `selX, selU` the matrices that pick each of the twenty (state, neighbour)
    temperatures out of the states and the inputs, `selC` the one that picks its conductance, `grp` the
    matrix that sums each state's five neighbours, `eye` the matrix both transposes multiply by, and
    `capsE` the scale of each state. -/
def rowK (capsE : Fin 4 → EReal)
    (a1u : Fin 2 → Fin 7 → EReal) (a1x : Fin 2 → Fin 4 → EReal) (c1 : Fin 2 → EReal)
    (a2 : Fin 15 → Fin 2 → EReal) (c2 : Fin 15 → EReal)
    (q1u : Fin 4 → Fin 7 → EReal) (q1x : Fin 4 → Fin 4 → EReal) (d1 : Fin 4 → EReal)
    (q2 : Fin 4 → Fin 4 → EReal) (d2 : Fin 4 → EReal)
    (selX : Fin 20 → Fin 4 → EReal) (selU : Fin 20 → Fin 7 → EReal) (selC : Fin 20 → Fin 15 → EReal)
    (grp : Fin 4 → Fin 20 → EReal) (eye : Fin 4 → Fin 4 → EReal)
    (x : Fin 4 → EReal) (inp : Fin 7 → EReal) : Fin 4 → EReal :=
  let h1c : Fin 2 → EReal := fun h => Ideal.tanh (((∑ f : Fin 7, a1u h f * inp f) + (∑ v : Fin 4, a1x h v * x v)) + c1 h)
  let cond : Fin 15 → EReal := fun c => elu1 ((∑ h : Fin 2, a2 c h * h1c h) + c2 c)
  let h1p : Fin 4 → EReal := fun h => Ideal.tanh (((∑ f : Fin 7, q1u h f * inp f) + (∑ v : Fin 4, q1x h v * x v)) + d1 h)
  let pl : Fin 4 → EReal := fun v => Ideal.logistic ((∑ h : Fin 4, q2 v h * h1p h) + d2 v)
  let gt : Fin 20 → EReal := fun j => (∑ v : Fin 4, selX j v * x v) + (∑ f : Fin 7, selU j f * inp f)
  let gc : Fin 20 → EReal := fun j => ∑ c : Fin 15, selC j c * cond c
  let sp : Fin 4 → EReal := fun i => ∑ j : Fin 20, grp i j * (gt j * gc j)
  let sc : Fin 4 → EReal := fun i => ∑ j : Fin 20, grp i j * gc j
  let xT : Fin 4 → EReal := fun i => ∑ v : Fin 4, eye i v * x v
  let o : Fin 4 → EReal := fun i => min 1 (max (-1) (capsE i * ((sp i - xT i * sc i) + pl i)))
  fun j => ∑ k : Fin 4, o k * eye k j

/-- Pair `j` of the twenty is neighbour `j % 5` of state `j / 5`. -/
def pairState (j : Fin 20) : Fin 4 := ⟨j.val / 5, by omega⟩
def pairNbr (j : Fin 20) : Fin 5 := ⟨j.val % 5, by omega⟩

/-- The 0/1 matrices the tables turn into. `selUOf` is the product of the two one-hot matrices it is
    computed from: input `f` is picked for pair `j` when some `e` has `tc e = f` and the pair's
    temperature index is `4 + e`. -/
def selXOf (ti : Fin 4 → Fin 5 → Fin 6) (j : Fin 20) (v : Fin 4) : EReal :=
  if (ti (pairState j) (pairNbr j)).val = v.val then 1 else 0
def selUOf (ti : Fin 4 → Fin 5 → Fin 6) (tc : Fin 2 → Fin 7) (j : Fin 20) (f : Fin 7) : EReal :=
  ∑ e : Fin 2, (if (tc e).val = f.val then (1 : EReal) else 0) * (if (ti (pairState j) (pairNbr j)).val = 4 + e.val then 1 else 0)
def selCOf (adj : Fin 4 → Fin 5 → Fin 15) (j : Fin 20) (c : Fin 15) : EReal :=
  if (adj (pairState j) (pairNbr j)).val = c.val then 1 else 0
def grpM (i : Fin 4) (j : Fin 20) : EReal := if j.val / 5 = i.val then 1 else 0
def eyeM (i v : Fin 4) : EReal := if i.val = v.val then 1 else 0

/-- `rowK` at the matrices the parameters and the tables give: what the kernel computes for a row. -/
def rowKOf (N : Net) (ti : Fin 4 → Fin 5 → Fin 6) (adj : Fin 4 → Fin 5 → Fin 15) (tc : Fin 2 → Fin 7)
    (x : Fin 4 → EReal) (inp : Fin 7 → EReal) : Fin 4 → EReal :=
  rowK (fun v => Ideal.exp (N.caps v))
    (fun h f => N.cw1 ⟨f.val, by omega⟩ h) (fun h v => N.cw1 ⟨7 + v.val, by omega⟩ h) N.cb1
    (fun c h => N.cw2 h c) N.cb2
    (fun h f => N.pw1 ⟨f.val, by omega⟩ h) (fun h v => N.pw1 ⟨7 + v.val, by omega⟩ h) N.pb1
    (fun v h => N.pw2 h v) N.pb2
    (selXOf ti) (selUOf ti tc) (selCOf adj) grpM eyeM x inp

/-! ## The whole arrays -/

abbrev SB4 : Shape := ⟨2, ![1000000, 4]⟩
abbrev S4B7 : Shape := ⟨3, ![4, 1000000, 7]⟩

/-- A table word as an index below `n` (the word itself when it is in range). -/
def tabOf (n : Nat) [NeZero n] (w : BitVec 32) : Fin n := Fin.ofNat n w.toNat

/-- The time step the scalar `t` asks for: `t · 2` truncated to a 32-bit integer (the word `0x40000000`
    is the float 2). -/
def stepWord (t : EReal) : BitVec 32 := Ideal.fptosi 32 (t * Ideal.ofBits .f32 0x40000000#32)
/-- The time step selected: that word, capped at the last slice. -/
def stepOf (t : EReal) : Fin 4 := ⟨min (stepWord t).toNat 3, by omega⟩

/-- The parameters read off their arrays. -/
def netOf (caps : (⟨1, ![4]⟩ : Shape).Idx → EReal) (cw1 : (⟨2, ![11, 2]⟩ : Shape).Idx → EReal) (cb1 : (⟨1, ![2]⟩ : Shape).Idx → EReal)
    (cw2 : (⟨2, ![2, 15]⟩ : Shape).Idx → EReal) (cb2 : (⟨1, ![15]⟩ : Shape).Idx → EReal)
    (pw1 : (⟨2, ![11, 4]⟩ : Shape).Idx → EReal) (pb1 : (⟨1, ![4]⟩ : Shape).Idx → EReal)
    (pw2 : (⟨2, ![4, 4]⟩ : Shape).Idx → EReal) (pb2 : (⟨1, ![4]⟩ : Shape).Idx → EReal) : Net where
  caps v := caps (ix1 v)
  cw1 k h := cw1 (ix2 k h)
  cb1 h := cb1 (ix1 h)
  cw2 h c := cw2 (ix2 h c)
  cb2 c := cb2 (ix1 c)
  pw1 k h := pw1 (ix2 k h)
  pb1 h := pb1 (ix1 h)
  pw2 h v := pw2 (ix2 h v)
  pb2 v := pb2 (ix1 v)

/-- The tables read off their word arrays. -/
def tiOf (w : (⟨2, ![4, 5]⟩ : Shape).Idx → BitVec 32) (i : Fin 4) (k : Fin 5) : Fin 6 := tabOf 6 (w (ix2 i k))
def adjOf (w : (⟨2, ![4, 5]⟩ : Shape).Idx → BitVec 32) (i : Fin 4) (k : Fin 5) : Fin 15 := tabOf 15 (w (ix2 i k))
def tcOf (w : (⟨1, ![2]⟩ : Shape).Idx → BitVec 32) (e : Fin 2) : Fin 7 := tabOf 7 (w (ix1 e))

/-- The result array: row `b` is the step of state row `x[b]` under input row `u[step, b]`. -/
def G (N : Net) (ti : Fin 4 → Fin 5 → Fin 6) (adj : Fin 4 → Fin 5 → Fin 15) (tc : Fin 2 → Fin 7) (s : Fin 4)
    (X : SB4.Idx → EReal) (U : S4B7.Idx → EReal) : SB4.Idx → EReal := fun i =>
  let b : Fin 1000000 := i 0
  let v : Fin 4 := i 1
  rowSpec N ti adj tc (fun v' => X (ix2 b v')) (fun f => U (ix3 s b f)) v

/-- What the precondition says of the arguments: every float entry a real number, every table word an
    index of the axis it selects from, and the time step not negative. -/
structure InDomain (T : (⟨0, ![]⟩ : Shape).Idx → EReal) (X : SB4.Idx → EReal) (U : S4B7.Idx → EReal) (N : Net)
    (tiW adjW : (⟨2, ![4, 5]⟩ : Shape).Idx → BitVec 32) (tcW : (⟨1, ![2]⟩ : Shape).Idx → BitVec 32) : Prop where
  t : Fin' (T ix0)
  x : ∀ i, Fin' (X i)
  u : ∀ i, Fin' (U i)
  net : N.Finite
  ti : ∀ i, (tiW i).toNat < 6
  adj : ∀ i, (adjW i).toNat < 15
  tc : ∀ i, (tcW i).toNat < 7
  step : 0 ≤ (stepWord (T ix0)).toInt

/-- The result as a function of the fifteen argument arrays, in the order of the entry point's parameters. -/
def Gargs (T : (⟨0, ![]⟩ : Shape).Idx → EReal) (X : SB4.Idx → EReal) (U : S4B7.Idx → EReal)
    (caps : (⟨1, ![4]⟩ : Shape).Idx → EReal) (cw1 : (⟨2, ![11, 2]⟩ : Shape).Idx → EReal) (cb1 : (⟨1, ![2]⟩ : Shape).Idx → EReal)
    (cw2 : (⟨2, ![2, 15]⟩ : Shape).Idx → EReal) (cb2 : (⟨1, ![15]⟩ : Shape).Idx → EReal)
    (pw1 : (⟨2, ![11, 4]⟩ : Shape).Idx → EReal) (pb1 : (⟨1, ![4]⟩ : Shape).Idx → EReal)
    (pw2 : (⟨2, ![4, 4]⟩ : Shape).Idx → EReal) (pb2 : (⟨1, ![4]⟩ : Shape).Idx → EReal)
    (tiW adjW : (⟨2, ![4, 5]⟩ : Shape).Idx → BitVec 32) (tcW : (⟨1, ![2]⟩ : Shape).Idx → BitVec 32) : SB4.Idx → EReal :=
  G (netOf caps cw1 cb1 cw2 cb2 pw1 pb1 pw2 pb2) (tiOf tiW) (adjOf adjW) (tcOf tcW) (stepOf (T ix0)) X U

/-- The precondition's content, of the fifteen argument arrays. -/
def InDomainArgs (T : (⟨0, ![]⟩ : Shape).Idx → EReal) (X : SB4.Idx → EReal) (U : S4B7.Idx → EReal)
    (caps : (⟨1, ![4]⟩ : Shape).Idx → EReal) (cw1 : (⟨2, ![11, 2]⟩ : Shape).Idx → EReal) (cb1 : (⟨1, ![2]⟩ : Shape).Idx → EReal)
    (cw2 : (⟨2, ![2, 15]⟩ : Shape).Idx → EReal) (cb2 : (⟨1, ![15]⟩ : Shape).Idx → EReal)
    (pw1 : (⟨2, ![11, 4]⟩ : Shape).Idx → EReal) (pb1 : (⟨1, ![4]⟩ : Shape).Idx → EReal)
    (pw2 : (⟨2, ![4, 4]⟩ : Shape).Idx → EReal) (pb2 : (⟨1, ![4]⟩ : Shape).Idx → EReal)
    (tiW adjW : (⟨2, ![4, 5]⟩ : Shape).Idx → BitVec 32) (tcW : (⟨1, ![2]⟩ : Shape).Idx → BitVec 32) : Prop :=
  InDomain T X U (netOf caps cw1 cb1 cw2 cb2 pw1 pb1 pw2 pb2) tiW adjW tcW

end Cert.Tnn

end
-- ==== Proof.KerArgs.lean ====
/-
  The fifteen argument arrays of a launch memory, each at its literal type, and the result and the
  domain stated of them.
-/
import proofs.«405011_j38749194944738_3_alg».proof.KernelIdeal
import proofs.«405011_j38749194944738_3_alg».proof.Proof.Spec

noncomputable section

namespace Cert.KernelIdeal.Hand

open Idealize.ShloMosaic Idealize.ShloMosaic.TcCoe Idealize.SL.Sem Cert.KernelIdeal Cert.Tnn

variable (m : (ℓ : Loc nD τ sig) → Buf (Elt Ideal) ℓ) (c : Dev nD)

/-- Argument 0 (`T`) on core `c`. -/
abbrev A0 : (⟨0, ![]⟩ : Shape).Idx → EReal := m ((c.tc : Thread nD τ).loc main_arg0)
/-- Argument 1 (`X`) on core `c`. -/
abbrev A1 : SB4.Idx → EReal := m ((c.tc : Thread nD τ).loc main_arg1)
/-- Argument 2 (`U`) on core `c`. -/
abbrev A2 : S4B7.Idx → EReal := m ((c.tc : Thread nD τ).loc main_arg2)
/-- Argument 3 (`caps`) on core `c`. -/
abbrev A3 : (⟨1, ![4]⟩ : Shape).Idx → EReal := m ((c.tc : Thread nD τ).loc main_arg3)
/-- Argument 4 (`cw1`) on core `c`. -/
abbrev A4 : (⟨2, ![11, 2]⟩ : Shape).Idx → EReal := m ((c.tc : Thread nD τ).loc main_arg4)
/-- Argument 5 (`cb1`) on core `c`. -/
abbrev A5 : (⟨1, ![2]⟩ : Shape).Idx → EReal := m ((c.tc : Thread nD τ).loc main_arg5)
/-- Argument 6 (`cw2`) on core `c`. -/
abbrev A6 : (⟨2, ![2, 15]⟩ : Shape).Idx → EReal := m ((c.tc : Thread nD τ).loc main_arg6)
/-- Argument 7 (`cb2`) on core `c`. -/
abbrev A7 : (⟨1, ![15]⟩ : Shape).Idx → EReal := m ((c.tc : Thread nD τ).loc main_arg7)
/-- Argument 8 (`pw1`) on core `c`. -/
abbrev A8 : (⟨2, ![11, 4]⟩ : Shape).Idx → EReal := m ((c.tc : Thread nD τ).loc main_arg8)
/-- Argument 9 (`pb1`) on core `c`. -/
abbrev A9 : (⟨1, ![4]⟩ : Shape).Idx → EReal := m ((c.tc : Thread nD τ).loc main_arg9)
/-- Argument 10 (`pw2`) on core `c`. -/
abbrev A10 : (⟨2, ![4, 4]⟩ : Shape).Idx → EReal := m ((c.tc : Thread nD τ).loc main_arg10)
/-- Argument 11 (`pb2`) on core `c`. -/
abbrev A11 : (⟨1, ![4]⟩ : Shape).Idx → EReal := m ((c.tc : Thread nD τ).loc main_arg11)
/-- Argument 12 (`tiW`) on core `c`. -/
abbrev A12 : (⟨2, ![4, 5]⟩ : Shape).Idx → BitVec 32 := m ((c.tc : Thread nD τ).loc main_arg12)
/-- Argument 13 (`adjW`) on core `c`. -/
abbrev A13 : (⟨2, ![4, 5]⟩ : Shape).Idx → BitVec 32 := m ((c.tc : Thread nD τ).loc main_arg13)
/-- Argument 14 (`tcW`) on core `c`. -/
abbrev A14 : (⟨1, ![2]⟩ : Shape).Idx → BitVec 32 := m ((c.tc : Thread nD τ).loc main_arg14)

/-- The specified result of the memory's arguments. -/
def GM : SB4.Idx → EReal := Gargs (A0 m c) (A1 m c) (A2 m c) (A3 m c) (A4 m c) (A5 m c) (A6 m c) (A7 m c) (A8 m c) (A9 m c) (A10 m c) (A11 m c) (A12 m c) (A13 m c) (A14 m c)
/-- The precondition's content of the memory's arguments. -/
def DomM : Prop := InDomainArgs (A0 m c) (A1 m c) (A2 m c) (A3 m c) (A4 m c) (A5 m c) (A6 m c) (A7 m c) (A8 m c) (A9 m c) (A10 m c) (A11 m c) (A12 m c) (A13 m c) (A14 m c)

end Cert.KernelIdeal.Hand

end
-- ==== Proof.KerOk.lean ====
/-
  The one prefetched word is the host's `clip(step, 0, 3)`: whatever the scalar argument, it is one of
  0, 1, 2, 3, so the slice of `u` the pipeline fetches at every grid point lies inside the array. At
  any float family: only the integer clip matters.
-/
import proofs.«405011_j38749194944738_3_alg».proof.Proof.Gen.KernelIdeal.Frame.Runs
import Idealize.ShloMosaic.Lib.StableHlo.Run
import Idealize.ShloMosaic.Lib.ValueIdx

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F]

/-- A 32-bit word clipped, as a signed integer, to `[0, 3]`: `min 3 (max 0 w)` in the host's spelling. -/
def clipW (w : BitVec 32) : BitVec 32 := IntOp.minsi 3#32 (IntOp.maxsi 0#32 w)

/-- The signed order of two words is the order of their signed values. -/
theorem slt_iff (x y : BitVec 32) : x.slt y = true ↔ x.toInt < y.toInt := by
  simp only [BitVec.slt, decide_eq_true_eq]

/-- A word's signed value: the word itself below 2³¹, the word less 2³² from 2³¹ on. -/
theorem toInt_cases (w : BitVec 32) :
    (w.toNat < 2147483648 ∧ w.toInt = (w.toNat : Int)) ∨ (2147483648 ≤ w.toNat ∧ w.toInt = (w.toNat : Int) - 4294967296) := by
  have hw := w.isLt
  rw [BitVec.toInt_eq_toNat_cond]
  split <;> omega

/-- The clipped word is at most 3: it is 0 (w negative), 3 (w above 3) or w itself, then between 0 and 3. -/
theorem clipW_le (w : BitVec 32) : (clipW w).toNat ≤ 3 := by
  have h3 : (3#32 : BitVec 32).toInt = 3 := by decide
  have h0 : (0#32 : BitVec 32).toInt = 0 := by decide
  have hc := toInt_cases w
  unfold clipW IntOp.minsi IntOp.maxsi
  split_ifs with a b b
  · decide
  · decide
  · decide
  · rw [slt_iff] at a b
    rw [h3] at b; rw [h0] at a
    omega

/-- On a word that is nonnegative as a signed integer the lower clip does nothing: the result is min(w, 3). -/
theorem clipW_of_nonneg (w : BitVec 32) (h : 0 ≤ w.toInt) : (clipW w).toNat = min w.toNat 3 := by
  have h3 : (3#32 : BitVec 32).toInt = 3 := by decide
  have h0 : (0#32 : BitVec 32).toInt = 0 := by decide
  have hc := toInt_cases w
  unfold clipW IntOp.minsi IntOp.maxsi
  split_ifs with a b b
  · rw [slt_iff] at a; rw [h0] at a; omega
  · rw [slt_iff] at a; rw [h0] at a; omega
  · rw [slt_iff] at a b; rw [h0] at a; rw [h3] at b
    show 3 = min w.toNat 3
    omega
  · rw [slt_iff] at a b; rw [h0] at a; rw [h3] at b
    omega

variable (m : (ℓ : Loc nD τ sig) → Buf (Elt F) ℓ)

open Idealize.ShloMosaic.StableHlo in
/-- The prefetched word is the clip of the truncated, doubled scalar argument (the word `0x40000000` is the float 2). -/
theorem tbl_word : (tbl m 0 : IVec S1 32) (ix1 0)
    = clipW (fptosi 32 (mulf (m (((0 : Dev nD).tc : Thread nD τ).loc main_arg0) : FVec F S_ .f32) (constant S_ .f32 0x40000000#32)) ValueIdx.ix0) := by
  unfold tbl
  show (V m (0 : Dev nD) main_v3 : IVec S1 32) (ix1 0) = _
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- An array of one entry has one index. -/
theorem idx_S1 (x : S1.Idx) : x = ix1 0 := by
  funext a
  have ha : a = (0 : Fin 1) := Subsingleton.elim _ _
  subst ha
  exact Subsingleton.elim (α := Fin 1) _ _

/-- The block index of the slice of `u`, at any contents `pf` of the table: the table's word, the grid point, 0. -/
theorem transform_eq (pf : pre0.Contents (Elt F)) (i : grid0.Coords) :
    ∃ x : S1.Idx, cc0_transform_1 Facts₀.inb_S1_S1_0 Facts₀.numel1_S1 pf i
      = ![((pf 0 : IVec S1 32) x).toNat, (BitVec.ofNat 32 (i 0).val).toNat, 0] := ⟨_, rfl⟩

/-- The pipeline's side condition: the selected slice of `u` is one of its four. -/
theorem ok : Ok m := by
  intro i
  obtain ⟨x, e⟩ := transform_eq (tbl m) i
  have hx : ((tbl m 0 : IVec S1 32) x).toNat ≤ 3 := by
    rw [idx_S1 x, tbl_word]; exact clipW_le _
  have hi : (BitVec.ofNat 32 (i 0).val).toNat < 100 := by
    have hb : (i 0).val < 100 := (i 0).isLt
    rw [BitVec.toNat_ofNat]; omega
  refine ⟨fun a => ?_, Or.inl rfl⟩
  rw [e]
  match a with
  | ⟨0, _⟩ => show (((tbl m 0 : IVec S1 32) x).toNat + 1) * 1 ≤ 4; omega
  | ⟨1, _⟩ => show ((BitVec.ofNat 32 (i 0).val).toNat + 1) * 10000 ≤ 1000000; omega
  | ⟨2, _⟩ => show (0 + 1) * 7 ≤ 7; omega

end Cert.KernelIdeal.Hand

end
-- ==== Proof.KerSel.lean ====
/-
  The five 0/1 matrices the host makes before the launch, entry by entry, as the region finds them:
  from the table of neighbour temperatures the matrix that picks a state (`Tnn.selXOf`) and, through the
  table of input positions, the one that picks an input (`Tnn.selUOf`); from the table of conductance
  indices the matrix that picks a conductance (`Tnn.selCOf`); the grouping of the twenty pairs by
  state (`Tnn.grpM`); the identity (`Tnn.eyeM`). A word in range equals column `k` exactly when the
  index it denotes is `k`.
-/
import proofs.«405011_j38749194944738_3_alg».proof.Proof.Gen.KernelIdeal.Frame.Runs
import proofs.«405011_j38749194944738_3_alg».proof.Proof.KerArgs
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen Cert.Tnn

variable (m : (ℓ : Loc nD τ sig) → Buf (Elt Ideal) ℓ) (c : Dev nD)

/-- A word compared for equality with the word of `k` and read as a float: 1 when the word's value is `k`, else 0. -/
theorem oh_word (w : BitVec 32) (k : Nat) (hk : k < 2 ^ 32) :
    (FloatOps.uitofp (F := Ideal) .f32 (IntOp.cmpi .eq w (BitVec.ofNat 32 k)) : EReal) = if w.toNat = k then 1 else 0 := by
  show (((BitVec.ofBool (w == BitVec.ofNat 32 k)).toNat : ℝ) : EReal) = _
  by_cases h : w.toNat = k
  · have hw : w = BitVec.ofNat 32 k := by
      apply BitVec.eq_of_toNat_eq; rw [BitVec.toNat_ofNat, h]; exact (Nat.mod_eq_of_lt hk).symm
    rw [if_pos h, hw]; simp
  · have hw : ¬ w = BitVec.ofNat 32 k := by
      intro e; apply h; rw [e, BitVec.toNat_ofNat]; exact Nat.mod_eq_of_lt hk
    rw [if_neg h]; simp [hw]

/-- The one-hot expansion of a 4 × 5 table of words along a new last axis of extent `n`: entry `(a, b, k)` is 1 when
    the word at `(a, b)` has value `k`, else 0. -/
theorem oneHot3_apply {n : Nat} (hn : n < 2 ^ 32) (W : (⟨2, ![4, 5]⟩ : Shape).Idx → BitVec 32)
    (h1 : (⟨2, ![4, 5]⟩ : Shape).BroadcastsInDim ⟨3, ![4, 5, 1]⟩ ![0, 1])
    (h2 : (⟨3, ![4, 5, 1]⟩ : Shape).BroadcastsInDim ⟨3, ![4, 5, n]⟩ ![0, 1, 2])
    (h3 : (⟨3, ![1, 1, n]⟩ : Shape).BroadcastsInDim ⟨3, ![4, 5, n]⟩ ![0, 1, 2])
    (a : Fin 4) (b : Fin 5) (k : Fin n) :
    uitofp (F := Ideal) .f32 (cmpi .eq (broadcastInDim ⟨3, ![4, 5, n]⟩ ![0, 1, 2] h2 (broadcastInDim ⟨3, ![4, 5, 1]⟩ ![0, 1] h1 W))
      (broadcastInDim ⟨3, ![4, 5, n]⟩ ![0, 1, 2] h3 (iotaInDim ⟨3, ![1, 1, n]⟩ 32 2))) (ix3 a b k)
      = if (W (ix2 a b)).toNat = k.val then 1 else 0 := by
  have e1 : broadcastInDim ⟨3, ![4, 5, n]⟩ ![0, 1, 2] h2 (broadcastInDim ⟨3, ![4, 5, 1]⟩ ![0, 1] h1 W) (ix3 a b k) = W (ix2 a b) := by
    rw [broadcastInDim_apply _ h2 _ (ix3 a b k) (ix3 a b 0) (fun ax => by match ax with | ⟨0, _⟩ => rfl | ⟨1, _⟩ => rfl | ⟨2, _⟩ => rfl),
      broadcastInDim_apply _ h1 _ (ix3 a b 0) (ix2 a b) (fun ax => by match ax with | ⟨0, _⟩ => rfl | ⟨1, _⟩ => rfl)]
  have e2 : broadcastInDim ⟨3, ![4, 5, n]⟩ ![0, 1, 2] h3 (iotaInDim ⟨3, ![1, 1, n]⟩ 32 2) (ix3 a b k) = BitVec.ofNat 32 k.val := by
    rw [broadcastInDim_apply _ h3 _ (ix3 a b k) (ix3 0 0 k) (fun ax => by
      match ax with
      | ⟨0, _⟩ => rfl
      | ⟨1, _⟩ => rfl
      | ⟨2, _⟩ =>
        have := k.isLt
        show k.val = if n = 1 then 0 else k.val
        split <;> omega)]
    rfl
  show FloatOps.uitofp .f32 (IntOp.cmpi .eq _ _) = _
  rw [e1, e2]
  exact oh_word _ _ (by have := k.isLt; omega)

/-- The one-hot expansion of a table of two words along a new last axis of extent `n`: entry `(e, k)` is 1 when the
    word at `e` has value `k`, else 0. -/
theorem oneHot2_apply {n : Nat} (hn : n < 2 ^ 32) (W : (⟨1, ![2]⟩ : Shape).Idx → BitVec 32)
    (h1 : (⟨1, ![2]⟩ : Shape).BroadcastsInDim ⟨2, ![2, 1]⟩ ![0])
    (h2 : (⟨2, ![2, 1]⟩ : Shape).BroadcastsInDim ⟨2, ![2, n]⟩ ![0, 1])
    (h3 : (⟨2, ![1, n]⟩ : Shape).BroadcastsInDim ⟨2, ![2, n]⟩ ![0, 1])
    (e : Fin 2) (k : Fin n) :
    uitofp (F := Ideal) .f32 (cmpi .eq (broadcastInDim ⟨2, ![2, n]⟩ ![0, 1] h2 (broadcastInDim ⟨2, ![2, 1]⟩ ![0] h1 W))
      (broadcastInDim ⟨2, ![2, n]⟩ ![0, 1] h3 (iotaInDim ⟨2, ![1, n]⟩ 32 1))) (ix2 e k)
      = if (W (ix1 e)).toNat = k.val then 1 else 0 := by
  have e1 : broadcastInDim ⟨2, ![2, n]⟩ ![0, 1] h2 (broadcastInDim ⟨2, ![2, 1]⟩ ![0] h1 W) (ix2 e k) = W (ix1 e) := by
    rw [broadcastInDim_apply _ h2 _ (ix2 e k) (ix2 e 0) (fun ax => by match ax with | ⟨0, _⟩ => rfl | ⟨1, _⟩ => rfl),
      broadcastInDim_apply _ h1 _ (ix2 e 0) (ix1 e) (fun ax => by match ax with | ⟨0, _⟩ => rfl)]
  have e2 : broadcastInDim ⟨2, ![2, n]⟩ ![0, 1] h3 (iotaInDim ⟨2, ![1, n]⟩ 32 1) (ix2 e k) = BitVec.ofNat 32 k.val := by
    rw [broadcastInDim_apply _ h3 _ (ix2 e k) (ix2 0 k) (fun ax => by
      match ax with
      | ⟨0, _⟩ => rfl
      | ⟨1, _⟩ =>
        have := k.isLt
        show k.val = if n = 1 then 0 else k.val
        split <;> omega)]
    rfl
  show FloatOps.uitofp .f32 (IntOp.cmpi .eq _ _) = _
  rw [e1, e2]
  exact oh_word _ _ (by have := k.isLt; omega)

/-- The float patterns of one and of zero. -/
theorem one_bits : Ideal.ofBits .f32 0x3F800000#32 = (1 : EReal) := by
  simp [Ideal.ofBits, Ideal.ieee]
  rw [← EReal.coe_mul]; norm_num
theorem zero_bits : Ideal.ofBits .f32 0x00000000#32 = (0 : EReal) := by
  simp [Ideal.ofBits, Ideal.ieee]

/-- A table word in range denotes itself as an index. -/
theorem tabOf_val (n : Nat) [NeZero n] (w : BitVec 32) (h : w.toNat < n) : (tabOf n w).val = w.toNat := by
  unfold tabOf
  rw [Fin.val_ofNat]
  exact Nat.mod_eq_of_lt h

set_option maxHeartbeats 4000000 in
theorem selX_apply (hti : ∀ i, (A12 m c i).toNat < 6) (p : Fin 20) (v : Fin 4) :
    (V m c main_v15 : Vec Ideal S20x4 .f32) (ix2 p v) = selXOf (tiOf (A12 m c)) p v := by
  have e : (V m c main_v15 : Vec Ideal S20x4 .f32) = transpose S20x4 [1, 0] (extractStridedSlice S4x20 ![0, 0] (transpose S6x20 [1, 0]
      (shapeCast S20x6 (uitofp (F := Ideal) .f32 (cmpi .eq (broadcastInDim S4x5x6 ![0, 1, 2] bcast_S4x5x1_S4x5x6_0_1_2 (broadcastInDim S4x5x1 ![0, 1] bcast_S4x5_S4x5x1_0_1 (A12 m c)))
        (broadcastInDim S4x5x6 ![0, 1, 2] bcast_S1x1x6_S4x5x6_0_1_2 (iotaInDim S1x1x6 32 2)))) shapeCasts_S4x5x6_S20x6) transposes_S20x6_S6x20_1_0) slices_S6x20_S4x20_0_0) transposes_S4x20_S20x4_1_0 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
    rfl
  rw [e, transpose_ix2_apply, slice2_axis0_eq, transpose_ix2_apply,
    shapeCast_apply _ _ _ (ix3 (pairState p) (pairNbr p) ⟨v.val, by omega⟩) (by
      rw [Shape.rowMajor_val_three, Shape.rowMajor_val_two]
      show ((pairState p).val * 5 + (pairNbr p).val) * 6 + v.val = p.val * 6 + (0 + v.val)
      have := p.isLt
      simp only [pairState, pairNbr]
      omega),
    oneHot3_apply (by norm_num)]
  unfold selXOf tiOf
  rw [tabOf_val 6 _ (hti _)]

set_option maxHeartbeats 4000000 in
theorem selU_apply (hti : ∀ i, (A12 m c i).toNat < 6) (htc : ∀ i, (A14 m c i).toNat < 7) (p : Fin 20) (f : Fin 7) :
    (V m c main_v16 : Vec Ideal S20x7 .f32) (ix2 p f) = selUOf (tiOf (A12 m c)) (tcOf (A14 m c)) p f := by
  have e : (V m c main_v16 : Vec Ideal S20x7 .f32) = transpose S20x7 [1, 0]
      (Host.dotGeneral dot_S7x2_S2x20_S7x20_1_0_0_1_n_n (some .fp32)
        (transpose S7x2 [1, 0] (uitofp (F := Ideal) .f32 (cmpi .eq (broadcastInDim S2x7 ![0, 1] bcast_S2x1_S2x7_0_1 (broadcastInDim S2x1 ![0] bcast_S2_S2x1_0 (A14 m c)))
          (broadcastInDim S2x7 ![0, 1] bcast_S1x7_S2x7_0_1 (iotaInDim S1x7 32 1)))) transposes_S2x7_S7x2_1_0)
        (extractStridedSlice S2x20 ![4, 0] (transpose S6x20 [1, 0]
          (shapeCast S20x6 (uitofp (F := Ideal) .f32 (cmpi .eq (broadcastInDim S4x5x6 ![0, 1, 2] bcast_S4x5x1_S4x5x6_0_1_2 (broadcastInDim S4x5x1 ![0, 1] bcast_S4x5_S4x5x1_0_1 (A12 m c)))
            (broadcastInDim S4x5x6 ![0, 1, 2] bcast_S1x1x6_S4x5x6_0_1_2 (iotaInDim S1x1x6 32 2)))) shapeCasts_S4x5x6_S20x6) transposes_S20x6_S6x20_1_0) slices_S6x20_S2x20_4_0))
      transposes_S7x20_S20x7_1_0 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
    rfl
  rw [e, transpose_ix2_apply]
  show FloatOps.dotGeneral dot_S7x2_S2x20_S7x20_1_0_0_1_n_n (some .fp32) _ _ _ (ix2 f p) = _
  rw [Ideal.dotGeneral_apply, ← Equiv.sum_comp (contrEquiv1 dot_S7x2_S2x20_S7x20_1_0_0_1_n_n 2 rfl rfl).symm]
  unfold selUOf
  refine Finset.sum_congr rfl fun e' _ => ?_
  have c2 := contrEquiv1_symm_val dot_S7x2_S2x20_S7x20_1_0_0_1_n_n 2 rfl rfl e'
  have l2 : dot_S7x2_S2x20_S7x20_1_0_0_1_n_n.lhsIdx (ix2 f p) ((contrEquiv1 _ 2 rfl rfl).symm e') = ix2 f e' := by
    funext ax; apply Fin.ext
    match ax with
    | ⟨0, _⟩ => simp [DotDims.lhsIdx, dot_S7x2_S2x20_S7x20_1_0_0_1_n_n]; rfl
    | ⟨1, _⟩ => simp [DotDims.lhsIdx, dot_S7x2_S2x20_S7x20_1_0_0_1_n_n]; exact c2
  have r2 : dot_S7x2_S2x20_S7x20_1_0_0_1_n_n.rhsIdx (ix2 f p) ((contrEquiv1 _ 2 rfl rfl).symm e') = ix2 e' p := by
    funext ax; apply Fin.ext
    match ax with
    | ⟨0, _⟩ => simp [DotDims.rhsIdx, dot_S7x2_S2x20_S7x20_1_0_0_1_n_n]; exact c2
    | ⟨1, _⟩ => simp [DotDims.rhsIdx, dot_S7x2_S2x20_S7x20_1_0_0_1_n_n]; rfl
  have he := e'.isLt
  rw [l2, r2, transpose_ix2_apply, oneHot2_apply (by norm_num), slice2_axis0_eq, transpose_ix2_apply,
    shapeCast_apply _ _ _ (ix3 (pairState p) (pairNbr p) ⟨4 + e'.val, by omega⟩) (by
      rw [Shape.rowMajor_val_three, Shape.rowMajor_val_two]
      show ((pairState p).val * 5 + (pairNbr p).val) * 6 + (4 + e'.val) = p.val * 6 + (4 + e'.val)
      have := p.isLt
      simp only [pairState, pairNbr]
      omega),
    oneHot3_apply (by norm_num)]
  unfold tcOf tiOf
  rw [tabOf_val 7 _ (htc _), tabOf_val 6 _ (hti _)]

set_option maxHeartbeats 4000000 in
theorem selC_apply (hadj : ∀ i, (A13 m c i).toNat < 15) (p : Fin 20) (k : Fin 15) :
    (V m c main_v17 : Vec Ideal S20x15 .f32) (ix2 p k) = selCOf (adjOf (A13 m c)) p k := by
  have e : (V m c main_v17 : Vec Ideal S20x15 .f32) = transpose S20x15 [1, 0] (transpose S15x20 [1, 0]
      (shapeCast S20x15 (uitofp (F := Ideal) .f32 (cmpi .eq (broadcastInDim S4x5x15 ![0, 1, 2] bcast_S4x5x1_S4x5x15_0_1_2 (broadcastInDim S4x5x1 ![0, 1] bcast_S4x5_S4x5x1_0_1 (A13 m c)))
        (broadcastInDim S4x5x15 ![0, 1, 2] bcast_S1x1x15_S4x5x15_0_1_2 (iotaInDim S1x1x15 32 2)))) shapeCasts_S4x5x15_S20x15) transposes_S20x15_S15x20_1_0) transposes_S15x20_S20x15_1_0 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
    rfl
  rw [e, transpose_ix2_apply, transpose_ix2_apply,
    shapeCast_apply _ _ _ (ix3 (pairState p) (pairNbr p) k) (by
      rw [Shape.rowMajor_val_three, Shape.rowMajor_val_two]
      show ((pairState p).val * 5 + (pairNbr p).val) * 15 + k.val = p.val * 15 + k.val
      have := p.isLt
      simp only [pairState, pairNbr]
      omega),
    oneHot3_apply (by norm_num)]
  unfold selCOf adjOf
  rw [tabOf_val 15 _ (hadj _)]

/-- The literal 20 × 4 matrix, row-major: entry `4 p + i` is the pattern of one when `p / 5 = i`, else of zero. -/
theorem lit0_eq : ∀ j : Fin 80, lit0 j = if (j.val / 4) / 5 = j.val % 4 then 0x3F800000#32 else 0x00000000#32 := by
  decide

set_option maxHeartbeats 4000000 in
theorem grp_apply (i : Fin 4) (p : Fin 20) :
    (V m c main_v18 : Vec Ideal S4x20 .f32) (ix2 i p) = grpM i p := by
  have e : (V m c main_v18 : Vec Ideal S4x20 .f32) = transpose S4x20 [1, 0] (fun j => FloatOps.ofBits (F := Ideal) .f32 (lit0 (S20x4.rowMajor j))) transposes_S20x4_S4x20_1_0 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
    rfl
  rw [e, transpose_ix2_apply]
  have key : ∀ j : Fin 80, j.val = p.val * 4 + i.val → Ideal.ofBits .f32 (lit0 j) = grpM i p := by
    intro j hj
    have hi := i.isLt
    rw [lit0_eq, hj, show (p.val * 4 + i.val) / 4 = p.val by omega, show (p.val * 4 + i.val) % 4 = i.val by omega]
    unfold grpM
    split
    · exact one_bits
    · exact zero_bits
  exact key _ (Shape.rowMajor_val_two _)

set_option maxHeartbeats 4000000 in
theorem eye_apply (i v : Fin 4) :
    (V m c main_v24 : Vec Ideal S4x4 .f32) (ix2 i v) = eyeM i v := by
  have e : (V m c main_v24 : Vec Ideal S4x4 .f32) = uitofp (F := Ideal) .f32 (cmpi .eq (addi (iotaInDim S4x4 32 0) (broadcastInDim S4x4 ![] bcast_S_S4x4 (constantI S_ 32 0#32))) (iotaInDim S4x4 32 1)) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
    try rfl
  rw [e]
  show FloatOps.uitofp .f32 (IntOp.cmpi .eq (BitVec.ofNat 32 i.val + 0#32) (BitVec.ofNat 32 v.val)) = _
  have hi := i.isLt
  have hv := v.isLt
  rw [BitVec.add_zero, oh_word _ _ (by omega), BitVec.toNat_ofNat, Nat.mod_eq_of_lt (by omega)]
  rfl

end Cert.KernelIdeal.Hand

end
-- ==== Proof.KerHost.lean ====
/-
  What the host computes before the launch, as the region finds it: the clipped time step (the one
  prefetched word), the transposed parameter slices, `exp caps`, and the 0/1 matrices made from the
  three index tables — and that with the tables in range these are exactly the matrices of
  `Tnn.rowKOf`. The step word is clipped to `[0, 3]`, so the block of `u` it selects is always inside
  the array.
-/
import proofs.«405011_j38749194944738_3_alg».proof.Proof.Gen.KernelIdeal.Frame.Runs
import proofs.«405011_j38749194944738_3_alg».proof.Proof.KerArgs
import proofs.«405011_j38749194944738_3_alg».proof.Proof.KerOk
import proofs.«405011_j38749194944738_3_alg».proof.Proof.KerSel
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen Cert.Tnn

variable (m : (ℓ : Loc nD τ sig) → Buf (Elt Ideal) ℓ)

/-- At the extended reals the prefetched word is the clipped time step of the scalar argument. -/
theorem tbl_step : (tbl m 0 : IVec S1 32) (ix1 0) = clipW (stepWord (A0 m 0 ValueIdx.ix0)) := by
  rw [tbl_word]; rfl

/-! ## The eleven parameter operands, entry by entry

Each is an argument array read through layout operations only (a slice of rows, a transpose, a
reshape to a column), `exp caps` apart; its entry is therefore one entry of the argument. -/

/-- An operand the region finds is the value, over the launch memory, of the host operations that wrote it. -/
local macro "host_term" : tactic =>
  `(tactic| (dsimp only [Gen.V]
             simp only [Gen.hostOps0, Gen.hostOps0_1, Gen.hostOps0_2, Gen.hostOps0_3, Gen.hostOps0_4, Gen.hostOps0_5, Gen.hostOps0_6,
               Gen.hostOps0_7, Gen.hostOps0_8, List.flatten_cons, List.flatten_nil, List.append_nil, List.cons_append, List.nil_append]
             after_results_simp))

/-- A vector reshaped to a column has the vector's entries. -/
theorem col_apply {n : Nat} (x : (⟨1, ![n]⟩ : Shape).Idx → EReal) (h : (⟨1, ![n]⟩ : Shape).ShapeCasts ⟨2, ![n, 1]⟩) (i : Fin n) :
    shapeCast ⟨2, ![n, 1]⟩ x h (ix2 i 0) = x (ix1 i) := by
  refine shapeCast_apply _ _ (ix2 i 0) (ix1 i) ?_
  rw [Shape.rowMajor_val_one, Shape.rowMajor_val_two]
  show i.val = i.val * 1 + 0
  omega

/-- A transposed matrix has the matrix's entries with the coordinates exchanged. -/
theorem tr_apply {a b : Nat} (x : (⟨2, ![a, b]⟩ : Shape).Idx → EReal) (h : (⟨2, ![a, b]⟩ : Shape).Transposes [1, 0] ⟨2, ![b, a]⟩)
    (i : Fin b) (j : Fin a) : transpose ⟨2, ![b, a]⟩ [1, 0] x h (ix2 i j) = x (ix2 j i) :=
  transpose_apply _ _ _ (ix2 i j) (ix2 j i) fun d => match d with | ⟨0, _⟩ => rfl | ⟨1, _⟩ => rfl

/-- A block of `k` consecutive rows of a matrix, from row `off` on, has the matrix's entries `off` rows down. -/
theorem rows_apply {n k b : Nat} (off : Nat) (x : (⟨2, ![n, b]⟩ : Shape).Idx → EReal)
    (h : (⟨2, ![n, b]⟩ : Shape).Slices ![off, 0] ⟨2, ![k, b]⟩) (i : Fin k) (j : Fin b) (r : Fin n) (hr : r.val = off + i.val) :
    extractStridedSlice ⟨2, ![k, b]⟩ ![off, 0] x h (ix2 i j) = x (ix2 r j) :=
  extractStridedSlice_apply _ _ _ (ix2 i j) (ix2 r j) fun d => match d with
    | ⟨0, _⟩ => hr
    | ⟨1, _⟩ => by show j.val = 0 + j.val; omega

section Operands
variable (c : Dev nD)

set_option maxHeartbeats 4000000 in
/-- The scale column is `exp caps`, entry by entry. -/
theorem v36_apply (v : Fin 4) : (V m c main_v36 : Vec Ideal S4x1 .f32) (ix2 v 0) = Ideal.exp (A3 m c (ix1 v)) := by
  have e : @Eq (FVec Ideal S4x1 .f32) (V m c main_v36) (shapeCast S4x1 (Host.exp (A3 m c)) shapeCasts_S4_S4x1) := by
    host_term <;> rfl
  rw [e]
  exact (col_apply _ _ v).trans rfl

set_option maxHeartbeats 4000000 in
/-- The first-layer matrix of the conductance network on the inputs: rows 0 to 6 of `cw1`, transposed. -/
theorem v29_apply (h : Fin 2) (f : Fin 7) : (V m c main_v29 : Vec Ideal S2x7 .f32) (ix2 h f) = A4 m c (ix2 ⟨f.val, by omega⟩ h) := by
  have e : @Eq (FVec Ideal S2x7 .f32) (V m c main_v29)
      (transpose S2x7 [1, 0] (extractStridedSlice S7x2 ![0, 0] (A4 m c) slices_S11x2_S7x2_0_0) transposes_S7x2_S2x7_1_0) := by
    host_term <;> rfl
  rw [e]
  refine (tr_apply _ _ h f).trans ?_
  exact rows_apply 0 _ _ f h ⟨f.val, by omega⟩ (by show f.val = 0 + f.val; omega)

set_option maxHeartbeats 4000000 in
/-- The first-layer matrix of the conductance network on the states: rows 7 to 10 of `cw1`, transposed. -/
theorem v30_apply (h : Fin 2) (v : Fin 4) : (V m c main_v30 : Vec Ideal S2x4 .f32) (ix2 h v) = A4 m c (ix2 ⟨7 + v.val, by omega⟩ h) := by
  have e : @Eq (FVec Ideal S2x4 .f32) (V m c main_v30)
      (transpose S2x4 [1, 0] (extractStridedSlice S4x2 ![7, 0] (A4 m c) slices_S11x2_S4x2_7_0) transposes_S4x2_S2x4_1_0) := by
    host_term <;> rfl
  rw [e]
  refine (tr_apply _ _ h v).trans ?_
  exact rows_apply 7 _ _ v h ⟨7 + v.val, by omega⟩ rfl

set_option maxHeartbeats 4000000 in
/-- The first-layer bias of the conductance network, as a column. -/
theorem v37_apply (h : Fin 2) : (V m c main_v37 : Vec Ideal S2x1 .f32) (ix2 h 0) = A5 m c (ix1 h) := by
  have e : @Eq (FVec Ideal S2x1 .f32) (V m c main_v37) (shapeCast S2x1 (A5 m c) shapeCasts_S2_S2x1) := by
    host_term <;> rfl
  rw [e]
  exact col_apply _ _ h

set_option maxHeartbeats 4000000 in
/-- The second-layer matrix of the conductance network: `cw2` transposed. -/
theorem v31_apply (k : Fin 15) (h : Fin 2) : (V m c main_v31 : Vec Ideal S15x2 .f32) (ix2 k h) = A6 m c (ix2 h k) := by
  have e : @Eq (FVec Ideal S15x2 .f32) (V m c main_v31) (transpose S15x2 [1, 0] (A6 m c) transposes_S2x15_S15x2_1_0) := by
    host_term <;> rfl
  rw [e]
  exact tr_apply _ _ k h

set_option maxHeartbeats 4000000 in
/-- The second-layer bias of the conductance network, as a column. -/
theorem v38_apply (k : Fin 15) : (V m c main_v38 : Vec Ideal S15x1 .f32) (ix2 k 0) = A7 m c (ix1 k) := by
  have e : @Eq (FVec Ideal S15x1 .f32) (V m c main_v38) (shapeCast S15x1 (A7 m c) shapeCasts_S15_S15x1) := by
    host_term <;> rfl
  rw [e]
  exact col_apply _ _ k

set_option maxHeartbeats 4000000 in
/-- The first-layer matrix of the power-loss network on the inputs: rows 0 to 6 of `pw1`, transposed. -/
theorem v32_apply (h : Fin 4) (f : Fin 7) : (V m c main_v32 : Vec Ideal S4x7 .f32) (ix2 h f) = A8 m c (ix2 ⟨f.val, by omega⟩ h) := by
  have e : @Eq (FVec Ideal S4x7 .f32) (V m c main_v32)
      (transpose S4x7 [1, 0] (extractStridedSlice S7x4 ![0, 0] (A8 m c) slices_S11x4_S7x4_0_0) transposes_S7x4_S4x7_1_0) := by
    host_term <;> rfl
  rw [e]
  refine (tr_apply _ _ h f).trans ?_
  exact rows_apply 0 _ _ f h ⟨f.val, by omega⟩ (by show f.val = 0 + f.val; omega)

set_option maxHeartbeats 4000000 in
/-- The first-layer matrix of the power-loss network on the states: rows 7 to 10 of `pw1`, transposed. -/
theorem v33_apply (h : Fin 4) (v : Fin 4) : (V m c main_v33 : Vec Ideal S4x4 .f32) (ix2 h v) = A8 m c (ix2 ⟨7 + v.val, by omega⟩ h) := by
  have e : @Eq (FVec Ideal S4x4 .f32) (V m c main_v33)
      (transpose S4x4 [1, 0] (extractStridedSlice S4x4 ![7, 0] (A8 m c) slices_S11x4_S4x4_7_0) transposes_S4x4_S4x4_1_0) := by
    host_term <;> rfl
  rw [e]
  refine (tr_apply _ _ h v).trans ?_
  exact rows_apply 7 _ _ v h ⟨7 + v.val, by omega⟩ rfl

set_option maxHeartbeats 4000000 in
/-- The first-layer bias of the power-loss network, as a column. -/
theorem v39_apply (h : Fin 4) : (V m c main_v39 : Vec Ideal S4x1 .f32) (ix2 h 0) = A9 m c (ix1 h) := by
  have e : @Eq (FVec Ideal S4x1 .f32) (V m c main_v39) (shapeCast S4x1 (A9 m c) shapeCasts_S4_S4x1) := by
    host_term <;> rfl
  rw [e]
  exact col_apply _ _ h

set_option maxHeartbeats 4000000 in
/-- The second-layer matrix of the power-loss network: `pw2` transposed. -/
theorem v34_apply (v : Fin 4) (h : Fin 4) : (V m c main_v34 : Vec Ideal S4x4 .f32) (ix2 v h) = A10 m c (ix2 h v) := by
  have e : @Eq (FVec Ideal S4x4 .f32) (V m c main_v34) (transpose S4x4 [1, 0] (A10 m c) transposes_S4x4_S4x4_1_0) := by
    host_term <;> rfl
  rw [e]
  exact tr_apply _ _ v h

set_option maxHeartbeats 4000000 in
/-- The second-layer bias of the power-loss network, as a column. -/
theorem v40_apply (v : Fin 4) : (V m c main_v40 : Vec Ideal S4x1 .f32) (ix2 v 0) = A11 m c (ix1 v) := by
  have e : @Eq (FVec Ideal S4x1 .f32) (V m c main_v40) (shapeCast S4x1 (A11 m c) shapeCasts_S4_S4x1) := by
    host_term <;> rfl
  rw [e]
  exact col_apply _ _ v

end Operands

/-- With every table word an index of its axis, the dense-matrix step at the sixteen small operand arrays
    (as the region finds them) is `Tnn.rowKOf` at the parameters and tables read off the arguments. -/
theorem rowK_host (c : Dev nD) (hti : ∀ i, (A12 m c i).toNat < 6) (hadj : ∀ i, (A13 m c i).toNat < 15) (htc : ∀ i, (A14 m c i).toNat < 7)
    (x : Fin 4 → EReal) (inp : Fin 7 → EReal) :
    rowK (fun v => (V m c main_v36 : Vec Ideal S4x1 .f32) (ix2 v 0)) (fun h f => (V m c main_v29 : Vec Ideal S2x7 .f32) (ix2 h f)) (fun h v => (V m c main_v30 : Vec Ideal S2x4 .f32) (ix2 h v)) (fun h => (V m c main_v37 : Vec Ideal S2x1 .f32) (ix2 h 0))
      (fun k h => (V m c main_v31 : Vec Ideal S15x2 .f32) (ix2 k h)) (fun k => (V m c main_v38 : Vec Ideal S15x1 .f32) (ix2 k 0)) (fun h f => (V m c main_v32 : Vec Ideal S4x7 .f32) (ix2 h f)) (fun h v => (V m c main_v33 : Vec Ideal S4x4 .f32) (ix2 h v))
      (fun h => (V m c main_v39 : Vec Ideal S4x1 .f32) (ix2 h 0)) (fun v h => (V m c main_v34 : Vec Ideal S4x4 .f32) (ix2 v h)) (fun v => (V m c main_v40 : Vec Ideal S4x1 .f32) (ix2 v 0))
      (fun p v => (V m c main_v15 : Vec Ideal S20x4 .f32) (ix2 p v)) (fun p f => (V m c main_v16 : Vec Ideal S20x7 .f32) (ix2 p f)) (fun p k => (V m c main_v17 : Vec Ideal S20x15 .f32) (ix2 p k))
      (fun i p => (V m c main_v18 : Vec Ideal S4x20 .f32) (ix2 i p)) (fun i v => (V m c main_v24 : Vec Ideal S4x4 .f32) (ix2 i v)) x inp
    = rowKOf (netOf (A3 m c) (A4 m c) (A5 m c) (A6 m c) (A7 m c) (A8 m c) (A9 m c) (A10 m c) (A11 m c)) (tiOf (A12 m c)) (adjOf (A13 m c)) (tcOf (A14 m c)) x inp := by
  have e36 : (fun v => (V m c main_v36 : Vec Ideal S4x1 .f32) (ix2 v 0)) = fun v => Ideal.exp (A3 m c (ix1 v)) := funext fun v => v36_apply m c v
  have e29 : (fun h f => (V m c main_v29 : Vec Ideal S2x7 .f32) (ix2 h f)) = fun h f => A4 m c (ix2 ⟨f.val, by omega⟩ h) := funext fun h => funext fun f => v29_apply m c h f
  have e30 : (fun h v => (V m c main_v30 : Vec Ideal S2x4 .f32) (ix2 h v)) = fun h v => A4 m c (ix2 ⟨7 + v.val, by omega⟩ h) := funext fun h => funext fun v => v30_apply m c h v
  have e37 : (fun h => (V m c main_v37 : Vec Ideal S2x1 .f32) (ix2 h 0)) = fun h => A5 m c (ix1 h) := funext fun h => v37_apply m c h
  have e31 : (fun k h => (V m c main_v31 : Vec Ideal S15x2 .f32) (ix2 k h)) = fun k h => A6 m c (ix2 h k) := funext fun k => funext fun h => v31_apply m c k h
  have e38 : (fun k => (V m c main_v38 : Vec Ideal S15x1 .f32) (ix2 k 0)) = fun k => A7 m c (ix1 k) := funext fun k => v38_apply m c k
  have e32 : (fun h f => (V m c main_v32 : Vec Ideal S4x7 .f32) (ix2 h f)) = fun h f => A8 m c (ix2 ⟨f.val, by omega⟩ h) := funext fun h => funext fun f => v32_apply m c h f
  have e33 : (fun h v => (V m c main_v33 : Vec Ideal S4x4 .f32) (ix2 h v)) = fun h v => A8 m c (ix2 ⟨7 + v.val, by omega⟩ h) := funext fun h => funext fun v => v33_apply m c h v
  have e39 : (fun h => (V m c main_v39 : Vec Ideal S4x1 .f32) (ix2 h 0)) = fun h => A9 m c (ix1 h) := funext fun h => v39_apply m c h
  have e34 : (fun v h => (V m c main_v34 : Vec Ideal S4x4 .f32) (ix2 v h)) = fun v h => A10 m c (ix2 h v) := funext fun v => funext fun h => v34_apply m c v h
  have e40 : (fun v => (V m c main_v40 : Vec Ideal S4x1 .f32) (ix2 v 0)) = fun v => A11 m c (ix1 v) := funext fun v => v40_apply m c v
  have e15 : (fun p v => (V m c main_v15 : Vec Ideal S20x4 .f32) (ix2 p v)) = selXOf (tiOf (A12 m c)) := funext fun p => funext fun v => selX_apply m c hti p v
  have e16 : (fun p f => (V m c main_v16 : Vec Ideal S20x7 .f32) (ix2 p f)) = selUOf (tiOf (A12 m c)) (tcOf (A14 m c)) := funext fun p => funext fun f => selU_apply m c hti htc p f
  have e17 : (fun p k => (V m c main_v17 : Vec Ideal S20x15 .f32) (ix2 p k)) = selCOf (adjOf (A13 m c)) := funext fun p => funext fun k => selC_apply m c hadj p k
  have e18 : (fun i p => (V m c main_v18 : Vec Ideal S4x20 .f32) (ix2 i p)) = grpM := funext fun i => funext fun p => grp_apply m c i p
  have e24 : (fun i v => (V m c main_v24 : Vec Ideal S4x4 .f32) (ix2 i v)) = eyeM := funext fun i => funext fun v => eye_apply m c i v
  rw [e36, e29, e30, e37, e31, e38, e32, e33, e39, e34, e40, e15, e16, e17, e18, e24]
  rfl

end Cert.KernelIdeal.Hand

end
-- ==== Proof.KerPay.lean ====
/-
  The block the body stores, read at row `r` and column `j`: the dense-matrix step `Tnn.rowK` of the
  row's state `x0[r, ·]` and input `x1[0, r, ·]`, its matrices the sixteen small blocks the body loads
  whole. Every `tpu.matmul` into a zero accumulator is a finite sum of products over its contracted
  axis; the broadcasts of a column repeat it along the rows; `cmpf ogt` against zero with `select` is
  the case split of `Tnn.elu1`; `maximumf (−1)` then `minimumf 1` is the clip.
-/
import proofs.«405011_j38749194944738_3_alg».proof.Proof.Gen.KernelIdeal.Skeleton
import proofs.«405011_j38749194944738_3_alg».proof.Proof.Spec
import Idealize.ShloMosaic.PureOps.Ideal.Laws
import Idealize.ShloMosaic.Lib.Pipeline.Value
import Idealize.ShloMosaic.Lib.ValueLayout
import Idealize.ShloMosaic.Lib.IdealHost

noncomputable section

namespace Cert.KernelIdeal.Hand

open Idealize.ShloMosaic Idealize.ShloMosaic.ValueIdx Cert.KernelIdeal Cert.Tnn

namespace Pay

/-! ## A product of two small matrices into a zero accumulator, entry by entry -/

section Products
variable {a k b : Nat} {φ₁ φ₂ : FTy}

/-- Both operands contracted along their columns: entry `(p, q)` is the sum over `c` of
    `l (p, c) · r (q, c)`. -/
theorem matmul_rows_rows
    (w : DotDims.WF ⟨2, ![a, k]⟩ ⟨2, ![b, k]⟩ ⟨2, ![a, b]⟩ [1] [1] [0] [0] [] [])
    (prec : Option ContractPrecision) (l : FVec Ideal ⟨2, ![a, k]⟩ φ₁) (r : FVec Ideal ⟨2, ![b, k]⟩ φ₂)
    (p : Fin a) (q : Fin b) :
    matmul (⟨[1], [1], [0], [0], [], [], w⟩ : DotDims _ _ _) prec l r
        (constant (F := Ideal) ⟨2, ![a, b]⟩ .f32 0x00000000#32) (ix2 p q)
      = ∑ c : Fin k, l (ix2 p c) * r (ix2 q c) := by
  show FloatOps.matmul _ prec l r _ (ix2 p q) = _
  rw [Ideal.matmul_constant_zero_apply,
    ← Equiv.sum_comp (contrEquiv1 (⟨[1], [1], [0], [0], [], [], w⟩ : DotDims ⟨2, ![a, k]⟩ ⟨2, ![b, k]⟩ ⟨2, ![a, b]⟩) k rfl rfl).symm]
  refine Finset.sum_congr rfl fun c _ => ?_
  have c2 := contrEquiv1_symm_val
    (⟨[1], [1], [0], [0], [], [], w⟩ : DotDims ⟨2, ![a, k]⟩ ⟨2, ![b, k]⟩ ⟨2, ![a, b]⟩) k rfl rfl c
  have l2 : (⟨[1], [1], [0], [0], [], [], w⟩ : DotDims ⟨2, ![a, k]⟩ ⟨2, ![b, k]⟩ ⟨2, ![a, b]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![a, k]⟩ ⟨2, ![b, k]⟩ ⟨2, ![a, b]⟩).rhsIdx (ix2 p q)
      ((contrEquiv1 _ k rfl rfl).symm c) = ix2 q c := by
    funext ax; apply Fin.ext
    match ax with
    | ⟨0, _⟩ => simp [DotDims.rhsIdx]; rfl
    | ⟨1, _⟩ => simp [DotDims.rhsIdx]; exact c2
  rw [l2, r2]

/-- The left operand contracted along its columns, the right one along its rows: entry `(p, q)` is
    the sum over `c` of `l (p, c) · r (c, q)`. -/
theorem matmul_rows_cols
    (w : DotDims.WF ⟨2, ![a, k]⟩ ⟨2, ![k, b]⟩ ⟨2, ![a, b]⟩ [1] [0] [0] [1] [] [])
    (prec : Option ContractPrecision) (l : FVec Ideal ⟨2, ![a, k]⟩ φ₁) (r : FVec Ideal ⟨2, ![k, b]⟩ φ₂)
    (p : Fin a) (q : Fin b) :
    matmul (⟨[1], [0], [0], [1], [], [], w⟩ : DotDims _ _ _) prec l r
        (constant (F := Ideal) ⟨2, ![a, b]⟩ .f32 0x00000000#32) (ix2 p q)
      = ∑ c : Fin k, l (ix2 p c) * r (ix2 c q) := by
  show FloatOps.matmul _ prec l r _ (ix2 p q) = _
  rw [Ideal.matmul_constant_zero_apply,
    ← Equiv.sum_comp (contrEquiv1 (⟨[1], [0], [0], [1], [], [], w⟩ : DotDims ⟨2, ![a, k]⟩ ⟨2, ![k, b]⟩ ⟨2, ![a, b]⟩) k rfl rfl).symm]
  refine Finset.sum_congr rfl fun c _ => ?_
  have c2 := contrEquiv1_symm_val
    (⟨[1], [0], [0], [1], [], [], w⟩ : DotDims ⟨2, ![a, k]⟩ ⟨2, ![k, b]⟩ ⟨2, ![a, b]⟩) k rfl rfl c
  have l2 : (⟨[1], [0], [0], [1], [], [], w⟩ : DotDims ⟨2, ![a, k]⟩ ⟨2, ![k, b]⟩ ⟨2, ![a, b]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, k]⟩ ⟨2, ![k, b]⟩ ⟨2, ![a, b]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

/-- Both operands contracted along their rows: entry `(p, q)` is the sum over `c` of
    `l (c, p) · r (c, q)`. -/
theorem matmul_cols_cols
    (w : DotDims.WF ⟨2, ![k, a]⟩ ⟨2, ![k, b]⟩ ⟨2, ![a, b]⟩ [0] [0] [1] [1] [] [])
    (prec : Option ContractPrecision) (l : FVec Ideal ⟨2, ![k, a]⟩ φ₁) (r : FVec Ideal ⟨2, ![k, b]⟩ φ₂)
    (p : Fin a) (q : Fin b) :
    matmul (⟨[0], [0], [1], [1], [], [], w⟩ : DotDims _ _ _) prec l r
        (constant (F := Ideal) ⟨2, ![a, b]⟩ .f32 0x00000000#32) (ix2 p q)
      = ∑ c : Fin k, l (ix2 c p) * r (ix2 c q) := by
  show FloatOps.matmul _ prec l r _ (ix2 p q) = _
  rw [Ideal.matmul_constant_zero_apply,
    ← Equiv.sum_comp (contrEquiv1 (⟨[0], [0], [1], [1], [], [], w⟩ : DotDims ⟨2, ![k, a]⟩ ⟨2, ![k, b]⟩ ⟨2, ![a, b]⟩) k rfl rfl).symm]
  refine Finset.sum_congr rfl fun c _ => ?_
  have c2 := contrEquiv1_symm_val
    (⟨[0], [0], [1], [1], [], [], w⟩ : DotDims ⟨2, ![k, a]⟩ ⟨2, ![k, b]⟩ ⟨2, ![a, b]⟩) k rfl rfl c
  have l2 : (⟨[0], [0], [1], [1], [], [], w⟩ : DotDims ⟨2, ![k, a]⟩ ⟨2, ![k, b]⟩ ⟨2, ![a, b]⟩).lhsIdx (ix2 p q)
      ((contrEquiv1 _ k rfl rfl).symm c) = ix2 c p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, a]⟩ ⟨2, ![k, b]⟩ ⟨2, ![a, b]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

end Products

/-! ## A column repeated along the rows, the two float constants, and the pointwise functions at an entry -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word `0xBF800000` is the real minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

theorem tanh_apply {s : Shape} {φ : FTy} (v : FVec Ideal s φ) (i : s.Idx) : tanh v i = Ideal.tanh (v i) := rfl
theorem exp_apply {s : Shape} {φ : FTy} (v : FVec Ideal s φ) (i : s.Idx) : exp v i = Ideal.exp (v i) := rfl
theorem logistic_apply {s : Shape} {φ : FTy} (v : FVec Ideal s φ) (i : s.Idx) : logistic v i = Ideal.logistic (v i) := rfl

/-- Choosing by "`p` is above zero" is the case split on `0 < p`. -/
theorem select_ogt_zero (p A B : EReal) : Scalar.select (Ideal.cmp .ogt p 0) A B = if 0 < p then A else B := by
  unfold Ideal.cmp Scalar.select
  by_cases h : 0 < p
  · simp [h]
  · simp [h]

theorem cmpf_def {φ : FTy} (p : CmpFPredicate) (x y : Ideal φ) : FloatOps.cmpf p x y = Ideal.cmp p x y := rfl

/-! ## The body's eleven products, entry by entry -/

theorem mm_2x7 (l : FVec Ideal S2x7 .f32) (r : FVec Ideal S10000x7 .f32) (h : Fin 2) (b : Fin 10000) :
    matmul dot_S2x7_S10000x7_S2x10000_1_1_0_0_n_n (some .fp32) l r (constant (F := Ideal) S2x10000 .f32 0x00000000#32) (ix2 h b)
      = ∑ f : Fin 7, l (ix2 h f) * r (ix2 b f) :=
  matmul_rows_rows _ (some .fp32) l r h b

theorem mm_2x4 (l : FVec Ideal S2x4 .f32) (r : FVec Ideal S10000x4 .f32) (h : Fin 2) (b : Fin 10000) :
    matmul dot_S2x4_S10000x4_S2x10000_1_1_0_0_n_n (some .fp32) l r (constant (F := Ideal) S2x10000 .f32 0x00000000#32) (ix2 h b)
      = ∑ v : Fin 4, l (ix2 h v) * r (ix2 b v) :=
  matmul_rows_rows _ (some .fp32) l r h b

theorem mm_15x2 (l : FVec Ideal S15x2 .f32) (r : FVec Ideal S2x10000 .f32) (c : Fin 15) (b : Fin 10000) :
    matmul dot_S15x2_S2x10000_S15x10000_1_0_0_1_n_n (some .fp32) l r (constant (F := Ideal) S15x10000 .f32 0x00000000#32) (ix2 c b)
      = ∑ h : Fin 2, l (ix2 c h) * r (ix2 h b) :=
  matmul_rows_cols _ (some .fp32) l r c b

theorem mm_4x7 (l : FVec Ideal S4x7 .f32) (r : FVec Ideal S10000x7 .f32) (h : Fin 4) (b : Fin 10000) :
    matmul dot_S4x7_S10000x7_S4x10000_1_1_0_0_n_n (some .fp32) l r (constant (F := Ideal) S4x10000 .f32 0x00000000#32) (ix2 h b)
      = ∑ f : Fin 7, l (ix2 h f) * r (ix2 b f) :=
  matmul_rows_rows _ (some .fp32) l r h b

theorem mm_4x4r (l : FVec Ideal S4x4 .f32) (r : FVec Ideal S10000x4 .f32) (h : Fin 4) (b : Fin 10000) :
    matmul dot_S4x4_S10000x4_S4x10000_1_1_0_0_n_n (some .fp32) l r (constant (F := Ideal) S4x10000 .f32 0x00000000#32) (ix2 h b)
      = ∑ v : Fin 4, l (ix2 h v) * r (ix2 b v) :=
  matmul_rows_rows _ (some .fp32) l r h b

theorem mm_4x4c (l : FVec Ideal S4x4 .f32) (r : FVec Ideal S4x10000 .f32) (v : Fin 4) (b : Fin 10000) :
    matmul dot_S4x4_S4x10000_S4x10000_1_0_0_1_n_n (some .fp32) l r (constant (F := Ideal) S4x10000 .f32 0x00000000#32) (ix2 v b)
      = ∑ h : Fin 4, l (ix2 v h) * r (ix2 h b) :=
  matmul_rows_cols _ (some .fp32) l r v b

theorem mm_20x4 (l : FVec Ideal S20x4 .f32) (r : FVec Ideal S10000x4 .f32) (j : Fin 20) (b : Fin 10000) :
    matmul dot_S20x4_S10000x4_S20x10000_1_1_0_0_n_n (some .fp32) l r (constant (F := Ideal) S20x10000 .f32 0x00000000#32) (ix2 j b)
      = ∑ v : Fin 4, l (ix2 j v) * r (ix2 b v) :=
  matmul_rows_rows _ (some .fp32) l r j b

theorem mm_20x7 (l : FVec Ideal S20x7 .f32) (r : FVec Ideal S10000x7 .f32) (j : Fin 20) (b : Fin 10000) :
    matmul dot_S20x7_S10000x7_S20x10000_1_1_0_0_n_n (some .fp32) l r (constant (F := Ideal) S20x10000 .f32 0x00000000#32) (ix2 j b)
      = ∑ f : Fin 7, l (ix2 j f) * r (ix2 b f) :=
  matmul_rows_rows _ (some .fp32) l r j b

theorem mm_20x15 (l : FVec Ideal S20x15 .f32) (r : FVec Ideal S15x10000 .f32) (j : Fin 20) (b : Fin 10000) :
    matmul dot_S20x15_S15x10000_S20x10000_1_0_0_1_n_n (some .fp32) l r (constant (F := Ideal) S20x10000 .f32 0x00000000#32) (ix2 j b)
      = ∑ c : Fin 15, l (ix2 j c) * r (ix2 c b) :=
  matmul_rows_cols _ (some .fp32) l r j b

theorem mm_4x20 (l : FVec Ideal S4x20 .f32) (r : FVec Ideal S20x10000 .f32) (i : Fin 4) (b : Fin 10000) :
    matmul dot_S4x20_S20x10000_S4x10000_1_0_0_1_n_n (some .fp32) l r (constant (F := Ideal) S4x10000 .f32 0x00000000#32) (ix2 i b)
      = ∑ j : Fin 20, l (ix2 i j) * r (ix2 j b) :=
  matmul_rows_cols _ (some .fp32) l r i b

theorem mm_out (l : FVec Ideal S4x10000 .f32) (r : FVec Ideal S4x4 .f32) (b : Fin 10000) (j : Fin 4) :
    matmul dot_S4x10000_S4x4_S10000x4_0_0_1_1_n_n (some .fp32) l r (constant (F := Ideal) S10000x4 .f32 0x00000000#32) (ix2 b j)
      = ∑ k : Fin 4, l (ix2 k b) * r (ix2 k j) :=
  matmul_cols_cols _ (some .fp32) l r b j

/-- Choosing between `p + 1` and `exp p` by "`p` is above zero" is `Tnn.elu1`. -/
theorem select_elu1 (p : EReal) : Scalar.select (Ideal.cmp .ogt p 0) (p + 1) (Ideal.exp p) = elu1 p := by
  unfold elu1
  exact select_ogt_zero p _ _

/-! ## The payloads, entry by entry -/

/-- The input block without its unit axis. -/
theorem pay2_apply (x1 : Vec Ideal S1x10000x7 .f32) (r : Fin 10000) (f : Fin 7) :
    Gen.k0_pay2 (F := Ideal) x1 (ix2 r f) = x1 (ix3 0 r f) := by
  simp only [Gen.k0_pay2, shapeCast_1ab_ab_apply]

theorem pay4_eq (x8 : Vec Ideal S4x7 .f32) : Gen.k0_pay4 (F := Ideal) x8 = x8 := by
  simp only [Gen.k0_pay4, shapeCast_self]
theorem pay5_eq (x9 : Vec Ideal S4x4 .f32) : Gen.k0_pay5 (F := Ideal) x9 = x9 := by
  simp only [Gen.k0_pay5, shapeCast_self]
theorem pay7_eq (x17 : Vec Ideal S4x4 .f32) : Gen.k0_pay7 (F := Ideal) x17 = x17 := by
  simp only [Gen.k0_pay7, shapeCast_self]

/-- The conductances: a tanh layer on the inputs and the states, an affine layer, then `Tnn.elu1`. -/
theorem pay3_apply (x0 : Vec Ideal S10000x4 .f32) (x1 : Vec Ideal S1x10000x7 .f32) (x3 : Vec Ideal S2x7 .f32) (x4 : Vec Ideal S2x4 .f32) (x5 : Vec Ideal S2x1 .f32) (x6 : Vec Ideal S15x2 .f32) (x7 : Vec Ideal S15x1 .f32) (c : Fin 15) (r : Fin 10000) :
    Gen.k0_pay3 (F := Ideal) x0 x1 x3 x4 x5 x6 x7 (ix2 c r)
      = elu1 ((∑ h : Fin 2, x6 (ix2 c h) * Ideal.tanh (((∑ f : Fin 7, x3 (ix2 h f) * x1 (ix3 0 r f))
          + (∑ v : Fin 4, x4 (ix2 h v) * x0 (ix2 r v))) + x5 (ix2 h 0))) + x7 (ix2 c 0)) := by
  simp only [Gen.k0_pay3, Gen.k0_pay2, select_apply, cmpf_apply, addf_apply, exp_apply, tanh_apply, broadcast_apply,
    mm_15x2, mm_2x7, mm_2x4, shapeCast_self, shapeCast_1ab_ab_apply, broadcastTo_a1_ab_apply,
    cmpf_def, Ideal.ofBits_def, Ideal.ofBits_zero_f32, Ideal.ofBits_one_f32, select_elu1,
    Ideal.exp_def, Ideal.tanh_def, Ideal.addf_def]

/-- The power loss: a tanh layer on the inputs and the states, an affine layer, then the logistic function. -/
theorem pay6_apply (x0 : Vec Ideal S10000x4 .f32) (v2 : FVec Ideal S10000x7 .f32) (v29 : FVec Ideal S4x7 .f32) (v31 : FVec Ideal S4x4 .f32) (x10 : Vec Ideal S4x1 .f32) (x11 : Vec Ideal S4x4 .f32) (x12 : Vec Ideal S4x1 .f32) (v : Fin 4) (r : Fin 10000) :
    Gen.k0_pay6 (F := Ideal) x0 v2 v29 v31 x10 x11 x12 (ix2 v r)
      = Ideal.logistic ((∑ h : Fin 4, x11 (ix2 v h) * Ideal.tanh (((∑ f : Fin 7, v29 (ix2 h f) * v2 (ix2 r f))
          + (∑ v' : Fin 4, v31 (ix2 h v') * x0 (ix2 r v'))) + x10 (ix2 h 0))) + x12 (ix2 v 0)) := by
  simp only [Gen.k0_pay6, logistic_apply, addf_apply, tanh_apply,
    mm_4x4c, mm_4x7, mm_4x4r, shapeCast_self, broadcastTo_a1_ab_apply,
    Ideal.logistic_def, Ideal.tanh_def, Ideal.addf_def]

/-- The neighbour sums: `Σ T·C − x·Σ C`, the temperatures and conductances picked by the selection matrices. -/
theorem pay8_apply (x0 : Vec Ideal S10000x4 .f32) (v2 : FVec Ideal S10000x7 .f32) (v27 : FVec Ideal S15x10000 .f32) (x13 : Vec Ideal S20x4 .f32) (x14 : Vec Ideal S20x7 .f32) (x15 : Vec Ideal S20x15 .f32) (x16 : Vec Ideal S4x20 .f32) (x17 : Vec Ideal S4x4 .f32) (i : Fin 4) (r : Fin 10000) :
    Gen.k0_pay8 (F := Ideal) x0 v2 v27 x13 x14 x15 x16 x17 (ix2 i r)
      = (∑ j : Fin 20, x16 (ix2 i j) * (((∑ v : Fin 4, x13 (ix2 j v) * x0 (ix2 r v)) + (∑ f : Fin 7, x14 (ix2 j f) * v2 (ix2 r f)))
            * (∑ c : Fin 15, x15 (ix2 j c) * v27 (ix2 c r))))
        - (∑ v : Fin 4, x17 (ix2 i v) * x0 (ix2 r v)) * (∑ j : Fin 20, x16 (ix2 i j) * (∑ c : Fin 15, x15 (ix2 j c) * v27 (ix2 c r))) := by
  simp only [Gen.k0_pay8, Gen.k0_pay7, subf_apply, mulf_apply, addf_apply,
    mm_4x20, mm_20x15, mm_20x4, mm_20x7, mm_4x4r, shapeCast_self,
    Ideal.subf_def, Ideal.mulf_def, Ideal.addf_def]

/-- The stored block: scaled, clipped to `[−1, 1]`, and transposed by a product. -/
theorem pay1_apply (v47 : FVec Ideal S4x10000 .f32) (v64 : FVec Ideal S4x4 .f32) (v67 : FVec Ideal S4x10000 .f32) (x2 : Vec Ideal S4x1 .f32) (r : Fin 10000) (j : Fin 4) :
    Gen.k0_pay1 (F := Ideal) v47 v64 v67 x2 (ix2 r j)
      = ∑ k : Fin 4, min 1 (max (-1) (x2 (ix2 k 0) * (v67 (ix2 k r) + v47 (ix2 k r)))) * v64 (ix2 k j) := by
  simp only [Gen.k0_pay1, mm_out, minimumf_apply, maximumf_apply, mulf_apply, addf_apply, broadcast_apply,
    shapeCast_self, broadcastTo_a1_ab_apply, Ideal.ofBits_def, Ideal.ofBits_one_f32, ofBits_neg_one_f32,
    Ideal.minimumf_def, Ideal.maximumf_def, Ideal.mulf_def, Ideal.addf_def]

end Pay

open Pay

/-- The stored block as one term of the loaded blocks (the composition the body makes of its payloads). -/
def stored (x0 : Vec Ideal S10000x4 .f32) (x1 : Vec Ideal S1x10000x7 .f32) (x2 : Vec Ideal S4x1 .f32) (x3 : Vec Ideal S2x7 .f32) (x4 : Vec Ideal S2x4 .f32) (x5 : Vec Ideal S2x1 .f32) (x6 : Vec Ideal S15x2 .f32) (x7 : Vec Ideal S15x1 .f32) (x8 : Vec Ideal S4x7 .f32) (x9 : Vec Ideal S4x4 .f32) (x10 : Vec Ideal S4x1 .f32) (x11 : Vec Ideal S4x4 .f32) (x12 : Vec Ideal S4x1 .f32) (x13 : Vec Ideal S20x4 .f32) (x14 : Vec Ideal S20x7 .f32) (x15 : Vec Ideal S20x15 .f32) (x16 : Vec Ideal S4x20 .f32) (x17 : Vec Ideal S4x4 .f32) : FVec Ideal S10000x4 .f32 :=
  Gen.k0_pay1 (F := Ideal)
    (Gen.k0_pay6 x0 (Gen.k0_pay2 x1) (Gen.k0_pay4 x8) (Gen.k0_pay5 x9) x10 x11 x12)
    (Gen.k0_pay7 x17)
    (Gen.k0_pay8 x0 (Gen.k0_pay2 x1) (Gen.k0_pay3 x0 x1 x3 x4 x5 x6 x7) x13 x14 x15 x16 x17)
    x2

/-- The stored block at row `r`, column `j`. -/
theorem stored_apply (x0 : Vec Ideal S10000x4 .f32) (x1 : Vec Ideal S1x10000x7 .f32) (x2 : Vec Ideal S4x1 .f32) (x3 : Vec Ideal S2x7 .f32) (x4 : Vec Ideal S2x4 .f32) (x5 : Vec Ideal S2x1 .f32) (x6 : Vec Ideal S15x2 .f32) (x7 : Vec Ideal S15x1 .f32) (x8 : Vec Ideal S4x7 .f32) (x9 : Vec Ideal S4x4 .f32) (x10 : Vec Ideal S4x1 .f32) (x11 : Vec Ideal S4x4 .f32) (x12 : Vec Ideal S4x1 .f32) (x13 : Vec Ideal S20x4 .f32) (x14 : Vec Ideal S20x7 .f32) (x15 : Vec Ideal S20x15 .f32) (x16 : Vec Ideal S4x20 .f32) (x17 : Vec Ideal S4x4 .f32) (r : Fin 10000) (j : Fin 4) :
    stored x0 x1 x2 x3 x4 x5 x6 x7 x8 x9 x10 x11 x12 x13 x14 x15 x16 x17 (ix2 r j)
    = rowK (fun v => x2 (ix2 v 0)) (fun h f => x3 (ix2 h f)) (fun h v => x4 (ix2 h v)) (fun h => x5 (ix2 h 0))
        (fun c h => x6 (ix2 c h)) (fun c => x7 (ix2 c 0)) (fun h f => x8 (ix2 h f)) (fun h v => x9 (ix2 h v))
        (fun h => x10 (ix2 h 0)) (fun v h => x11 (ix2 v h)) (fun v => x12 (ix2 v 0))
        (fun p v => x13 (ix2 p v)) (fun p f => x14 (ix2 p f)) (fun p c => x15 (ix2 p c))
        (fun i p => x16 (ix2 i p)) (fun i v => x17 (ix2 i v))
        (fun v => x0 (ix2 r v)) (fun f => x1 (ix3 0 r f)) j := by
  unfold stored
  simp only [pay1_apply, pay8_apply, pay6_apply, pay3_apply, pay2_apply, pay4_eq, pay5_eq, pay7_eq]
  rfl

end Cert.KernelIdeal.Hand

end
-- ==== Proof.SpecMath.lean ====
/-
  The dense-matrix arrangement of a row's step is the step: with 0/1 selection matrices a product is a
  lookup, with the grouping matrix a product is the sum over a state's five neighbours, with the
  identity a product is a transpose, and, every entry being a real number, the sum over neighbours of
  `(T k − x) · C k` is `∑ T k · C k − x · ∑ C k`.
-/
import proofs.«405011_j38749194944738_3_alg».proof.Proof.Spec
import Mathlib.Algebra.BigOperators.Fin
import Mathlib.Logic.Equiv.Fin.Basic

noncomputable section

namespace Cert.Tnn

open Idealize.ShloMosaic Idealize.ShloMosaic.ValueIdx

/-! ## Products with 0/1 matrices are lookups -/

/-- A sum against the indicator of one index, the indicator on the left, is that index's term. -/
private theorem sum_ind_mul {n : Nat} (a : Fin n) (g : Fin n → EReal) :
    ∑ c : Fin n, (if a.val = c.val then (1 : EReal) else 0) * g c = g a := by
  rw [Finset.sum_eq_single a]
  · simp
  · intro b _ hb
    have : ¬ a.val = b.val := fun h => hb (Fin.ext h.symm)
    simp [this]
  · intro h; exact absurd (Finset.mem_univ a) h

/-- The same with the indicator on the right. -/
private theorem sum_mul_ind {n : Nat} (a : Fin n) (g : Fin n → EReal) :
    ∑ c : Fin n, g c * (if c.val = a.val then (1 : EReal) else 0) = g a := by
  rw [Finset.sum_eq_single a]
  · simp
  · intro b _ hb
    have : ¬ b.val = a.val := fun h => hb (Fin.ext h)
    simp [this]
  · intro h; exact absurd (Finset.mem_univ a) h

private theorem sum_eye_left (i : Fin 4) (x : Fin 4 → EReal) : ∑ v : Fin 4, eyeM i v * x v = x i := by
  unfold eyeM; exact sum_ind_mul i x

private theorem sum_eye_right (o : Fin 4 → EReal) (j : Fin 4) : ∑ k : Fin 4, o k * eyeM k j = o j := by
  unfold eyeM; exact sum_mul_ind j o

private theorem sum_selC (adj : Fin 4 → Fin 5 → Fin 15) (j : Fin 20) (g : Fin 15 → EReal) :
    ∑ c : Fin 15, selCOf adj j c * g c = g (adj (pairState j) (pairNbr j)) := by
  unfold selCOf; exact sum_ind_mul _ g

/-- The states' part of a temperature lookup: the state `t` when `t` is below four, else nothing. -/
private theorem sum_selX' (t : Fin 6) (x : Fin 4 → EReal) :
    ∑ v : Fin 4, (if t.val = v.val then (1 : EReal) else 0) * x v =
      if h : t.val < 4 then x ⟨t.val, h⟩ else 0 := by
  split
  · next h =>
    rw [Finset.sum_eq_single (⟨t.val, h⟩ : Fin 4)]
    · simp
    · intro b _ hb
      have : ¬ t.val = b.val := fun h' => hb (Fin.ext h'.symm)
      simp [this]
    · intro h'; exact absurd (Finset.mem_univ _) h'
  · next h =>
    apply Finset.sum_eq_zero
    intro b _
    have : ¬ t.val = b.val := by omega
    simp [this]

/-- The inputs' part of a temperature lookup: the input `tc (t − 4)` when `t` is four or five, else nothing. -/
private theorem sum_selU' (tc : Fin 2 → Fin 7) (t : Fin 6) (inp : Fin 7 → EReal) :
    ∑ f : Fin 7, (∑ e : Fin 2, (if (tc e).val = f.val then (1 : EReal) else 0) *
        (if t.val = 4 + e.val then 1 else 0)) * inp f =
      if h : t.val < 4 then 0 else inp (tc ⟨t.val - 4, by omega⟩) := by
  split
  · next h =>
    apply Finset.sum_eq_zero
    intro f _
    have : ∀ e : Fin 2, ¬ t.val = 4 + e.val := by intro e; omega
    simp [this]
  · next h =>
    have he : ∀ f : Fin 7, (∑ e : Fin 2, (if (tc e).val = f.val then (1 : EReal) else 0) *
        (if t.val = 4 + e.val then 1 else 0)) = if (tc ⟨t.val - 4, by omega⟩).val = f.val then 1 else 0 := by
      intro f
      rw [Finset.sum_eq_single (⟨t.val - 4, by omega⟩ : Fin 2)]
      · have : t.val = 4 + (t.val - 4) := by omega
        simp [← this]
      · intro b _ hb
        have : ¬ t.val = 4 + b.val := by
          intro h'; apply hb; apply Fin.ext; simp only; omega
        simp [this]
      · intro h'; exact absurd (Finset.mem_univ _) h'
    simp only [he]
    exact sum_ind_mul _ inp

/-- The two selection products together look the pair's temperature up. -/
private theorem sum_selXU (ti : Fin 4 → Fin 5 → Fin 6) (tc : Fin 2 → Fin 7) (j : Fin 20) (x : Fin 4 → EReal) (inp : Fin 7 → EReal) :
    (∑ v : Fin 4, selXOf ti j v * x v) + (∑ f : Fin 7, selUOf ti tc j f * inp f)
      = temps tc x inp (ti (pairState j) (pairNbr j)) := by
  unfold selXOf selUOf
  rw [sum_selX', sum_selU']
  unfold temps
  split <;> simp

/-! ## The grouping matrix sums a state's five neighbours -/

/-- Pair `5 i + k` of the twenty. -/
private def pairIx (i : Fin 4) (k : Fin 5) : Fin 20 := ⟨5 * i.val + k.val, by omega⟩

private theorem pairState_pairIx (i : Fin 4) (k : Fin 5) : pairState (pairIx i k) = i := by
  apply Fin.ext; simp only [pairState, pairIx]; omega

private theorem pairNbr_pairIx (i : Fin 4) (k : Fin 5) : pairNbr (pairIx i k) = k := by
  apply Fin.ext; simp only [pairNbr, pairIx]; omega

private theorem finProd_eq_pairIx (i : Fin 4) (k : Fin 5) :
    (finProdFinEquiv (i, k) : Fin (4 * 5)) = pairIx i k := by
  apply Fin.ext; simp [finProdFinEquiv, pairIx]; omega

private theorem sum_grp (i : Fin 4) (g : Fin 20 → EReal) :
    ∑ j : Fin 20, grpM i j * g j = ∑ k : Fin 5, g (pairIx i k) := by
  have e := (finProdFinEquiv : Fin 4 × Fin 5 ≃ Fin (4 * 5)).sum_comp (fun j : Fin 20 => grpM i j * g j)
  rw [← e, Fintype.sum_prod_type]
  simp only [finProd_eq_pairIx]
  rw [Finset.sum_eq_single i]
  · apply Finset.sum_congr rfl; intro k _
    have : (pairIx i k).val / 5 = i.val := by simp only [pairIx]; omega
    simp [grpM, this]
  · intro a _ ha
    apply Finset.sum_eq_zero; intro k _
    have : ¬ (pairIx a k).val / 5 = i.val := by
      intro h; apply ha; apply Fin.ext; simp only [pairIx] at h; omega
    simp [grpM, this]
  · intro h; exact absurd (Finset.mem_univ _) h

/-! ## The first layers: input columns and state columns together are the eleven features -/

private theorem first_layer {n : Nat} (W : Fin 11 → Fin n → EReal) (h : Fin n) (x : Fin 4 → EReal) (inp : Fin 7 → EReal) :
    (∑ f : Fin 7, W ⟨f.val, by omega⟩ h * inp f) + (∑ v : Fin 4, W ⟨7 + v.val, by omega⟩ h * x v)
      = ∑ k : Fin 11, feats x inp k * W k h := by
  have e := Fin.sum_univ_add (a := 7) (b := 4) (fun k : Fin 11 => feats x inp k * W k h)
  refine Eq.trans ?_ e.symm
  congr 1
  · apply Finset.sum_congr rfl; intro f _
    have hf : feats x inp (Fin.castAdd 4 f) = inp f := by
      simp [feats]
    rw [hf, mul_comm]; rfl
  · apply Finset.sum_congr rfl; intro v _
    have hv : feats x inp (Fin.natAdd 7 v) = x v := by
      simp [feats]
    rw [hv, mul_comm]; rfl

/-! ## Real numbers among the extended reals -/

private theorem Fin'.coe (r : ℝ) : Fin' (r : EReal) := ⟨EReal.coe_ne_top r, EReal.coe_ne_bot r⟩

private theorem Fin'.eq_coe {a : EReal} (h : Fin' a) : ∃ r : ℝ, a = (r : EReal) :=
  ⟨a.toReal, (EReal.coe_toReal h.1 h.2).symm⟩

private theorem Fin'.add {a b : EReal} (ha : Fin' a) (hb : Fin' b) : Fin' (a + b) := by
  obtain ⟨r, rfl⟩ := ha.eq_coe; obtain ⟨s, rfl⟩ := hb.eq_coe
  rw [← EReal.coe_add]; exact Fin'.coe _

private theorem Fin'.mul {a b : EReal} (ha : Fin' a) (hb : Fin' b) : Fin' (a * b) := by
  obtain ⟨r, rfl⟩ := ha.eq_coe; obtain ⟨s, rfl⟩ := hb.eq_coe
  rw [← EReal.coe_mul]; exact Fin'.coe _

private theorem Fin'.one : Fin' (1 : EReal) := by
  rw [← EReal.coe_one]; exact Fin'.coe _

private theorem Fin'.zero : Fin' (0 : EReal) := by
  rw [← EReal.coe_zero]; exact Fin'.coe _

/-- The hyperbolic tangent of any extended real is a real number. -/
private theorem Fin'.tanh (a : EReal) : Fin' (Ideal.tanh a) := by
  induction a using EReal.rec with
  | bot =>
    rw [Ideal.tanh_bot]
    have : (-1 : EReal) = ((-1 : ℝ) : EReal) := by rw [EReal.coe_neg, EReal.coe_one]
    rw [this]; exact Fin'.coe _
  | coe r => rw [Ideal.tanh_coe]; exact Fin'.coe _
  | top => rw [Ideal.tanh_top]; exact Fin'.one

private theorem Fin'.exp {a : EReal} (ha : Fin' a) : Fin' (Ideal.exp a) := by
  obtain ⟨r, rfl⟩ := ha.eq_coe
  rw [Ideal.exp_coe]; exact Fin'.coe _

private theorem Fin'.sum {ι : Type} (s : Finset ι) (f : ι → EReal) (h : ∀ i ∈ s, Fin' (f i)) :
    Fin' (∑ i ∈ s, f i) :=
  Finset.sum_induction f Fin' (fun _ _ => Fin'.add) Fin'.zero h

private theorem Fin'.elu1 {p : EReal} (h : Fin' p) : Fin' (elu1 p) := by
  unfold Tnn.elu1
  split
  · exact h.add Fin'.one
  · exact h.exp

/-- Every conductance is a real number. -/
private theorem condOf_fin (N : Net) (hN : N.Finite) (x : Fin 4 → EReal) (inp : Fin 7 → EReal) (c : Fin 15) :
    Fin' (condOf N x inp c) := by
  unfold condOf
  apply Fin'.elu1
  apply Fin'.add _ (hN.cb2 c)
  apply Fin'.sum; intro h _
  exact Fin'.mul (Fin'.tanh _) (hN.cw2 h c)

/-- Every temperature is a real number. -/
private theorem temps_fin (tc : Fin 2 → Fin 7) (x : Fin 4 → EReal) (inp : Fin 7 → EReal)
    (hx : ∀ v, Fin' (x v)) (hinp : ∀ f, Fin' (inp f)) (k : Fin 6) : Fin' (temps tc x inp k) := by
  unfold temps
  split
  · exact hx _
  · exact hinp _

/-- The cast of a finite sum of reals is the sum of the casts. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Among real numbers, `∑ T k · C k − a · ∑ C k = ∑ (T k − a) · C k`. -/
private theorem sum_sub_mul (T C : Fin 5 → EReal) (a : EReal) (hT : ∀ k, Fin' (T k)) (hC : ∀ k, Fin' (C k))
    (ha : Fin' a) : (∑ k, T k * C k) - a * ∑ k, C k = ∑ k, (T k - a) * C k := by
  obtain ⟨t, rfl⟩ : ∃ t : Fin 5 → ℝ, T = fun k => ((t k : ℝ) : EReal) :=
    ⟨fun k => (T k).toReal, funext fun k => (EReal.coe_toReal (hT k).1 (hT k).2).symm⟩
  obtain ⟨c, rfl⟩ : ∃ c : Fin 5 → ℝ, C = fun k => ((c k : ℝ) : EReal) :=
    ⟨fun k => (C k).toReal, funext fun k => (EReal.coe_toReal (hC k).1 (hC k).2).symm⟩
  obtain ⟨r, rfl⟩ := ha.eq_coe
  simp only [← EReal.coe_mul, ← EReal.coe_sub, coe_sum]
  rw [EReal.coe_eq_coe_iff]
  simp only [sub_mul, Finset.sum_sub_distrib, Finset.mul_sum]

/-! ## The second layers -/

private theorem condK_eq (N : Net) (x : Fin 4 → EReal) (inp : Fin 7 → EReal) (c : Fin 15) :
    elu1 ((∑ h : Fin 2, N.cw2 h c * Ideal.tanh ((∑ k : Fin 11, feats x inp k * N.cw1 k h) + N.cb1 h)) + N.cb2 c)
      = condOf N x inp c := by
  unfold condOf
  congr 2
  apply Finset.sum_congr rfl; intro h _
  rw [mul_comm]

private theorem plK_eq (N : Net) (x : Fin 4 → EReal) (inp : Fin 7 → EReal) (v : Fin 4) :
    Ideal.logistic ((∑ h : Fin 4, N.pw2 h v * Ideal.tanh ((∑ k : Fin 11, feats x inp k * N.pw1 k h) + N.pb1 h)) + N.pb2 v)
      = plossOf N x inp v := by
  unfold plossOf
  congr 2
  apply Finset.sum_congr rfl; intro h _
  rw [mul_comm]

/-- With real parameters, states and inputs, the kernel's arrangement of a row's step equals the step. -/
theorem rowKOf_eq_rowSpec (N : Net) (hN : N.Finite) (ti : Fin 4 → Fin 5 → Fin 6) (adj : Fin 4 → Fin 5 → Fin 15)
    (tc : Fin 2 → Fin 7) (x : Fin 4 → EReal) (inp : Fin 7 → EReal) (hx : ∀ v, Fin' (x v)) (hinp : ∀ f, Fin' (inp f)) :
    rowKOf N ti adj tc x inp = rowSpec N ti adj tc x inp := by
  funext v
  have key := sum_sub_mul (fun k => temps tc x inp (ti v k)) (fun k => condOf N x inp (adj v k)) (x v)
    (fun k => temps_fin tc x inp hx hinp _) (fun k => condOf_fin N hN x inp _) (hx v)
  simp only [rowKOf, rowK, rowSpec, sum_eye_right, sum_eye_left, first_layer, condK_eq, plK_eq,
    sum_selC, sum_selXU, sum_grp, pairState_pairIx, pairNbr_pairIx]
  rw [key]

end Cert.Tnn

end
-- ==== Proof.KerValue.lean ====
/-
  The kernel's result array. At grid point `t` the body stores, in rows `10000·t … 10000·t + 9999` of the
  result, the dense-matrix step of the matching rows of `x` and of slice `step` of `u`; the hundred
  blocks tile the million rows, so the whole array is `Tnn.Gargs` of the arguments.
-/
import proofs.«405011_j38749194944738_3_alg».proof.Proof.Gen.KernelIdeal.Frame
import proofs.«405011_j38749194944738_3_alg».proof.Proof.KerHost
import proofs.«405011_j38749194944738_3_alg».proof.Proof.KerPay
import proofs.«405011_j38749194944738_3_alg».proof.Proof.SpecMath

noncomputable section

namespace Cert.KernelIdeal.Hand

open Idealize.ShloMosaic Idealize.ShloMosaic.TcCoe Idealize.ShloMosaic.ValueIdx Idealize.SL.Sem Cert.KernelIdeal Cert.KernelIdeal.Gen Cert.Tnn

open Idealize.ShloMosaic.Tactic
open Idealize.ShloMosaic.Pipeline (Dat)

variable (m : (ℓ : Loc nD τ sig) → Buf (Elt Ideal) ℓ) (ρ : Dev nD → PrngReg)

/-! ## What the body stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block the body leaves in the result's staging buffer is the composition of its payloads at the loaded blocks. -/
theorem out_eq_stored (c : Dev nD) (i : grid0.Coords) (arg2 : Memref sig .tc .vmem S10000x4 .f32) (harg2 : arg2.IsWhole) (arg3 : Memref sig .tc .vmem S1x10000x7 .f32) (harg3 : arg3.IsWhole) (arg4 : Memref sig .tc .vmem S4x1 .f32) (harg4 : arg4.IsWhole) (arg5 : Memref sig .tc .vmem S2x7 .f32) (harg5 : arg5.IsWhole) (arg6 : Memref sig .tc .vmem S2x4 .f32) (harg6 : arg6.IsWhole) (arg7 : Memref sig .tc .vmem S2x1 .f32) (harg7 : arg7.IsWhole) (arg8 : Memref sig .tc .vmem S15x2 .f32) (harg8 : arg8.IsWhole) (arg9 : Memref sig .tc .vmem S15x1 .f32) (harg9 : arg9.IsWhole) (arg10 : Memref sig .tc .vmem S4x7 .f32) (harg10 : arg10.IsWhole) (arg11 : Memref sig .tc .vmem S4x4 .f32) (harg11 : arg11.IsWhole) (arg12 : Memref sig .tc .vmem S4x1 .f32) (harg12 : arg12.IsWhole) (arg13 : Memref sig .tc .vmem S4x4 .f32) (harg13 : arg13.IsWhole) (arg14 : Memref sig .tc .vmem S4x1 .f32) (harg14 : arg14.IsWhole) (arg15 : Memref sig .tc .vmem S20x4 .f32) (harg15 : arg15.IsWhole) (arg16 : Memref sig .tc .vmem S20x7 .f32) (harg16 : arg16.IsWhole) (arg17 : Memref sig .tc .vmem S20x15 .f32) (harg17 : arg17.IsWhole) (arg18 : Memref sig .tc .vmem S4x20 .f32) (harg18 : arg18.IsWhole) (arg19 : Memref sig .tc .vmem S4x4 .f32) (harg19 : arg19.IsWhole) (arg20 : Memref sig .tc .vmem S10000x4 .f32) (harg20 : arg20.IsWhole)
    (x0 : Vec Ideal S10000x4 .f32) (x1 : Vec Ideal S1x10000x7 .f32) (x2 : Vec Ideal S4x1 .f32) (x3 : Vec Ideal S2x7 .f32) (x4 : Vec Ideal S2x4 .f32) (x5 : Vec Ideal S2x1 .f32) (x6 : Vec Ideal S15x2 .f32) (x7 : Vec Ideal S15x1 .f32) (x8 : Vec Ideal S4x7 .f32) (x9 : Vec Ideal S4x4 .f32) (x10 : Vec Ideal S4x1 .f32) (x11 : Vec Ideal S4x4 .f32) (x12 : Vec Ideal S4x1 .f32) (x13 : Vec Ideal S20x4 .f32) (x14 : Vec Ideal S20x7 .f32) (x15 : Vec Ideal S20x15 .f32) (x16 : Vec Ideal S4x20 .f32) (x17 : Vec Ideal S4x4 .f32) (xt0 : TbBuf0 (F := Ideal) c tbM0_0) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 xt0 = stored x0 x1 x2 x3 x4 x5 x6 x7 x8 x9 x10 x11 x12 x13 x14 x15 x16 x17 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 xt0)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S10000x4) hz2, View.ld_unit_zero (S := S4x1) hz2, View.ld_unit_zero (S := S2x7) hz2, View.ld_unit_zero (S := S2x4) hz2, View.ld_unit_zero (S := S2x1) hz2, View.ld_unit_zero (S := S15x2) hz2, View.ld_unit_zero (S := S15x1) hz2, View.ld_unit_zero (S := S4x7) hz2, View.ld_unit_zero (S := S4x4) hz2, View.ld_unit_zero (S := S20x4) hz2, View.ld_unit_zero (S := S20x7) hz2, View.ld_unit_zero (S := S20x15) hz2, View.ld_unit_zero (S := S4x20) hz2, View.ld_unit_zero (S := S1x10000x7) hz3]
  rfl

/-! ## Reading the blocks -/

section blocks
variable (a : (pcfg0 (F := Ideal)).Adm)

/-- The grid coordinate of point `t`, as the index maps read it, is `t`. -/
theorem coord_fact : ∀ t : Fin grid0.N, (BitVec.ofNat 32 ((grid0.coords t) 0).val).toNat = t.val := by decide +kernel

/-- The state block at point `t` is rows `10000·t + r` of the state array. -/
theorem read_x (A : Vec Ideal S1000000x4 .f32) (t : Fin (cfg0 a).N) (r : Fin 10000) (v : Fin 4)
    (k : S1000000x4.Idx) (hk0 : (k 0).val = 10000 * t.val + r.val) (hk1 : (k 1).val = v.val) :
    ((((cfg0 a).win 0).blk t).view.read (Elt Ideal) A : Vec Ideal S10000x4 .f32) (ix2 r v) = A k := by
  have hi := coord_fact t
  show A ((((cfg0 a).win 0).blk t).view.emb (ix2 r v)) = A k
  refine congrArg A ?_
  funext d; apply Fin.ext
  match d with
  | ⟨0, _⟩ => show (BitVec.ofNat 32 ((grid0.coords t) 0).val).toNat * 10000 + 1 * r.val = (k 0).val; rw [hi, hk0]; omega
  | ⟨1, _⟩ => show 0 * 4 + 1 * v.val = (k 1).val; rw [hk1]; omega

/-- The result block at point `t` is rows `10000·t + r` of the result array. -/
theorem read_o (A : Vec Ideal S1000000x4 .f32) (t : Fin (cfg0 a).N) (r : Fin 10000) (v : Fin 4)
    (k : S1000000x4.Idx) (hk0 : (k 0).val = 10000 * t.val + r.val) (hk1 : (k 1).val = v.val) :
    ((((cfg0 a).win 18).blk t).view.read (Elt Ideal) A : Vec Ideal S10000x4 .f32) (ix2 r v) = A k := by
  have hi := coord_fact t
  show A ((((cfg0 a).win 18).blk t).view.emb (ix2 r v)) = A k
  refine congrArg A ?_
  funext d; apply Fin.ext
  match d with
  | ⟨0, _⟩ => show (BitVec.ofNat 32 ((grid0.coords t) 0).val).toNat * 10000 + 1 * r.val = (k 0).val; rw [hi, hk0]; omega
  | ⟨1, _⟩ => show 0 * 4 + 1 * v.val = (k 1).val; rw [hk1]; omega

/-- The prefetched word as the input window's index map reads it. -/
theorem word_at (pf : pre0.Contents (Elt Ideal)) : pf.at 0 (Rect.unit (s := S1) ![0] S1.size inb_S1_S1_0) numel1_S1 = (pf 0 : IVec S1 32) (ix1 0) := by
  show (pf 0 : IVec S1 32) _ = (pf 0 : IVec S1 32) (ix1 0)
  refine congrArg (pf 0 : IVec S1 32) ?_
  funext d; apply Fin.ext
  match d with
  | ⟨0, _⟩ => rfl

/-- The input block at point `t` is rows `10000·t + r` of the slice of the input array the prefetched word selects. -/
theorem read_u (pf : pre0.Contents (Elt Ideal)) (hpf : a.1 = pf) (A : Vec Ideal S4x1000000x7 .f32) (t : Fin (cfg0 a).N) (r : Fin 10000) (f : Fin 7)
    (k : S4x1000000x7.Idx) (hk0 : (k 0).val = ((pf 0 : IVec S1 32) (ix1 0)).toNat) (hk1 : (k 1).val = 10000 * t.val + r.val) (hk2 : (k 2).val = f.val) :
    ((((cfg0 a).win 1).blk t).view.read (Elt Ideal) A : Vec Ideal S1x10000x7 .f32) (ix3 0 r f) = A k := by
  have hi := coord_fact t
  subst hpf
  have hw := word_at a.1
  show A ((((cfg0 a).win 1).blk t).view.emb (ix3 0 r f)) = A k
  refine congrArg A ?_
  funext d; apply Fin.ext
  match d with
  | ⟨0, _⟩ => show (a.1.at 0 (Rect.unit (s := S1) ![0] S1.size inb_S1_S1_0) numel1_S1).toNat * 1 + 1 * 0 = (k 0).val; rw [hw, hk0]; omega
  | ⟨1, _⟩ => show (BitVec.ofNat 32 ((grid0.coords t) 0).val).toNat * 10000 + 1 * r.val = (k 1).val; rw [hi, hk1]; omega
  | ⟨2, _⟩ => show 0 * 7 + 1 * f.val = (k 2).val; rw [hk2]; omega

/-! Each of the sixteen small windows stages its whole array at every point: block index `(0, 0)`, the block the
    array itself. -/

theorem read_w2 (A : Vec Ideal S4x1 .f32) (t : Fin (cfg0 a).N) :
    ((((cfg0 a).win 2).blk t).view.read (Elt Ideal) A : Vec Ideal S4x1 .f32) = A := by
  refine funext fun (j : S4x1.Idx) => ?_
  show A ((((cfg0 a).win 2).blk t).view.emb j) = A j
  refine congrArg A ?_
  funext d; apply Fin.ext
  match d with
  | ⟨0, _⟩ => show 0 * 4 + 1 * (j 0).val = (j 0).val; omega
  | ⟨1, _⟩ => show 0 * 1 + 1 * (j 1).val = (j 1).val; omega

theorem read_w3 (A : Vec Ideal S2x7 .f32) (t : Fin (cfg0 a).N) :
    ((((cfg0 a).win 3).blk t).view.read (Elt Ideal) A : Vec Ideal S2x7 .f32) = A := by
  refine funext fun (j : S2x7.Idx) => ?_
  show A ((((cfg0 a).win 3).blk t).view.emb j) = A j
  refine congrArg A ?_
  funext d; apply Fin.ext
  match d with
  | ⟨0, _⟩ => show 0 * 2 + 1 * (j 0).val = (j 0).val; omega
  | ⟨1, _⟩ => show 0 * 7 + 1 * (j 1).val = (j 1).val; omega

theorem read_w4 (A : Vec Ideal S2x4 .f32) (t : Fin (cfg0 a).N) :
    ((((cfg0 a).win 4).blk t).view.read (Elt Ideal) A : Vec Ideal S2x4 .f32) = A := by
  refine funext fun (j : S2x4.Idx) => ?_
  show A ((((cfg0 a).win 4).blk t).view.emb j) = A j
  refine congrArg A ?_
  funext d; apply Fin.ext
  match d with
  | ⟨0, _⟩ => show 0 * 2 + 1 * (j 0).val = (j 0).val; omega
  | ⟨1, _⟩ => show 0 * 4 + 1 * (j 1).val = (j 1).val; omega

theorem read_w5 (A : Vec Ideal S2x1 .f32) (t : Fin (cfg0 a).N) :
    ((((cfg0 a).win 5).blk t).view.read (Elt Ideal) A : Vec Ideal S2x1 .f32) = A := by
  refine funext fun (j : S2x1.Idx) => ?_
  show A ((((cfg0 a).win 5).blk t).view.emb j) = A j
  refine congrArg A ?_
  funext d; apply Fin.ext
  match d with
  | ⟨0, _⟩ => show 0 * 2 + 1 * (j 0).val = (j 0).val; omega
  | ⟨1, _⟩ => show 0 * 1 + 1 * (j 1).val = (j 1).val; omega

theorem read_w6 (A : Vec Ideal S15x2 .f32) (t : Fin (cfg0 a).N) :
    ((((cfg0 a).win 6).blk t).view.read (Elt Ideal) A : Vec Ideal S15x2 .f32) = A := by
  refine funext fun (j : S15x2.Idx) => ?_
  show A ((((cfg0 a).win 6).blk t).view.emb j) = A j
  refine congrArg A ?_
  funext d; apply Fin.ext
  match d with
  | ⟨0, _⟩ => show 0 * 15 + 1 * (j 0).val = (j 0).val; omega
  | ⟨1, _⟩ => show 0 * 2 + 1 * (j 1).val = (j 1).val; omega

theorem read_w7 (A : Vec Ideal S15x1 .f32) (t : Fin (cfg0 a).N) :
    ((((cfg0 a).win 7).blk t).view.read (Elt Ideal) A : Vec Ideal S15x1 .f32) = A := by
  refine funext fun (j : S15x1.Idx) => ?_
  show A ((((cfg0 a).win 7).blk t).view.emb j) = A j
  refine congrArg A ?_
  funext d; apply Fin.ext
  match d with
  | ⟨0, _⟩ => show 0 * 15 + 1 * (j 0).val = (j 0).val; omega
  | ⟨1, _⟩ => show 0 * 1 + 1 * (j 1).val = (j 1).val; omega

theorem read_w8 (A : Vec Ideal S4x7 .f32) (t : Fin (cfg0 a).N) :
    ((((cfg0 a).win 8).blk t).view.read (Elt Ideal) A : Vec Ideal S4x7 .f32) = A := by
  refine funext fun (j : S4x7.Idx) => ?_
  show A ((((cfg0 a).win 8).blk t).view.emb j) = A j
  refine congrArg A ?_
  funext d; apply Fin.ext
  match d with
  | ⟨0, _⟩ => show 0 * 4 + 1 * (j 0).val = (j 0).val; omega
  | ⟨1, _⟩ => show 0 * 7 + 1 * (j 1).val = (j 1).val; omega

theorem read_w9 (A : Vec Ideal S4x4 .f32) (t : Fin (cfg0 a).N) :
    ((((cfg0 a).win 9).blk t).view.read (Elt Ideal) A : Vec Ideal S4x4 .f32) = A := by
  refine funext fun (j : S4x4.Idx) => ?_
  show A ((((cfg0 a).win 9).blk t).view.emb j) = A j
  refine congrArg A ?_
  funext d; apply Fin.ext
  match d with
  | ⟨0, _⟩ => show 0 * 4 + 1 * (j 0).val = (j 0).val; omega
  | ⟨1, _⟩ => show 0 * 4 + 1 * (j 1).val = (j 1).val; omega

theorem read_w10 (A : Vec Ideal S4x1 .f32) (t : Fin (cfg0 a).N) :
    ((((cfg0 a).win 10).blk t).view.read (Elt Ideal) A : Vec Ideal S4x1 .f32) = A := by
  refine funext fun (j : S4x1.Idx) => ?_
  show A ((((cfg0 a).win 10).blk t).view.emb j) = A j
  refine congrArg A ?_
  funext d; apply Fin.ext
  match d with
  | ⟨0, _⟩ => show 0 * 4 + 1 * (j 0).val = (j 0).val; omega
  | ⟨1, _⟩ => show 0 * 1 + 1 * (j 1).val = (j 1).val; omega

theorem read_w11 (A : Vec Ideal S4x4 .f32) (t : Fin (cfg0 a).N) :
    ((((cfg0 a).win 11).blk t).view.read (Elt Ideal) A : Vec Ideal S4x4 .f32) = A := by
  refine funext fun (j : S4x4.Idx) => ?_
  show A ((((cfg0 a).win 11).blk t).view.emb j) = A j
  refine congrArg A ?_
  funext d; apply Fin.ext
  match d with
  | ⟨0, _⟩ => show 0 * 4 + 1 * (j 0).val = (j 0).val; omega
  | ⟨1, _⟩ => show 0 * 4 + 1 * (j 1).val = (j 1).val; omega

theorem read_w12 (A : Vec Ideal S4x1 .f32) (t : Fin (cfg0 a).N) :
    ((((cfg0 a).win 12).blk t).view.read (Elt Ideal) A : Vec Ideal S4x1 .f32) = A := by
  refine funext fun (j : S4x1.Idx) => ?_
  show A ((((cfg0 a).win 12).blk t).view.emb j) = A j
  refine congrArg A ?_
  funext d; apply Fin.ext
  match d with
  | ⟨0, _⟩ => show 0 * 4 + 1 * (j 0).val = (j 0).val; omega
  | ⟨1, _⟩ => show 0 * 1 + 1 * (j 1).val = (j 1).val; omega

theorem read_w13 (A : Vec Ideal S20x4 .f32) (t : Fin (cfg0 a).N) :
    ((((cfg0 a).win 13).blk t).view.read (Elt Ideal) A : Vec Ideal S20x4 .f32) = A := by
  refine funext fun (j : S20x4.Idx) => ?_
  show A ((((cfg0 a).win 13).blk t).view.emb j) = A j
  refine congrArg A ?_
  funext d; apply Fin.ext
  match d with
  | ⟨0, _⟩ => show 0 * 20 + 1 * (j 0).val = (j 0).val; omega
  | ⟨1, _⟩ => show 0 * 4 + 1 * (j 1).val = (j 1).val; omega

theorem read_w14 (A : Vec Ideal S20x7 .f32) (t : Fin (cfg0 a).N) :
    ((((cfg0 a).win 14).blk t).view.read (Elt Ideal) A : Vec Ideal S20x7 .f32) = A := by
  refine funext fun (j : S20x7.Idx) => ?_
  show A ((((cfg0 a).win 14).blk t).view.emb j) = A j
  refine congrArg A ?_
  funext d; apply Fin.ext
  match d with
  | ⟨0, _⟩ => show 0 * 20 + 1 * (j 0).val = (j 0).val; omega
  | ⟨1, _⟩ => show 0 * 7 + 1 * (j 1).val = (j 1).val; omega

theorem read_w15 (A : Vec Ideal S20x15 .f32) (t : Fin (cfg0 a).N) :
    ((((cfg0 a).win 15).blk t).view.read (Elt Ideal) A : Vec Ideal S20x15 .f32) = A := by
  refine funext fun (j : S20x15.Idx) => ?_
  show A ((((cfg0 a).win 15).blk t).view.emb j) = A j
  refine congrArg A ?_
  funext d; apply Fin.ext
  match d with
  | ⟨0, _⟩ => show 0 * 20 + 1 * (j 0).val = (j 0).val; omega
  | ⟨1, _⟩ => show 0 * 15 + 1 * (j 1).val = (j 1).val; omega

theorem read_w16 (A : Vec Ideal S4x20 .f32) (t : Fin (cfg0 a).N) :
    ((((cfg0 a).win 16).blk t).view.read (Elt Ideal) A : Vec Ideal S4x20 .f32) = A := by
  refine funext fun (j : S4x20.Idx) => ?_
  show A ((((cfg0 a).win 16).blk t).view.emb j) = A j
  refine congrArg A ?_
  funext d; apply Fin.ext
  match d with
  | ⟨0, _⟩ => show 0 * 4 + 1 * (j 0).val = (j 0).val; omega
  | ⟨1, _⟩ => show 0 * 20 + 1 * (j 1).val = (j 1).val; omega

theorem read_w17 (A : Vec Ideal S4x4 .f32) (t : Fin (cfg0 a).N) :
    ((((cfg0 a).win 17).blk t).view.read (Elt Ideal) A : Vec Ideal S4x4 .f32) = A := by
  refine funext fun (j : S4x4.Idx) => ?_
  show A ((((cfg0 a).win 17).blk t).view.emb j) = A j
  refine congrArg A ?_
  funext d; apply Fin.ext
  match d with
  | ⟨0, _⟩ => show 0 * 4 + 1 * (j 0).val = (j 0).val; omega
  | ⟨1, _⟩ => show 0 * 4 + 1 * (j 1).val = (j 1).val; omega

end blocks

/-! ## A row of the stored block -/

/-- With the small blocks the arrays the host prepared, row `r` of the state block row `b` of the state array and
    row `r` of the input block row `b` of slice `s` of the input array, row `r` of the stored block is the
    specified step of row `b`. -/
theorem stored_row (c : Dev nD) (hD : DomM m c) (x0 : Vec Ideal S10000x4 .f32) (x1 : Vec Ideal S1x10000x7 .f32) (x2 : Vec Ideal S4x1 .f32) (x3 : Vec Ideal S2x7 .f32) (x4 : Vec Ideal S2x4 .f32) (x5 : Vec Ideal S2x1 .f32) (x6 : Vec Ideal S15x2 .f32) (x7 : Vec Ideal S15x1 .f32) (x8 : Vec Ideal S4x7 .f32) (x9 : Vec Ideal S4x4 .f32) (x10 : Vec Ideal S4x1 .f32) (x11 : Vec Ideal S4x4 .f32) (x12 : Vec Ideal S4x1 .f32) (x13 : Vec Ideal S20x4 .f32) (x14 : Vec Ideal S20x7 .f32) (x15 : Vec Ideal S20x15 .f32) (x16 : Vec Ideal S4x20 .f32) (x17 : Vec Ideal S4x4 .f32)
    (h2 : x2 = V m c main_v36) (h3 : x3 = V m c main_v29) (h4 : x4 = V m c main_v30) (h5 : x5 = V m c main_v37) (h6 : x6 = V m c main_v31) (h7 : x7 = V m c main_v38) (h8 : x8 = V m c main_v32) (h9 : x9 = V m c main_v33) (h10 : x10 = V m c main_v39) (h11 : x11 = V m c main_v34) (h12 : x12 = V m c main_v40) (h13 : x13 = V m c main_v15) (h14 : x14 = V m c main_v16) (h15 : x15 = V m c main_v17) (h16 : x16 = V m c main_v18) (h17 : x17 = V m c main_v24)
    (r : Fin 10000) (b : Fin 1000000) (s : Fin 4)
    (hx : ∀ v', x0 (ix2 r v') = A1 m c (ix2 b v')) (hu : ∀ f, x1 (ix3 0 r f) = A2 m c (ix3 s b f)) (v : Fin 4) :
    stored x0 x1 x2 x3 x4 x5 x6 x7 x8 x9 x10 x11 x12 x13 x14 x15 x16 x17 (ix2 r v)
      = rowSpec (netOf (A3 m c) (A4 m c) (A5 m c) (A6 m c) (A7 m c) (A8 m c) (A9 m c) (A10 m c) (A11 m c)) (tiOf (A12 m c)) (adjOf (A13 m c)) (tcOf (A14 m c))
          (fun v' => A1 m c (ix2 b v')) (fun f => A2 m c (ix3 s b f)) v := by
  rw [stored_apply, funext hx, funext hu]
  rw [h2, h3, h4, h5, h6, h7, h8, h9, h10, h11, h12, h13, h14, h15, h16, h17]
  exact (congrFun (rowK_host m c hD.ti hD.adj hD.tc _ _) v).trans
    (congrFun (rowKOf_eq_rowSpec _ hD.net _ _ _ _ _ (fun v' => hD.x _) (fun f => hD.u _)) v)

/-! ## What a point writes back -/

/-- At point `t` the write-back writes rows `10000·t … 10000·t + 9999` of the specified result. -/
theorem flushed_eq (c : Dev nD) (hD : DomM m c) (t : Fin (cfgM m (ok m)).N) :
    (dats m (ok m) 0 c).flushed 18 t = (((cfgM m (ok m)).win 18).blk t).view.read (Elt Ideal) (GM m c) := by
  have ht : t.val < 100 := lt_of_lt_of_eq t.isLt N_0
  obtain rfl : c = 0 := Subsingleton.elim _ _
  show ((cfgM m (ok m)).win 18).cut ((cfgM m (ok m)).grid.coords t) ((dats m (ok m) 0 0).after 18 t) = _
  rw [after0_18]
  unfold outsAt0
  refine funext fun (j : S10000x4.Idx) => ?_
  obtain ⟨r, v, rfl⟩ : ∃ (r : Fin 10000) (v : Fin 4), j = ix2 r v := ⟨j 0, j 1, eq_ix2 j⟩
  have hb : 10000 * t.val + r.val < 1000000 := by have := r.isLt; omega
  have hs : (stepOf (A0 m 0 ValueIdx.ix0)).val = ((tbl m 0 : IVec S1 32) (ix1 0)).toNat := by
    rw [tbl_step m, clipW_of_nonneg _ hD.step]; rfl
  refine ((congrFun (out_eq_stored 0 (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (ms0_11 m (ok m) t) (hs0_11 m (ok m) t) (ms0_12 m (ok m) t) (hs0_12 m (ok m) t) (ms0_13 m (ok m) t) (hs0_13 m (ok m) t) (ms0_14 m (ok m) t) (hs0_14 m (ok m) t) (ms0_15 m (ok m) t) (hs0_15 m (ok m) t) (ms0_16 m (ok m) t) (hs0_16 m (ok m) t) (ms0_17 m (ok m) t) (hs0_17 m (ok m) t) (ms0_18 m (ok m) t) (hs0_18 m (ok m) t) (iblk m (ok m) 0 0 t) (iblk m (ok m) 0 1 t) (iblk m (ok m) 0 2 t) (iblk m (ok m) 0 3 t) (iblk m (ok m) 0 4 t) (iblk m (ok m) 0 5 t) (iblk m (ok m) 0 6 t) (iblk m (ok m) 0 7 t) (iblk m (ok m) 0 8 t) (iblk m (ok m) 0 9 t) (iblk m (ok m) 0 10 t) (iblk m (ok m) 0 11 t) (iblk m (ok m) 0 12 t) (iblk m (ok m) 0 13 t) (iblk m (ok m) 0 14 t) (iblk m (ok m) 0 15 t) (iblk m (ok m) 0 16 t) (iblk m (ok m) 0 17 t) (tbl m 0)) (ix2 r v)).trans ?_).trans
    (read_o (adm m (ok m)) (GM m 0) t r v (ix2 ⟨10000 * t.val + r.val, hb⟩ v) rfl rfl).symm
  exact stored_row m 0 hD (iblk m (ok m) 0 0 t) (iblk m (ok m) 0 1 t) (iblk m (ok m) 0 2 t) (iblk m (ok m) 0 3 t) (iblk m (ok m) 0 4 t) (iblk m (ok m) 0 5 t) (iblk m (ok m) 0 6 t) (iblk m (ok m) 0 7 t) (iblk m (ok m) 0 8 t) (iblk m (ok m) 0 9 t) (iblk m (ok m) 0 10 t) (iblk m (ok m) 0 11 t) (iblk m (ok m) 0 12 t) (iblk m (ok m) 0 13 t) (iblk m (ok m) 0 14 t) (iblk m (ok m) 0 15 t) (iblk m (ok m) 0 16 t) (iblk m (ok m) 0 17 t) (read_w2 (adm m (ok m)) (V m 0 main_v36) t) (read_w3 (adm m (ok m)) (V m 0 main_v29) t) (read_w4 (adm m (ok m)) (V m 0 main_v30) t) (read_w5 (adm m (ok m)) (V m 0 main_v37) t) (read_w6 (adm m (ok m)) (V m 0 main_v31) t) (read_w7 (adm m (ok m)) (V m 0 main_v38) t) (read_w8 (adm m (ok m)) (V m 0 main_v32) t) (read_w9 (adm m (ok m)) (V m 0 main_v33) t) (read_w10 (adm m (ok m)) (V m 0 main_v39) t) (read_w11 (adm m (ok m)) (V m 0 main_v34) t) (read_w12 (adm m (ok m)) (V m 0 main_v40) t) (read_w13 (adm m (ok m)) (V m 0 main_v15) t) (read_w14 (adm m (ok m)) (V m 0 main_v16) t) (read_w15 (adm m (ok m)) (V m 0 main_v17) t) (read_w16 (adm m (ok m)) (V m 0 main_v18) t) (read_w17 (adm m (ok m)) (V m 0 main_v24) t)
    r ⟨10000 * t.val + r.val, hb⟩ (stepOf (A0 m 0 ValueIdx.ix0))
    (fun v' => (read_x (adm m (ok m)) (V m 0 main_arg1) t r v' (ix2 ⟨10000 * t.val + r.val, hb⟩ v') rfl rfl).trans (congrFun (V_main_arg1 m 0) _))
    (fun f => (read_u (adm m (ok m)) (tbl m) rfl (V m 0 main_arg2) t r f (ix3 (stepOf (A0 m 0 ValueIdx.ix0)) ⟨10000 * t.val + r.val, hb⟩ f) hs rfl rfl).trans (congrFun (V_main_arg2 m 0) _))
    v

/-! ## The result window's blocks cover the array

Stated at any admissible contents `a` of the prefetched table: the result window's index map does not read it. -/

section Cover
variable (a : (pcfg0 (F := Ideal)).Adm)

/-- At grid point `t` the result window's block index is `(t, 0)`. -/
theorem idx18 : ∀ t : Fin (cfg0 a).N, ((cfg0 a).win 18).index t (0 : Fin 2) = t.val ∧ ((cfg0 a).win 18).index t (1 : Fin 2) = 0 :=
  (by decide +kernel : ∀ t : Fin grid0.N, cc0_transform_18 (grid0.coords t) (0 : Fin 2) = t.val ∧ cc0_transform_18 (grid0.coords t) (1 : Fin 2) = 0)

/-- An index of the result array is in point `t`'s block iff each coordinate is in the block's range on its axis. -/
theorem mem_blk18 (t : Fin (cfg0 a).N) (i : S1000000x4.Idx) :
    i ∈ (((cfg0 a).win 18).blk t).view.set ↔ ∀ d : Fin 2, ((cfg0 a).win 18).index t d * S10000x4.size d ≤ (i d).val ∧ (i d).val < ((cfg0 a).win 18).index t d * S10000x4.size d + S10000x4.size d := by
  have hs : ((View.whole main_v41).slice (((cfg0 a).win 18).rect t)).set = (((cfg0 a).win 18).rect t).set :=
    View.set_slice_whole main_v41 (((cfg0 a).win 18).rect t)
  exact (Finset.ext_iff.mp hs i).trans Rect.mem_set_unit

/-- Row `r` of the result is in the block of point `r / 10000`, which is written back. -/
theorem cover18 (i : S1000000x4.Idx) : ∃ t : Fin (cfg0 a).N, ((cfg0 a).win 18).flush t = true ∧ i ∈ (((cfg0 a).win 18).blk t).view.set := by
  have hi0 : (i 0).val < 1000000 := (i 0).isLt
  have hi1 : (i 1).val < 4 := (i 1).isLt
  have hN : (cfg0 a).N = 100 := N_0
  have ht : (i 0).val / 10000 < (cfg0 a).N := by rw [hN]; omega
  refine ⟨⟨(i 0).val / 10000, ht⟩, flush0_18 a _, ?_⟩
  rw [mem_blk18]
  obtain ⟨e0, e1⟩ := idx18 a ⟨(i 0).val / 10000, ht⟩
  have e0' : ((cfg0 a).win 18).index ⟨(i 0).val / 10000, ht⟩ (0 : Fin 2) = (i 0).val / 10000 := e0
  intro d
  match d with
  | ⟨0, _⟩ =>
    show ((cfg0 a).win 18).index ⟨(i 0).val / 10000, ht⟩ (0 : Fin 2) * 10000 ≤ (i 0).val ∧ (i 0).val < ((cfg0 a).win 18).index ⟨(i 0).val / 10000, ht⟩ (0 : Fin 2) * 10000 + 10000
    rw [e0']; omega
  | ⟨1, _⟩ =>
    show ((cfg0 a).win 18).index ⟨(i 0).val / 10000, ht⟩ (1 : Fin 2) * 4 ≤ (i 1).val ∧ (i 1).val < ((cfg0 a).win 18).index ⟨(i 0).val / 10000, ht⟩ (1 : Fin 2) * 4 + 4
    rw [e1]; omega

/-- So an array whose every written-back block is that block of `G` ends holding `G`. -/
theorem final_of {c : Dev nD} (dat : Dat τ (Elt Ideal) Unit ℕ (UR sig nD τ) ℕ (cfg0 a) c) (G : SB4.Idx → EReal)
    (hG : ∀ t, dat.flushed 18 t = (((cfg0 a).win 18).blk t).view.read (Elt Ideal) G) : dat.arrAt 18 (cfg0 a).N = G :=
  dat.arrAt_eq_of_cover 18 G (fun t _ => hG t) (cover18 a)

end Cover

/-- The hundred blocks tile the million rows, each written back as its rows of the specified result: the result array
    ends at the specified result. -/
theorem final (c : Dev nD) (hD : DomM m c) : (dats m (ok m) 0 c).arrAt 18 (cfgM m (ok m)).N = GM m c :=
  final_of (adm m (ok m)) (dats m (ok m) 0 c) (GM m c) (fun t => flushed_eq m c hD t)

/-! ## The run -/

set_option maxHeartbeats 1600000 in
/-- Under the precondition's content the idealized kernel runs, its result the specified array, its arguments unchanged. -/
theorem run (hD : ∀ c, DomM m c) :
    θ_run defs (onTc (τ := τ) (main (F := Ideal))) ⟨m, fun _ => 0, ρ⟩ (fun r => ∀ c : Dev nD,
      r.2.mem ((c.tc : Thread nD τ).loc main_v41) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 18).trans (final m c (hD c)),
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c)⟩)
    (run_main m ρ (ok m))

end Cert.KernelIdeal.Hand

end
-- ==== Proof.RefArgs.lean ====
/-
  The fifteen argument arrays of a launch memory, each at its literal type, and the result and the
  domain stated of them.
-/
import proofs.«405011_j38749194944738_3_alg».proof.ReferenceIdeal
import proofs.«405011_j38749194944738_3_alg».proof.Proof.Spec

noncomputable section

namespace Cert.ReferenceIdeal.Hand

open Idealize.ShloMosaic Idealize.ShloMosaic.TcCoe Idealize.SL.Sem Cert.ReferenceIdeal Cert.Tnn

variable (m : (ℓ : Loc nD τ sig) → Buf (Elt Ideal) ℓ) (c : Dev nD)

/-- Argument 0 (`T`) on core `c`. -/
abbrev B0 : (⟨0, ![]⟩ : Shape).Idx → EReal := m ((c.tc : Thread nD τ).loc main_arg0)
/-- Argument 1 (`X`) on core `c`. -/
abbrev B1 : SB4.Idx → EReal := m ((c.tc : Thread nD τ).loc main_arg1)
/-- Argument 2 (`U`) on core `c`. -/
abbrev B2 : S4B7.Idx → EReal := m ((c.tc : Thread nD τ).loc main_arg2)
/-- Argument 3 (`caps`) on core `c`. -/
abbrev B3 : (⟨1, ![4]⟩ : Shape).Idx → EReal := m ((c.tc : Thread nD τ).loc main_arg3)
/-- Argument 4 (`cw1`) on core `c`. -/
abbrev B4 : (⟨2, ![11, 2]⟩ : Shape).Idx → EReal := m ((c.tc : Thread nD τ).loc main_arg4)
/-- Argument 5 (`cb1`) on core `c`. -/
abbrev B5 : (⟨1, ![2]⟩ : Shape).Idx → EReal := m ((c.tc : Thread nD τ).loc main_arg5)
/-- Argument 6 (`cw2`) on core `c`. -/
abbrev B6 : (⟨2, ![2, 15]⟩ : Shape).Idx → EReal := m ((c.tc : Thread nD τ).loc main_arg6)
/-- Argument 7 (`cb2`) on core `c`. -/
abbrev B7 : (⟨1, ![15]⟩ : Shape).Idx → EReal := m ((c.tc : Thread nD τ).loc main_arg7)
/-- Argument 8 (`pw1`) on core `c`. -/
abbrev B8 : (⟨2, ![11, 4]⟩ : Shape).Idx → EReal := m ((c.tc : Thread nD τ).loc main_arg8)
/-- Argument 9 (`pb1`) on core `c`. -/
abbrev B9 : (⟨1, ![4]⟩ : Shape).Idx → EReal := m ((c.tc : Thread nD τ).loc main_arg9)
/-- Argument 10 (`pw2`) on core `c`. -/
abbrev B10 : (⟨2, ![4, 4]⟩ : Shape).Idx → EReal := m ((c.tc : Thread nD τ).loc main_arg10)
/-- Argument 11 (`pb2`) on core `c`. -/
abbrev B11 : (⟨1, ![4]⟩ : Shape).Idx → EReal := m ((c.tc : Thread nD τ).loc main_arg11)
/-- Argument 12 (`tiW`) on core `c`. -/
abbrev B12 : (⟨2, ![4, 5]⟩ : Shape).Idx → BitVec 32 := m ((c.tc : Thread nD τ).loc main_arg12)
/-- Argument 13 (`adjW`) on core `c`. -/
abbrev B13 : (⟨2, ![4, 5]⟩ : Shape).Idx → BitVec 32 := m ((c.tc : Thread nD τ).loc main_arg13)
/-- Argument 14 (`tcW`) on core `c`. -/
abbrev B14 : (⟨1, ![2]⟩ : Shape).Idx → BitVec 32 := m ((c.tc : Thread nD τ).loc main_arg14)

/-- The specified result of the memory's arguments. -/
def GM : SB4.Idx → EReal := Gargs (B0 m c) (B1 m c) (B2 m c) (B3 m c) (B4 m c) (B5 m c) (B6 m c) (B7 m c) (B8 m c) (B9 m c) (B10 m c) (B11 m c) (B12 m c) (B13 m c) (B14 m c)
/-- The precondition's content of the memory's arguments. -/
def DomM : Prop := InDomainArgs (B0 m c) (B1 m c) (B2 m c) (B3 m c) (B4 m c) (B5 m c) (B6 m c) (B7 m c) (B8 m c) (B9 m c) (B10 m c) (B11 m c) (B12 m c) (B13 m c) (B14 m c)

end Cert.ReferenceIdeal.Hand

end
-- ==== Proof.RefOps.lean ====
/-
  The reference's host program, its outlined functions read at their call sites, as a straight list of
  operations in three consecutive pieces, and the same operations composed: each stage below is the
  value of one buffer as a function of the buffers it is computed from, one line per operation, and
  the whole result is the stages composed over the fifteen argument arrays.
-/
import proofs.«405011_j38749194944738_3_alg».proof.Proof.Gen.ReferenceIdeal
import proofs.«405011_j38749194944738_3_alg».proof.Proof.Spec
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Gen Cert.Tnn

variable {F : FTy → Type} [FloatOps F]

/-- The slice of the third argument at the step the first argument selects, as rows of seven inputs. -/
def inpF (T : FVec F S_ .f32) (U : FVec F S4x1000000x7 .f32) : FVec F S1000000x7 .f32 :=
  have cst : FVec F S_ .f32 := constant (F := F) S_ .f32 0x40000000#32
  have v0 : FVec F S_ .f32 := mulf T cst
  have v1 : IVec S_ 32 := fptosi 32 v0
  have c : IVec S_ 32 := constantI S_ 32 0#32
  have v2 : IVec S_ 1 := cmpi .slt v1 c
  have c_0 : IVec S_ 32 := constantI S_ 32 4#32
  have v3 : IVec S_ 32 := addi v1 c_0
  have v4 : IVec S_ 32 := select v2 v3 v1
  have c_1 : IVec S_ 32 := constantI S_ 32 0#32
  have c_2 : IVec S_ 32 := constantI S_ 32 0#32
  have v5 : IVec S_ 1 := cmpi .slt c_1 c_2
  have c_3 : IVec S_ 32 := constantI S_ 32 0#32
  have c_4 : IVec S_ 32 := constantI S_ 32 1000000#32
  have v6 : IVec S_ 32 := addi c_3 c_4
  have c_5 : IVec S_ 32 := constantI S_ 32 0#32
  have v7 : IVec S_ 32 := select v5 v6 c_5
  have c_6 : IVec S_ 32 := constantI S_ 32 0#32
  have c_7 : IVec S_ 32 := constantI S_ 32 0#32
  have v8 : IVec S_ 1 := cmpi .slt c_6 c_7
  have c_8 : IVec S_ 32 := constantI S_ 32 0#32
  have c_9 : IVec S_ 32 := constantI S_ 32 7#32
  have v9 : IVec S_ 32 := addi c_8 c_9
  have c_10 : IVec S_ 32 := constantI S_ 32 0#32
  have v10 : IVec S_ 32 := select v8 v9 c_10
  have v11 : FVec F S1x1000000x7 .f32 := Host.dynamicSlice S1x1000000x7 U (fun k => ((![v4, v7, v10] : Fin 3 → IVec S_ 32) k (Shape.Idx.first h_S_)).toInt) sliceFits_S4x1000000x7_S1x1000000x7
  have v12 : FVec F S1000000x7 .f32 := shapeCast S1000000x7 v11 shapeCasts_S1x1000000x7_S1000000x7
  v12

/-- The two inputs the last table names, row by row. -/
def gthF (inp : FVec F S1000000x7 .f32) (tcW : IVec S2 32) : FVec F S1000000x2 .f32 :=
  have c_11 : IVec S_ 32 := constantI S_ 32 0#32
  have v13 : IVec S2 32 := broadcastInDim S2 ![] bcast_S_S2 c_11
  have v14 : IVec S2 1 := cmpi .slt tcW v13
  have c_12 : IVec S_ 32 := constantI S_ 32 7#32
  have v15 : IVec S2 32 := broadcastInDim S2 ![] bcast_S_S2 c_12
  have v16 : IVec S2 32 := addi tcW v15
  have v17 : IVec S2 32 := select v14 v16 tcW
  have v18 : IVec S2x1 32 := broadcastInDim S2x1 ![0] bcast_S2_S2x1_0 v17
  have v19 : FVec F S1000000x2 .f32 := Host.gather gather_S1000000x7_S2x1_S1000000x2_0_1_n_n_1_1_10000001 inp v18
  v19

/-- The six temperatures of each row: its four states, then those two inputs. -/
def tmpF (X : FVec F S1000000x4 .f32) (g : FVec F S1000000x2 .f32) : FVec F S1000000x6 .f32 :=
  have v20 : FVec F S1000000x6 .f32 := concatenate S1000000x6 1 [⟨S1000000x4, X⟩, ⟨S1000000x2, g⟩] concatenates_S1000000x4_S1000000x2_S1000000x6_d1
  v20

/-- The eleven features of each row: its seven inputs, then its four states. -/
def featF (inp : FVec F S1000000x7 .f32) (X : FVec F S1000000x4 .f32) : FVec F S1000000x11 .f32 :=
  have v21 : FVec F S1000000x11 .f32 := concatenate S1000000x11 1 [⟨S1000000x7, inp⟩, ⟨S1000000x4, X⟩] concatenates_S1000000x7_S1000000x4_S1000000x11_d1
  v21

/-- The fifteen conductances of each row: a tanh layer, an affine layer, then p + 1 above zero and exp p at and below. -/
def condF (feat : FVec F S1000000x11 .f32) (cw1 : FVec F S11x2 .f32) (cb1 : FVec F S2 .f32) (cw2 : FVec F S2x15 .f32) (cb2 : FVec F S15 .f32) : FVec F S1000000x15 .f32 :=
  have v22 : FVec F S1000000x2 .f32 := Host.dotGeneral dot_S1000000x11_S11x2_S1000000x2_1_0_0_1_n_n none feat cw1
  have v23 : FVec F S1x2 .f32 := broadcastInDim S1x2 ![1] bcast_S2_S1x2_1 cb1
  have v24 : FVec F S1000000x2 .f32 := broadcastInDim S1000000x2 ![0, 1] bcast_S1x2_S1000000x2_0_1 v23
  have v25 : FVec F S1000000x2 .f32 := addf v22 v24
  have v26 : FVec F S1000000x2 .f32 := Host.tanh v25
  have v27 : FVec F S1000000x15 .f32 := Host.dotGeneral dot_S1000000x2_S2x15_S1000000x15_1_0_0_1_n_n none v26 cw2
  have v28 : FVec F S1x15 .f32 := broadcastInDim S1x15 ![1] bcast_S15_S1x15_1 cb2
  have v29 : FVec F S1000000x15 .f32 := broadcastInDim S1000000x15 ![0, 1] bcast_S1x15_S1000000x15_0_1 v28
  have v30 : FVec F S1000000x15 .f32 := addf v27 v29
  have call0_cst : FVec F S_ .f32 := constant (F := F) S_ .f32 0x00000000#32
  have call0_v0 : FVec F S1000000x15 .f32 := broadcastInDim S1000000x15 ![] bcast_S_S1000000x15 call0_cst
  have call0_v1 : IVec S1000000x15 1 := cmpf (F := F) .ogt v30 call0_v0
  have call0_cst_0 : FVec F S_ .f32 := constant (F := F) S_ .f32 0x00000000#32
  have call0_v2 : FVec F S1000000x15 .f32 := broadcastInDim S1000000x15 ![] bcast_S_S1000000x15 call0_cst_0
  have call0_v3 : IVec S1000000x15 1 := cmpf (F := F) .ogt v30 call0_v2
  have call0_cst_1 : FVec F S_ .f32 := constant (F := F) S_ .f32 0x00000000#32
  have call0_call0_v0 : FVec F S_ .f32 := id call0_cst_1
  have call0_call0_v1 : FVec F S1000000x15 .f32 := broadcastInDim S1000000x15 ![] bcast_S_S1000000x15 call0_call0_v0
  have call0_v4 : FVec F S1000000x15 .f32 := select call0_v3 call0_call0_v1 v30
  have call0_v5 : FVec F S1000000x15 .f32 := Host.expm1 call0_v4
  have call0_cst_2 : FVec F S_ .f32 := constant (F := F) S_ .f32 0x3F800000#32
  have call0_v6 : FVec F S1000000x15 .f32 := broadcastInDim S1000000x15 ![] bcast_S_S1000000x15 call0_cst_2
  have call0_v7 : FVec F S1000000x15 .f32 := mulf call0_v6 call0_v5
  have v31 : FVec F S1000000x15 .f32 := select call0_v1 v30 call0_v7
  have cst_13 : FVec F S_ .f32 := constant (F := F) S_ .f32 0x3F800000#32
  have v32 : FVec F S1000000x15 .f32 := broadcastInDim S1000000x15 ![] bcast_S_S1000000x15 cst_13
  have v33 : FVec F S1000000x15 .f32 := addf v31 v32
  v33

/-- The negated output of the power-loss network's affine layer over its tanh layer. -/
def nzF (feat : FVec F S1000000x11 .f32) (pw1 : FVec F S11x4 .f32) (pb1 : FVec F S4 .f32) (pw2 : FVec F S4x4 .f32) (pb2 : FVec F S4 .f32) : FVec F S1000000x4 .f32 :=
  have v34 : FVec F S1000000x4 .f32 := Host.dotGeneral dot_S1000000x11_S11x4_S1000000x4_1_0_0_1_n_n none feat pw1
  have v35 : FVec F S1x4 .f32 := broadcastInDim S1x4 ![1] bcast_S4_S1x4_1 pb1
  have v36 : FVec F S1000000x4 .f32 := broadcastInDim S1000000x4 ![0, 1] bcast_S1x4_S1000000x4_0_1 v35
  have v37 : FVec F S1000000x4 .f32 := addf v34 v36
  have v38 : FVec F S1000000x4 .f32 := Host.tanh v37
  have v39 : FVec F S1000000x4 .f32 := Host.dotGeneral dot_S1000000x4_S4x4_S1000000x4_1_0_0_1_n_n none v38 pw2
  have v40 : FVec F S1x4 .f32 := broadcastInDim S1x4 ![1] bcast_S4_S1x4_1 pb2
  have v41 : FVec F S1000000x4 .f32 := broadcastInDim S1000000x4 ![0, 1] bcast_S1x4_S1000000x4_0_1 v40
  have v42 : FVec F S1000000x4 .f32 := addf v39 v41
  have v43 : FVec F S1000000x4 .f32 := Host.negf v42
  v43

/-- 1 / (1 + exp z) of that negated output z: the power loss. -/
def plF (nz : FVec F S1000000x4 .f32) : FVec F S1000000x4 .f32 :=
  have v44 : FVec F S1000000x4 .f32 := Host.exp nz
  have cst_14 : FVec F S_ .f32 := constant (F := F) S_ .f32 0x3F800000#32
  have v45 : FVec F S1000000x4 .f32 := broadcastInDim S1000000x4 ![] bcast_S_S1000000x4 cst_14
  have v46 : FVec F S1000000x4 .f32 := addf v45 v44
  have cst_15 : FVec F S_ .f32 := constant (F := F) S_ .f32 0x3F800000#32
  have v47 : FVec F S1000000x4 .f32 := broadcastInDim S1000000x4 ![] bcast_S_S1000000x4 cst_15
  have v48 : FVec F S1000000x4 .f32 := Host.divf v47 v46
  v48

/-- Each state's clipped rate of change: the scale exp caps times the sum over its five neighbours of (temperature - state) * conductance plus its power loss. -/
def outF (X : FVec F S1000000x4 .f32) (caps : FVec F S4 .f32) (tiW : IVec S4x5 32) (adjW : IVec S4x5 32) (tmp : FVec F S1000000x6 .f32) (cond : FVec F S1000000x15 .f32) (pl : FVec F S1000000x4 .f32) : FVec F S1000000x4 .f32 :=
  have c_16 : IVec S_ 32 := constantI S_ 32 0#32
  have v49 : IVec S4x5 32 := broadcastInDim S4x5 ![] bcast_S_S4x5 c_16
  have v50 : IVec S4x5 1 := cmpi .slt tiW v49
  have c_17 : IVec S_ 32 := constantI S_ 32 6#32
  have v51 : IVec S4x5 32 := broadcastInDim S4x5 ![] bcast_S_S4x5 c_17
  have v52 : IVec S4x5 32 := addi tiW v51
  have v53 : IVec S4x5 32 := select v50 v52 tiW
  have v54 : IVec S4x5x1 32 := broadcastInDim S4x5x1 ![0, 1] bcast_S4x5_S4x5x1_0_1 v53
  have v55 : FVec F S1000000x4x5 .f32 := Host.gather gather_S1000000x6_S4x5x1_S1000000x4x5_0_1_n_n_1_2_10000001 tmp v54
  have v56 : FVec F S1000000x4x1 .f32 := broadcastInDim S1000000x4x1 ![0, 1] bcast_S1000000x4_S1000000x4x1_0_1 X
  have v57 : FVec F S1000000x4x5 .f32 := broadcastInDim S1000000x4x5 ![0, 1, 2] bcast_S1000000x4x1_S1000000x4x5_0_1_2 v56
  have v58 : FVec F S1000000x4x5 .f32 := subf v55 v57
  have c_18 : IVec S_ 32 := constantI S_ 32 0#32
  have v59 : IVec S4x5 32 := broadcastInDim S4x5 ![] bcast_S_S4x5 c_18
  have v60 : IVec S4x5 1 := cmpi .slt adjW v59
  have c_19 : IVec S_ 32 := constantI S_ 32 15#32
  have v61 : IVec S4x5 32 := broadcastInDim S4x5 ![] bcast_S_S4x5 c_19
  have v62 : IVec S4x5 32 := addi adjW v61
  have v63 : IVec S4x5 32 := select v60 v62 adjW
  have v64 : IVec S4x5x1 32 := broadcastInDim S4x5x1 ![0, 1] bcast_S4x5_S4x5x1_0_1 v63
  have v65 : FVec F S1000000x4x5 .f32 := Host.gather gather_S1000000x15_S4x5x1_S1000000x4x5_0_1_n_n_1_2_10000001 cond v64
  have v66 : FVec F S1000000x4x5 .f32 := mulf v58 v65
  have cst_20 : FVec F S_ .f32 := constant (F := F) S_ .f32 0x00000000#32
  have v67 : FVec F S1000000x4 .f32 := Host.reduceAdd v66 cst_20 reducesTo_S1000000x4x5_S1000000x4_d2 h_S_
  have v68 : FVec F S4 .f32 := Host.exp caps
  have v69 : FVec F S1000000x4 .f32 := addf v67 pl
  have v70 : FVec F S1x4 .f32 := broadcastInDim S1x4 ![1] bcast_S4_S1x4_1 v68
  have v71 : FVec F S1000000x4 .f32 := broadcastInDim S1000000x4 ![0, 1] bcast_S1x4_S1000000x4_0_1 v70
  have v72 : FVec F S1000000x4 .f32 := mulf v71 v69
  have cst_21 : FVec F S_ .f32 := constant (F := F) S_ .f32 0xBF800000#32
  have cst_22 : FVec F S_ .f32 := constant (F := F) S_ .f32 0x3F800000#32
  have call1_v0 : FVec F S_ .f32 := id cst_21
  have call1_v1 : FVec F S1000000x4 .f32 := broadcastInDim S1000000x4 ![] bcast_S_S1000000x4 call1_v0
  have call1_v2 : FVec F S1000000x4 .f32 := maximumf call1_v1 v72
  have call1_v3 : FVec F S_ .f32 := id cst_22
  have call1_v4 : FVec F S1000000x4 .f32 := broadcastInDim S1000000x4 ![] bcast_S_S1000000x4 call1_v3
  have v73 : FVec F S1000000x4 .f32 := minimumf call1_v4 call1_v2
  v73

/-- The reference's result as the composed term of its operations, for any float values. -/
def termF (T : FVec F S_ .f32) (X : FVec F S1000000x4 .f32) (U : FVec F S4x1000000x7 .f32) (caps : FVec F S4 .f32) (cw1 : FVec F S11x2 .f32) (cb1 : FVec F S2 .f32) (cw2 : FVec F S2x15 .f32) (cb2 : FVec F S15 .f32) (pw1 : FVec F S11x4 .f32) (pb1 : FVec F S4 .f32) (pw2 : FVec F S4x4 .f32) (pb2 : FVec F S4 .f32) (tiW : IVec S4x5 32) (adjW : IVec S4x5 32) (tcW : IVec S2 32) : FVec F S1000000x4 .f32 :=
  have inp : FVec F S1000000x7 .f32 := inpF T U
  have g : FVec F S1000000x2 .f32 := gthF inp tcW
  have tmp : FVec F S1000000x6 .f32 := tmpF X g
  have feat : FVec F S1000000x11 .f32 := featF inp X
  have cond : FVec F S1000000x15 .f32 := condF feat cw1 cb1 cw2 cb2
  have nz : FVec F S1000000x4 .f32 := nzF feat pw1 pb1 pw2 pb2
  have pl : FVec F S1000000x4 .f32 := plF nz
  outF X caps tiW adjW tmp cond pl

/-- The reference's result as the composed term of its operations, a function of the fifteen argument arrays. -/
def term (T : (⟨0, ![]⟩ : Shape).Idx → EReal) (X : SB4.Idx → EReal) (U : S4B7.Idx → EReal) (caps : (⟨1, ![4]⟩ : Shape).Idx → EReal) (cw1 : (⟨2, ![11, 2]⟩ : Shape).Idx → EReal) (cb1 : (⟨1, ![2]⟩ : Shape).Idx → EReal) (cw2 : (⟨2, ![2, 15]⟩ : Shape).Idx → EReal) (cb2 : (⟨1, ![15]⟩ : Shape).Idx → EReal) (pw1 : (⟨2, ![11, 4]⟩ : Shape).Idx → EReal) (pb1 : (⟨1, ![4]⟩ : Shape).Idx → EReal) (pw2 : (⟨2, ![4, 4]⟩ : Shape).Idx → EReal) (pb2 : (⟨1, ![4]⟩ : Shape).Idx → EReal) (tiW : (⟨2, ![4, 5]⟩ : Shape).Idx → BitVec 32) (adjW : (⟨2, ![4, 5]⟩ : Shape).Idx → BitVec 32) (tcW : (⟨1, ![2]⟩ : Shape).Idx → BitVec 32) : SB4.Idx → EReal :=
  termF (F := Ideal) T X U caps cw1 cb1 cw2 cb2 pw1 pb1 pw2 pb2 tiW adjW tcW

/-- Operations 1 to 35: the time step, the slice it selects and the two inputs the last table names. -/
abbrev opsA : List (HloOp τ sig (Elt F)) :=
  [ nullary main_cst (constant S_ .f32 0x40000000#32),
    binary main_arg0 main_cst main_v0 (mulf : (⟨S_, .f32⟩ : BufTy).Contents (Elt F) → (⟨S_, .f32⟩ : BufTy).Contents (Elt F) → (⟨S_, .f32⟩ : BufTy).Contents (Elt F)),
    unary main_v0 main_v1 (fptosi 32 : (⟨S_, .f32⟩ : BufTy).Contents (Elt F) → (⟨S_, .i32⟩ : BufTy).Contents (Elt F)),
    nullary main_c (constantI S_ 32 0#32),
    binary main_v1 main_c main_v2 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v1 main_c_0 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v5 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1000000#32),
    binary main_c_3 main_c_4 main_v6 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v8 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 7#32),
    binary main_c_8 main_c_9 main_v9 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v8 main_v9 main_c_10 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg2 ![main_v4, main_v7, main_v10] ⟨S_, .i32⟩ main_v11 ((fun x i => Host.dynamicSlice S1x1000000x7 x (fun k => (i k (Shape.Idx.first h_S_)).toInt) sliceFits_S4x1000000x7_S1x1000000x7) : (⟨S4x1000000x7, .f32⟩ : BufTy).Contents (Elt F) → (Fin 3 → (⟨S_, .i32⟩ : BufTy).Contents (Elt F)) → (⟨S1x1000000x7, .f32⟩ : BufTy).Contents (Elt F)),
    reshape main_v11 main_v12 rfl shapeCasts_S1x1000000x7_S1000000x7,
    nullary main_c_11 (constantI S_ 32 0#32),
    unary main_c_11 main_v13 (broadcastInDim S2 ![] bcast_S_S2 : (⟨S_, .i32⟩ : BufTy).Contents (Elt F) → (⟨S2, .i32⟩ : BufTy).Contents (Elt F)),
    binary main_arg14 main_v13 main_v14 (cmpi .slt : (⟨S2, .i32⟩ : BufTy).Contents (Elt F) → (⟨S2, .i32⟩ : BufTy).Contents (Elt F) → (⟨S2, .i1⟩ : BufTy).Contents (Elt F)),
    nullary main_c_12 (constantI S_ 32 7#32),
    unary main_c_12 main_v15 (broadcastInDim S2 ![] bcast_S_S2 : (⟨S_, .i32⟩ : BufTy).Contents (Elt F) → (⟨S2, .i32⟩ : BufTy).Contents (Elt F)),
    binary main_arg14 main_v15 main_v16 (addi : (⟨S2, .i32⟩ : BufTy).Contents (Elt F) → (⟨S2, .i32⟩ : BufTy).Contents (Elt F) → (⟨S2, .i32⟩ : BufTy).Contents (Elt F)),
    ternary main_v14 main_v16 main_arg14 main_v17 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v17 main_v18 (broadcastInDim S2x1 ![0] bcast_S2_S2x1_0 : (⟨S2, .i32⟩ : BufTy).Contents (Elt F) → (⟨S2x1, .i32⟩ : BufTy).Contents (Elt F)),
    binary main_v12 main_v18 main_v19 ((fun x i => Host.gather gather_S1000000x7_S2x1_S1000000x2_0_1_n_n_1_1_10000001 x i) : (⟨S1000000x7, .f32⟩ : BufTy).Contents (Elt F) → (⟨S2x1, .i32⟩ : BufTy).Contents (Elt F) → (⟨S1000000x2, .f32⟩ : BufTy).Contents (Elt F)) ]

/-- Operations 36 to 74: the temperatures, the features, the conductances and the power-loss network up to its negated output. -/
abbrev opsB : List (HloOp τ sig (Elt F)) :=
  [ binary main_arg1 main_v19 main_v20 ((fun a b => concatenate S1000000x6 1 [⟨S1000000x4, a⟩, ⟨S1000000x2, b⟩] concatenates_S1000000x4_S1000000x2_S1000000x6_d1) : (⟨S1000000x4, .f32⟩ : BufTy).Contents (Elt F) → (⟨S1000000x2, .f32⟩ : BufTy).Contents (Elt F) → (⟨S1000000x6, .f32⟩ : BufTy).Contents (Elt F)),
    binary main_v12 main_arg1 main_v21 ((fun a b => concatenate S1000000x11 1 [⟨S1000000x7, a⟩, ⟨S1000000x4, b⟩] concatenates_S1000000x7_S1000000x4_S1000000x11_d1) : (⟨S1000000x7, .f32⟩ : BufTy).Contents (Elt F) → (⟨S1000000x4, .f32⟩ : BufTy).Contents (Elt F) → (⟨S1000000x11, .f32⟩ : BufTy).Contents (Elt F)),
    binary main_v21 main_arg4 main_v22 ((fun l r => Host.dotGeneral dot_S1000000x11_S11x2_S1000000x2_1_0_0_1_n_n none l r) : (⟨S1000000x11, .f32⟩ : BufTy).Contents (Elt F) → (⟨S11x2, .f32⟩ : BufTy).Contents (Elt F) → (⟨S1000000x2, .f32⟩ : BufTy).Contents (Elt F)),
    unary main_arg5 main_v23 (broadcastInDim S1x2 ![1] bcast_S2_S1x2_1 : (⟨S2, .f32⟩ : BufTy).Contents (Elt F) → (⟨S1x2, .f32⟩ : BufTy).Contents (Elt F)),
    unary main_v23 main_v24 (broadcastInDim S1000000x2 ![0, 1] bcast_S1x2_S1000000x2_0_1 : (⟨S1x2, .f32⟩ : BufTy).Contents (Elt F) → (⟨S1000000x2, .f32⟩ : BufTy).Contents (Elt F)),
    binary main_v22 main_v24 main_v25 (addf : (⟨S1000000x2, .f32⟩ : BufTy).Contents (Elt F) → (⟨S1000000x2, .f32⟩ : BufTy).Contents (Elt F) → (⟨S1000000x2, .f32⟩ : BufTy).Contents (Elt F)),
    unary main_v25 main_v26 (Host.tanh : (⟨S1000000x2, .f32⟩ : BufTy).Contents (Elt F) → (⟨S1000000x2, .f32⟩ : BufTy).Contents (Elt F)),
    binary main_v26 main_arg6 main_v27 ((fun l r => Host.dotGeneral dot_S1000000x2_S2x15_S1000000x15_1_0_0_1_n_n none l r) : (⟨S1000000x2, .f32⟩ : BufTy).Contents (Elt F) → (⟨S2x15, .f32⟩ : BufTy).Contents (Elt F) → (⟨S1000000x15, .f32⟩ : BufTy).Contents (Elt F)),
    unary main_arg7 main_v28 (broadcastInDim S1x15 ![1] bcast_S15_S1x15_1 : (⟨S15, .f32⟩ : BufTy).Contents (Elt F) → (⟨S1x15, .f32⟩ : BufTy).Contents (Elt F)),
    unary main_v28 main_v29 (broadcastInDim S1000000x15 ![0, 1] bcast_S1x15_S1000000x15_0_1 : (⟨S1x15, .f32⟩ : BufTy).Contents (Elt F) → (⟨S1000000x15, .f32⟩ : BufTy).Contents (Elt F)),
    binary main_v27 main_v29 main_v30 (addf : (⟨S1000000x15, .f32⟩ : BufTy).Contents (Elt F) → (⟨S1000000x15, .f32⟩ : BufTy).Contents (Elt F) → (⟨S1000000x15, .f32⟩ : BufTy).Contents (Elt F)),
    TRef.nullary main_call0.cst (constant S_ .f32 0x00000000#32),
    TRef.unary main_call0.cst main_call0.v0 (broadcastInDim S1000000x15 ![] bcast_S_S1000000x15),
    TRef.binary (.of main_v30) main_call0.v0 main_call0.v1 (cmpf .ogt),
    TRef.nullary main_call0.cst_0 (constant S_ .f32 0x00000000#32),
    TRef.unary main_call0.cst_0 main_call0.v2 (broadcastInDim S1000000x15 ![] bcast_S_S1000000x15),
    TRef.binary (.of main_v30) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S1000000x15 ![] bcast_S_S1000000x15),
    TRef.ternary main_call0.v3 main_call0.call0.v1 (.of main_v30) main_call0.call0.v2 select,
    TRef.unary main_call0.call0.v2 main_call0.v5 Host.expm1,
    TRef.nullary main_call0.cst_2 (constant S_ .f32 0x3F800000#32),
    TRef.unary main_call0.cst_2 main_call0.v6 (broadcastInDim S1000000x15 ![] bcast_S_S1000000x15),
    TRef.binary main_call0.v6 main_call0.v5 main_call0.v7 mulf,
    TRef.ternary main_call0.v1 (.of main_v30) main_call0.v7 main_call0.call1.v0 select,
    nullary main_cst_13 (constant S_ .f32 0x3F800000#32),
    unary main_cst_13 main_v32 (broadcastInDim S1000000x15 ![] bcast_S_S1000000x15 : (⟨S_, .f32⟩ : BufTy).Contents (Elt F) → (⟨S1000000x15, .f32⟩ : BufTy).Contents (Elt F)),
    binary main_v31 main_v32 main_v33 (addf : (⟨S1000000x15, .f32⟩ : BufTy).Contents (Elt F) → (⟨S1000000x15, .f32⟩ : BufTy).Contents (Elt F) → (⟨S1000000x15, .f32⟩ : BufTy).Contents (Elt F)),
    binary main_v21 main_arg8 main_v34 ((fun l r => Host.dotGeneral dot_S1000000x11_S11x4_S1000000x4_1_0_0_1_n_n none l r) : (⟨S1000000x11, .f32⟩ : BufTy).Contents (Elt F) → (⟨S11x4, .f32⟩ : BufTy).Contents (Elt F) → (⟨S1000000x4, .f32⟩ : BufTy).Contents (Elt F)),
    unary main_arg9 main_v35 (broadcastInDim S1x4 ![1] bcast_S4_S1x4_1 : (⟨S4, .f32⟩ : BufTy).Contents (Elt F) → (⟨S1x4, .f32⟩ : BufTy).Contents (Elt F)),
    unary main_v35 main_v36 (broadcastInDim S1000000x4 ![0, 1] bcast_S1x4_S1000000x4_0_1 : (⟨S1x4, .f32⟩ : BufTy).Contents (Elt F) → (⟨S1000000x4, .f32⟩ : BufTy).Contents (Elt F)),
    binary main_v34 main_v36 main_v37 (addf : (⟨S1000000x4, .f32⟩ : BufTy).Contents (Elt F) → (⟨S1000000x4, .f32⟩ : BufTy).Contents (Elt F) → (⟨S1000000x4, .f32⟩ : BufTy).Contents (Elt F)),
    unary main_v37 main_v38 (Host.tanh : (⟨S1000000x4, .f32⟩ : BufTy).Contents (Elt F) → (⟨S1000000x4, .f32⟩ : BufTy).Contents (Elt F)),
    binary main_v38 main_arg10 main_v39 ((fun l r => Host.dotGeneral dot_S1000000x4_S4x4_S1000000x4_1_0_0_1_n_n none l r) : (⟨S1000000x4, .f32⟩ : BufTy).Contents (Elt F) → (⟨S4x4, .f32⟩ : BufTy).Contents (Elt F) → (⟨S1000000x4, .f32⟩ : BufTy).Contents (Elt F)),
    unary main_arg11 main_v40 (broadcastInDim S1x4 ![1] bcast_S4_S1x4_1 : (⟨S4, .f32⟩ : BufTy).Contents (Elt F) → (⟨S1x4, .f32⟩ : BufTy).Contents (Elt F)),
    unary main_v40 main_v41 (broadcastInDim S1000000x4 ![0, 1] bcast_S1x4_S1000000x4_0_1 : (⟨S1x4, .f32⟩ : BufTy).Contents (Elt F) → (⟨S1000000x4, .f32⟩ : BufTy).Contents (Elt F)),
    binary main_v39 main_v41 main_v42 (addf : (⟨S1000000x4, .f32⟩ : BufTy).Contents (Elt F) → (⟨S1000000x4, .f32⟩ : BufTy).Contents (Elt F) → (⟨S1000000x4, .f32⟩ : BufTy).Contents (Elt F)),
    unary main_v42 main_v43 (Host.negf : (⟨S1000000x4, .f32⟩ : BufTy).Contents (Elt F) → (⟨S1000000x4, .f32⟩ : BufTy).Contents (Elt F)) ]

/-- Operations 75 to 118: the power loss, the two lookups by the tables, the sum over the neighbours, the scale and the clip. -/
abbrev opsC : List (HloOp τ sig (Elt F)) :=
  [ unary main_v43 main_v44 (Host.exp : (⟨S1000000x4, .f32⟩ : BufTy).Contents (Elt F) → (⟨S1000000x4, .f32⟩ : BufTy).Contents (Elt F)),
    nullary main_cst_14 (constant S_ .f32 0x3F800000#32),
    unary main_cst_14 main_v45 (broadcastInDim S1000000x4 ![] bcast_S_S1000000x4 : (⟨S_, .f32⟩ : BufTy).Contents (Elt F) → (⟨S1000000x4, .f32⟩ : BufTy).Contents (Elt F)),
    binary main_v45 main_v44 main_v46 (addf : (⟨S1000000x4, .f32⟩ : BufTy).Contents (Elt F) → (⟨S1000000x4, .f32⟩ : BufTy).Contents (Elt F) → (⟨S1000000x4, .f32⟩ : BufTy).Contents (Elt F)),
    nullary main_cst_15 (constant S_ .f32 0x3F800000#32),
    unary main_cst_15 main_v47 (broadcastInDim S1000000x4 ![] bcast_S_S1000000x4 : (⟨S_, .f32⟩ : BufTy).Contents (Elt F) → (⟨S1000000x4, .f32⟩ : BufTy).Contents (Elt F)),
    binary main_v47 main_v46 main_v48 (Host.divf : (⟨S1000000x4, .f32⟩ : BufTy).Contents (Elt F) → (⟨S1000000x4, .f32⟩ : BufTy).Contents (Elt F) → (⟨S1000000x4, .f32⟩ : BufTy).Contents (Elt F)),
    nullary main_c_16 (constantI S_ 32 0#32),
    unary main_c_16 main_v49 (broadcastInDim S4x5 ![] bcast_S_S4x5 : (⟨S_, .i32⟩ : BufTy).Contents (Elt F) → (⟨S4x5, .i32⟩ : BufTy).Contents (Elt F)),
    binary main_arg12 main_v49 main_v50 (cmpi .slt : (⟨S4x5, .i32⟩ : BufTy).Contents (Elt F) → (⟨S4x5, .i32⟩ : BufTy).Contents (Elt F) → (⟨S4x5, .i1⟩ : BufTy).Contents (Elt F)),
    nullary main_c_17 (constantI S_ 32 6#32),
    unary main_c_17 main_v51 (broadcastInDim S4x5 ![] bcast_S_S4x5 : (⟨S_, .i32⟩ : BufTy).Contents (Elt F) → (⟨S4x5, .i32⟩ : BufTy).Contents (Elt F)),
    binary main_arg12 main_v51 main_v52 (addi : (⟨S4x5, .i32⟩ : BufTy).Contents (Elt F) → (⟨S4x5, .i32⟩ : BufTy).Contents (Elt F) → (⟨S4x5, .i32⟩ : BufTy).Contents (Elt F)),
    ternary main_v50 main_v52 main_arg12 main_v53 (select : (⟨S4x5, .i1⟩ : BufTy).Contents (Elt F) → (⟨S4x5, .i32⟩ : BufTy).Contents (Elt F) → (⟨S4x5, .i32⟩ : BufTy).Contents (Elt F) → (⟨S4x5, .i32⟩ : BufTy).Contents (Elt F)),
    unary main_v53 main_v54 (broadcastInDim S4x5x1 ![0, 1] bcast_S4x5_S4x5x1_0_1 : (⟨S4x5, .i32⟩ : BufTy).Contents (Elt F) → (⟨S4x5x1, .i32⟩ : BufTy).Contents (Elt F)),
    binary main_v20 main_v54 main_v55 ((fun x i => Host.gather gather_S1000000x6_S4x5x1_S1000000x4x5_0_1_n_n_1_2_10000001 x i) : (⟨S1000000x6, .f32⟩ : BufTy).Contents (Elt F) → (⟨S4x5x1, .i32⟩ : BufTy).Contents (Elt F) → (⟨S1000000x4x5, .f32⟩ : BufTy).Contents (Elt F)),
    unary main_arg1 main_v56 (broadcastInDim S1000000x4x1 ![0, 1] bcast_S1000000x4_S1000000x4x1_0_1 : (⟨S1000000x4, .f32⟩ : BufTy).Contents (Elt F) → (⟨S1000000x4x1, .f32⟩ : BufTy).Contents (Elt F)),
    unary main_v56 main_v57 (broadcastInDim S1000000x4x5 ![0, 1, 2] bcast_S1000000x4x1_S1000000x4x5_0_1_2 : (⟨S1000000x4x1, .f32⟩ : BufTy).Contents (Elt F) → (⟨S1000000x4x5, .f32⟩ : BufTy).Contents (Elt F)),
    binary main_v55 main_v57 main_v58 (subf : (⟨S1000000x4x5, .f32⟩ : BufTy).Contents (Elt F) → (⟨S1000000x4x5, .f32⟩ : BufTy).Contents (Elt F) → (⟨S1000000x4x5, .f32⟩ : BufTy).Contents (Elt F)),
    nullary main_c_18 (constantI S_ 32 0#32),
    unary main_c_18 main_v59 (broadcastInDim S4x5 ![] bcast_S_S4x5 : (⟨S_, .i32⟩ : BufTy).Contents (Elt F) → (⟨S4x5, .i32⟩ : BufTy).Contents (Elt F)),
    binary main_arg13 main_v59 main_v60 (cmpi .slt : (⟨S4x5, .i32⟩ : BufTy).Contents (Elt F) → (⟨S4x5, .i32⟩ : BufTy).Contents (Elt F) → (⟨S4x5, .i1⟩ : BufTy).Contents (Elt F)),
    nullary main_c_19 (constantI S_ 32 15#32),
    unary main_c_19 main_v61 (broadcastInDim S4x5 ![] bcast_S_S4x5 : (⟨S_, .i32⟩ : BufTy).Contents (Elt F) → (⟨S4x5, .i32⟩ : BufTy).Contents (Elt F)),
    binary main_arg13 main_v61 main_v62 (addi : (⟨S4x5, .i32⟩ : BufTy).Contents (Elt F) → (⟨S4x5, .i32⟩ : BufTy).Contents (Elt F) → (⟨S4x5, .i32⟩ : BufTy).Contents (Elt F)),
    ternary main_v60 main_v62 main_arg13 main_v63 (select : (⟨S4x5, .i1⟩ : BufTy).Contents (Elt F) → (⟨S4x5, .i32⟩ : BufTy).Contents (Elt F) → (⟨S4x5, .i32⟩ : BufTy).Contents (Elt F) → (⟨S4x5, .i32⟩ : BufTy).Contents (Elt F)),
    unary main_v63 main_v64 (broadcastInDim S4x5x1 ![0, 1] bcast_S4x5_S4x5x1_0_1 : (⟨S4x5, .i32⟩ : BufTy).Contents (Elt F) → (⟨S4x5x1, .i32⟩ : BufTy).Contents (Elt F)),
    binary main_v33 main_v64 main_v65 ((fun x i => Host.gather gather_S1000000x15_S4x5x1_S1000000x4x5_0_1_n_n_1_2_10000001 x i) : (⟨S1000000x15, .f32⟩ : BufTy).Contents (Elt F) → (⟨S4x5x1, .i32⟩ : BufTy).Contents (Elt F) → (⟨S1000000x4x5, .f32⟩ : BufTy).Contents (Elt F)),
    binary main_v58 main_v65 main_v66 (mulf : (⟨S1000000x4x5, .f32⟩ : BufTy).Contents (Elt F) → (⟨S1000000x4x5, .f32⟩ : BufTy).Contents (Elt F) → (⟨S1000000x4x5, .f32⟩ : BufTy).Contents (Elt F)),
    nullary main_cst_20 (constant S_ .f32 0x00000000#32),
    binary main_v66 main_cst_20 main_v67 ((fun x v => Host.reduceAdd x v reducesTo_S1000000x4x5_S1000000x4_d2 h_S_) : (⟨S1000000x4x5, .f32⟩ : BufTy).Contents (Elt F) → (⟨S_, .f32⟩ : BufTy).Contents (Elt F) → (⟨S1000000x4, .f32⟩ : BufTy).Contents (Elt F)),
    unary main_arg3 main_v68 (Host.exp : (⟨S4, .f32⟩ : BufTy).Contents (Elt F) → (⟨S4, .f32⟩ : BufTy).Contents (Elt F)),
    binary main_v67 main_v48 main_v69 (addf : (⟨S1000000x4, .f32⟩ : BufTy).Contents (Elt F) → (⟨S1000000x4, .f32⟩ : BufTy).Contents (Elt F) → (⟨S1000000x4, .f32⟩ : BufTy).Contents (Elt F)),
    unary main_v68 main_v70 (broadcastInDim S1x4 ![1] bcast_S4_S1x4_1 : (⟨S4, .f32⟩ : BufTy).Contents (Elt F) → (⟨S1x4, .f32⟩ : BufTy).Contents (Elt F)),
    unary main_v70 main_v71 (broadcastInDim S1000000x4 ![0, 1] bcast_S1x4_S1000000x4_0_1 : (⟨S1x4, .f32⟩ : BufTy).Contents (Elt F) → (⟨S1000000x4, .f32⟩ : BufTy).Contents (Elt F)),
    binary main_v71 main_v69 main_v72 (mulf : (⟨S1000000x4, .f32⟩ : BufTy).Contents (Elt F) → (⟨S1000000x4, .f32⟩ : BufTy).Contents (Elt F) → (⟨S1000000x4, .f32⟩ : BufTy).Contents (Elt F)),
    nullary main_cst_21 (constant S_ .f32 0xBF800000#32),
    nullary main_cst_22 (constant S_ .f32 0x3F800000#32),
    TRef.unary (.of main_cst_21) main_call1.v0 id,
    TRef.unary main_call1.v0 main_call1.v1 (broadcastInDim S1000000x4 ![] bcast_S_S1000000x4),
    TRef.binary main_call1.v1 (.of main_v72) main_call1.v2 maximumf,
    TRef.unary (.of main_cst_22) main_call1.v3 id,
    TRef.unary main_call1.v3 main_call1.v4 (broadcastInDim S1000000x4 ![] bcast_S_S1000000x4),
    TRef.binary main_call1.v4 main_call1.v2 main_call1.v5 minimumf ]

end Cert.ReferenceIdeal.Hand

end
-- ==== Proof.RefRun.lean ====
/-
  The reference's run: its host program, the outlined functions (`elu`, its two `where`s, `clip`)
  read at their call sites, is a straight list of operations; every weakly fair execution performs
  them in order and ends with the last buffer at their composed term of the argument arrays, which
  are not written.
-/
import proofs.«405011_j38749194944738_3_alg».proof.Proof.Gen.ReferenceIdeal
import proofs.«405011_j38749194944738_3_alg».proof.Proof.RefArgs
import proofs.«405011_j38749194944738_3_alg».proof.Proof.RefOps
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo Cert.ReferenceIdeal Cert.ReferenceIdeal.Gen Cert.Tnn

variable {F : FTy → Type} [FloatOps F]

/-- The three pieces in order: all of the program's operations. -/
abbrev opsAll : List (HloOp τ sig (Elt F)) := (opsA ++ opsB) ++ opsC

-- the two parts of the program are the pieces' lines: both sides are one chain of steps, the outlined
-- functions' bodies opened at their calls
set_option maxRecDepth 8192 in
set_option maxHeartbeats 4000000 in
theorem part0_eq (c : Dev nD) : main_part0 (F := F) c = seq (opsA ++ opsB) := rfl

set_option maxRecDepth 8192 in
set_option maxHeartbeats 4000000 in
theorem part1_eq (c : Dev nD) : main_part1 (F := F) c = seq opsC := rfl

/-- The program is the straight line of its operations. -/
theorem main_eq (c : Dev nD) : main (F := F) c = seq opsAll := by
  rw [opsAll, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig := by
  simp only [opsA, List.Forall, nullary_bufs_sub, unary_bufs_sub, binary_bufs_sub, ternary_bufs_sub, reshape_bufs_sub, unaryIndexed_bufs_sub, and_self]
theorem opsB_sub : (opsB : List (HloOp τ sig (Elt F))).Forall fun op => op.bufs ⊆ tcRefs τ sig := by
  simp only [opsB, List.Forall, nullary_bufs_sub, unary_bufs_sub, binary_bufs_sub, ternary_bufs_sub, reshape_bufs_sub, unaryIndexed_bufs_sub, and_self]
theorem opsC_sub : (opsC : List (HloOp τ sig (Elt F))).Forall fun op => op.bufs ⊆ tcRefs τ sig := by
  simp only [opsC, List.Forall, nullary_bufs_sub, unary_bufs_sub, binary_bufs_sub, ternary_bufs_sub, reshape_bufs_sub, unaryIndexed_bufs_sub, and_self]

/-- Every operation touches buffers of the core only. -/
theorem ops_sub : (opsAll : List (HloOp τ sig (Elt F))).Forall fun op => op.bufs ⊆ tcRefs τ sig :=
  List.forall_iff_forall_mem.mpr fun op h => by
    rw [opsAll, List.mem_append, List.mem_append] at h
    rcases h with (h | h) | h
    exacts [List.forall_iff_forall_mem.mp opsA_sub op h, List.forall_iff_forall_mem.mp opsB_sub op h,
      List.forall_iff_forall_mem.mp opsC_sub op h]

theorem opsA_fresh : (opsA : List (HloOp τ sig (Elt F))).Forall fun op => op.fresh = ∅ := by
  simp only [opsA, List.Forall]
  repeat' constructor
theorem opsB_fresh : (opsB : List (HloOp τ sig (Elt F))).Forall fun op => op.fresh = ∅ := by
  simp only [opsB, List.Forall]
  repeat' constructor
theorem opsC_fresh : (opsC : List (HloOp τ sig (Elt F))).Forall fun op => op.fresh = ∅ := by
  simp only [opsC, List.Forall]
  repeat' constructor

/-- Every operation determines its results. -/
theorem ops_fresh : ∀ op ∈ (opsAll : List (HloOp τ sig (Elt F))), op.fresh = ∅ := fun op h => by
  rw [opsAll, List.mem_append, List.mem_append] at h
  rcases h with (h | h) | h
  exacts [List.forall_iff_forall_mem.mp opsA_fresh op h, List.forall_iff_forall_mem.mp opsB_fresh op h,
    List.forall_iff_forall_mem.mp opsC_fresh op h]

/-! ## What the buffers hold after each piece, from any contents -/

/-- The fifteen argument buffers. -/
abbrev argRefs : List (Ref sig .tc) :=
  [main_arg0, main_arg1, main_arg2, main_arg3, main_arg4, main_arg5, main_arg6, main_arg7, main_arg8, main_arg9, main_arg10, main_arg11, main_arg12, main_arg13, main_arg14]

-- no operation of the first piece writes an argument buffer
set_option maxRecDepth 8192 in
set_option maxHeartbeats 4000000 in
theorem afterA_keep (V : Valuation τ sig (Elt F)) (r : Ref sig .tc) (h : r ∈ argRefs) :
    after opsA V (no_index (Proc.devRef .tc r)) = V (Proc.devRef .tc r) := by
  simp only [argRefs, List.mem_cons, List.mem_nil_iff, or_false] at h
  rcases h with rfl | rfl | rfl | rfl | rfl | rfl | rfl | rfl | rfl | rfl | rfl | rfl | rfl | rfl | rfl
  all_goals (simp only [opsA]; after_results_simp)

-- nor of the second
set_option maxRecDepth 8192 in
set_option maxHeartbeats 4000000 in
theorem afterB_keep (V : Valuation τ sig (Elt F)) (r : Ref sig .tc) (h : r ∈ argRefs) :
    after opsB V (no_index (Proc.devRef .tc r)) = V (Proc.devRef .tc r) := by
  simp only [argRefs, List.mem_cons, List.mem_nil_iff, or_false] at h
  rcases h with rfl | rfl | rfl | rfl | rfl | rfl | rfl | rfl | rfl | rfl | rfl | rfl | rfl | rfl | rfl
  all_goals (simp only [opsB]; after_results_simp)

-- nor of the third
set_option maxRecDepth 8192 in
set_option maxHeartbeats 4000000 in
theorem afterC_keep (V : Valuation τ sig (Elt F)) (r : Ref sig .tc) (h : r ∈ argRefs) :
    after opsC V (no_index (Proc.devRef .tc r)) = V (Proc.devRef .tc r) := by
  simp only [argRefs, List.mem_cons, List.mem_nil_iff, or_false] at h
  rcases h with rfl | rfl | rfl | rfl | rfl | rfl | rfl | rfl | rfl | rfl | rfl | rfl | rfl | rfl | rfl
  all_goals (simp only [opsC]; after_results_simp)

-- the first piece leaves the selected slice of the inputs: the three start indices of the slice are read one
-- by one, each the value of its own short chain of operations
set_option maxRecDepth 8192 in
set_option maxHeartbeats 4000000 in
theorem afterA_v12 (V : Valuation τ sig (Elt F)) :
    after opsA V (Proc.devRef .tc main_v12) = inpF (V (Proc.devRef .tc main_arg0)) (V (Proc.devRef .tc main_arg2)) := by
  simp only [opsA]
  after_results_simp
  funext i
  unfold inpF
  refine congrFun (congrArg (fun fam => shapeCast S1000000x7 (Host.dynamicSlice S1x1000000x7 (V (Proc.devRef .tc main_arg2)) fam
    sliceFits_S4x1000000x7_S1x1000000x7) shapeCasts_S1x1000000x7_S1000000x7) ?_) i
  funext k
  fin_cases k <;>
    (simp only [Matrix.cons_val_zero', Matrix.cons_val_succ', Fin.zero_eta, Fin.mk_one, Matrix.cons_val_zero, Matrix.cons_val_one, Matrix.head_cons]) <;>
    (try after_results_simp) <;> rfl

-- and the two inputs the last table names, looked up in that slice
set_option maxRecDepth 8192 in
set_option maxHeartbeats 4000000 in
theorem afterA_v19 (V : Valuation τ sig (Elt F)) :
    after opsA V (Proc.devRef .tc main_v19) = gthF (inpF (V (Proc.devRef .tc main_arg0)) (V (Proc.devRef .tc main_arg2))) (V (Proc.devRef .tc main_arg14)) := by
  have h12 := afterA_v12 V
  simp (disch := decide) only [opsA, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at h12
  simp only [opsA]
  after_results_simp
  rw [h12]
  rfl

-- the second piece: the temperatures, the conductances, the negated output of the power-loss network
set_option maxRecDepth 8192 in
set_option maxHeartbeats 4000000 in
theorem afterB_v20 (W : Valuation τ sig (Elt F)) :
    after opsB W (Proc.devRef .tc main_v20) = tmpF (W (Proc.devRef .tc main_arg1)) (W (Proc.devRef .tc main_v19)) := by
  simp only [opsB]
  after_results_simp
  rfl

set_option maxRecDepth 8192 in
set_option maxHeartbeats 4000000 in
theorem afterB_v33 (W : Valuation τ sig (Elt F)) :
    after opsB W (Proc.devRef .tc main_v33)
      = condF (featF (W (Proc.devRef .tc main_v12)) (W (Proc.devRef .tc main_arg1))) (W (Proc.devRef .tc main_arg4)) (W (Proc.devRef .tc main_arg5))
          (W (Proc.devRef .tc main_arg6)) (W (Proc.devRef .tc main_arg7)) := by
  simp only [opsB]
  after_results_simp
  rfl

set_option maxRecDepth 8192 in
set_option maxHeartbeats 4000000 in
theorem afterB_v43 (W : Valuation τ sig (Elt F)) :
    after opsB W (Proc.devRef .tc main_v43)
      = nzF (featF (W (Proc.devRef .tc main_v12)) (W (Proc.devRef .tc main_arg1))) (W (Proc.devRef .tc main_arg8)) (W (Proc.devRef .tc main_arg9))
          (W (Proc.devRef .tc main_arg10)) (W (Proc.devRef .tc main_arg11)) := by
  simp only [opsB]
  after_results_simp
  rfl

-- the third piece: the result, from the states, the scales, the two tables and the second piece's three arrays
set_option maxRecDepth 8192 in
set_option maxHeartbeats 4000000 in
theorem afterC_v73 (W : Valuation τ sig (Elt F)) :
    after opsC W (Proc.devRef .tc main_v73)
      = outF (W (Proc.devRef .tc main_arg1)) (W (Proc.devRef .tc main_arg3)) (W (Proc.devRef .tc main_arg12)) (W (Proc.devRef .tc main_arg13))
          (W (Proc.devRef .tc main_v20)) (W (Proc.devRef .tc main_v33)) (plF (W (Proc.devRef .tc main_v43))) := by
  simp only [opsC]
  after_results_simp
  rfl

/-- After all the operations the last buffer holds the stages composed over the arguments. -/
theorem after_v73 (V : Valuation τ sig (Elt F)) :
    after opsAll V (Proc.devRef .tc main_v73)
      = termF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [opsAll, after_append, after_append, afterC_v73, afterB_v20, afterB_v33, afterB_v43]
  simp (disch := decide) only [afterB_keep]
  rw [afterA_v12, afterA_v19]
  simp (disch := decide) only [afterA_keep]
  rfl

/-- After all the operations an argument buffer holds what it held. -/
theorem after_arg (V : Valuation τ sig (Elt F)) (r : Ref sig .tc) (h : r ∈ argRefs) :
    after opsAll V (Proc.devRef .tc r) = V (Proc.devRef .tc r) := by
  rw [opsAll, after_append, after_append, afterC_keep _ r h, afterB_keep _ r h, afterA_keep _ r h]

/-! ## The run -/

/-- For any float values, from any memory: every weakly fair execution of the reference ends with its last
    buffer at the composed term of the argument arrays, and those unchanged. -/
theorem runF (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = termF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v73).trans (after_v73 (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide)),
      (h c main_arg6).trans (after_arg (launchContents m c) main_arg6 (by decide)),
      (h c main_arg7).trans (after_arg (launchContents m c) main_arg7 (by decide)),
      (h c main_arg8).trans (after_arg (launchContents m c) main_arg8 (by decide)),
      (h c main_arg9).trans (after_arg (launchContents m c) main_arg9 (by decide)),
      (h c main_arg10).trans (after_arg (launchContents m c) main_arg10 (by decide)),
      (h c main_arg11).trans (after_arg (launchContents m c) main_arg11 (by decide)),
      (h c main_arg12).trans (after_arg (launchContents m c) main_arg12 (by decide)),
      (h c main_arg13).trans (after_arg (launchContents m c) main_arg13 (by decide)),
      (h c main_arg14).trans (after_arg (launchContents m c) main_arg14 (by decide))⟩)
    (run_seq scopedRefs_eq scopedSems_eq defs main (fun _ => opsAll) main_eq (fun _ => ops_sub) m ρ (fun _ => ops_fresh))

end Cert.ReferenceIdeal.Hand
namespace Cert.ReferenceIdeal.Hand
open Idealize.ShloMosaic Idealize.ShloMosaic.TcCoe Idealize.ShloMosaic.ValueIdx Idealize.SL.Sem Cert.ReferenceIdeal Cert.Tnn

variable (m : (ℓ : Loc nD τ sig) → Buf (Elt Ideal) ℓ) (ρ : Dev nD → PrngReg)

/-- The idealized reference runs from any memory; its result is `term` of the arguments, which end unchanged. -/
theorem run :
    θ_run defs (onTc (τ := τ) (main (F := Ideal))) ⟨m, fun _ => 0, ρ⟩ (fun r => ∀ c : Dev nD,
      r.2.mem ((c.tc : Thread nD τ).loc main_v73) = term (B0 m c) (B1 m c) (B2 m c) (B3 m c) (B4 m c) (B5 m c) (B6 m c) (B7 m c) (B8 m c) (B9 m c) (B10 m c) (B11 m c) (B12 m c) (B13 m c) (B14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  runF m ρ

end Cert.ReferenceIdeal.Hand

end
-- ==== Proof.RefStage.lean ====
/-
  The reference's stages read at an index: the slice of the inputs at the time step, `elu p + 1`, the
  sum over a state's five neighbours, and the clip to `[−1, 1]`.
-/
import proofs.«405011_j38749194944738_3_alg».proof.Proof.RefOps
import Idealize.ShloMosaic.Lib.IdealHost
import Idealize.ShloMosaic.Lib.ValueIdx
import Idealize.ShloMosaic.Lib.ValueLayout
import Idealize.ShloMosaic.Lib.DynamicIndex
import Idealize.ShloMosaic.Lib.Pipeline.Value
import Idealize.ShloMosaic.PureOps.Ideal.Laws

noncomputable section

namespace Cert.ReferenceIdeal.Hand

open Idealize.ShloMosaic Idealize.ShloMosaic.TcCoe Idealize.ShloMosaic.ValueIdx Idealize.SL.Sem Idealize.ShloMosaic.StableHlo Cert.ReferenceIdeal Cert.ReferenceIdeal.Gen Cert.Tnn

/-! ## `elu p + 1` -/

/-- On the extended reals `(a − 1) + 1 = a`, at the two infinities too. -/
theorem sub_one_add_one (a : EReal) : a - 1 + 1 = a := by
  induction a using EReal.rec with
  | bot => rw [EReal.bot_sub, EReal.bot_add]
  | coe r =>
    rw [← EReal.coe_one, ← EReal.coe_sub, ← EReal.coe_add]
    congr 1; ring
  | top =>
    rw [← EReal.coe_one, EReal.top_sub_coe, EReal.top_add_coe]

/-- One element of the chain `where(p > 0, p, 1 · expm1 (where(p > 0, 0, p))) + 1`: it is `p + 1` above zero
    and `exp p` at and below. -/
theorem elu1_pt (p : Ideal .f32) :
    FloatOps.addf
      (Scalar.select (FloatOps.cmpf .ogt p (FloatOps.ofBits (F := Ideal) .f32 0x00000000#32)) p
        (FloatOps.mulf (FloatOps.ofBits (F := Ideal) .f32 0x3F800000#32)
          (FloatOps.hostUnary .expm1
            (Scalar.select (FloatOps.cmpf .ogt p (FloatOps.ofBits (F := Ideal) .f32 0x00000000#32))
              (FloatOps.ofBits (F := Ideal) .f32 0x00000000#32) p))))
      (FloatOps.ofBits (F := Ideal) .f32 0x3F800000#32) = Tnn.elu1 p := by
  have h0 : FloatOps.ofBits (F := Ideal) .f32 0x00000000#32 = (0 : EReal) := Ideal.ofBits_zero_f32
  have h1 : FloatOps.ofBits (F := Ideal) .f32 0x3F800000#32 = (1 : EReal) := Ideal.ofBits_one_f32
  rw [h0, h1]
  show (Scalar.select (Ideal.cmp .ogt p 0) p (1 * (Ideal.exp (Scalar.select (Ideal.cmp .ogt p 0) 0 p) - 1)) : EReal) + 1 = _
  unfold Tnn.elu1
  by_cases hp : (0 : EReal) < p
  · have hc : Ideal.cmp .ogt p 0 = 1#1 := by simp [Ideal.cmp, hp]
    rw [hc, ValueIdx.select_one, if_pos hp]
  · have hc : Ideal.cmp .ogt p 0 = 0#1 := by simp [Ideal.cmp, hp]
    rw [hc, ValueIdx.select_zero, ValueIdx.select_zero, if_neg hp, one_mul, sub_one_add_one]

/-- The same chain over a whole array, as the reference writes it, read at an index. -/
theorem elu1_chain_apply (v30 : FVec Ideal S1000000x15 .f32) (i : S1000000x15.Idx) :
    addf
      (select (cmpf (F := Ideal) .ogt v30 (broadcastInDim S1000000x15 ![] bcast_S_S1000000x15 (constant (F := Ideal) S_ .f32 0x00000000#32)))
        v30
        (mulf (broadcastInDim S1000000x15 ![] bcast_S_S1000000x15 (constant (F := Ideal) S_ .f32 0x3F800000#32))
          (Host.expm1
            (select (cmpf (F := Ideal) .ogt v30 (broadcastInDim S1000000x15 ![] bcast_S_S1000000x15 (constant (F := Ideal) S_ .f32 0x00000000#32)))
              (broadcastInDim S1000000x15 ![] bcast_S_S1000000x15 (id (constant (F := Ideal) S_ .f32 0x00000000#32)))
              v30))))
      (broadcastInDim S1000000x15 ![] bcast_S_S1000000x15 (constant (F := Ideal) S_ .f32 0x3F800000#32)) i
      = Tnn.elu1 (v30 i) :=
  elu1_pt (v30 i)

/-! ## The time slice -/

/-- A dynamic slice of one step of the inputs, its step clamped into `[0, 3]` to `n` and its other two
    starts zero, then reshaped to rows: row `b`, input `f` is the array at `(n, b, f)`. -/
theorem slice_row (U : FVec Ideal S4x1000000x7 .f32) (start : Fin 3 → Int) (n : Fin 4)
    (h0 : (min (max (start 0) 0) 3).toNat = n.val) (h1 : start 1 = 0) (h2 : start 2 = 0)
    (b : Fin 1000000) (f : Fin 7) :
    shapeCast S1000000x7 (Host.dynamicSlice S1x1000000x7 U start sliceFits_S4x1000000x7_S1x1000000x7)
      shapeCasts_S1x1000000x7_S1000000x7 (ix2 b f) = U (ix3 n b f) := by
  have h' : S4x1000000x7.Slices (![n.val, 0, 0] : Fin 3 → Nat) S1x1000000x7 :=
    ⟨rfl, fun a => match a with
      | ⟨0, _⟩ => by show n.val + 1 ≤ 4; omega
      | ⟨1, _⟩ => by show 0 + 1000000 ≤ 1000000; omega
      | ⟨2, _⟩ => by show 0 + 7 ≤ 7; omega⟩
  have e : Host.dynamicSlice S1x1000000x7 U start sliceFits_S4x1000000x7_S1x1000000x7
      = extractStridedSlice S1x1000000x7 (![n.val, 0, 0] : Fin 3 → Nat) U h' := by
    refine Host.dynamicSlice_eq_extractStridedSlice_of_clamp _ U start _ _ (fun a => ?_) h'
    match a with
    | ⟨0, _⟩ =>
      show (min (max (start 0) 0) ((4 - 1 : Nat) : Int)).toNat = n.val
      exact h0
    | ⟨1, _⟩ =>
      show (min (max (start 1) 0) ((1000000 - 1000000 : Nat) : Int)).toNat = 0
      rw [h1]; rfl
    | ⟨2, _⟩ =>
      show (min (max (start 2) 0) ((7 - 7 : Nat) : Int)).toNat = 0
      rw [h2]; rfl
  rw [shapeCast_1ab_ab_apply, e]
  exact extractStridedSlice_apply _ U h' _ (ix3 n b f) (fun a => match a with
    | ⟨0, _⟩ => by show n.val = n.val + 0; omega
    | ⟨1, _⟩ => by show b.val = 0 + b.val; omega
    | ⟨2, _⟩ => by show f.val = 0 + f.val; omega)

/-- With the time step not negative, the reference's slice of the inputs, read at row `b`, input `f`, is
    the input array at step `min step 3`. -/
theorem inpF_apply (T : FVec Ideal S_ .f32) (U : FVec Ideal S4x1000000x7 .f32)
    (hstep : 0 ≤ (Tnn.stepWord (T ValueIdx.ix0)).toInt) (b : Fin 1000000) (f : Fin 7) :
    inpF (F := Ideal) T U (ix2 b f) = U (ix3 (Tnn.stepOf (T ValueIdx.ix0)) b f) := by
  have hv1 : fptosi 32 (mulf T (constant (F := Ideal) S_ .f32 0x40000000#32)) (Shape.Idx.first h_S_)
      = Tnn.stepWord (T ValueIdx.ix0) := by
    rw [eq_ix0 (Shape.Idx.first h_S_)]; rfl
  refine slice_row U _ (Tnn.stepOf (T ValueIdx.ix0)) ?_ ?_ ?_ b f
  · show (min (max ((select (cmpi .slt (fptosi 32 (mulf T (constant (F := Ideal) S_ .f32 0x40000000#32))) (constantI S_ 32 0#32))
        (addi (fptosi 32 (mulf T (constant (F := Ideal) S_ .f32 0x40000000#32))) (constantI S_ 32 4#32))
        (fptosi 32 (mulf T (constant (F := Ideal) S_ .f32 0x40000000#32)))) (Shape.Idx.first h_S_)).toInt 0) 3).toNat
        = min (Tnn.stepWord (T ValueIdx.ix0)).toNat 3
    rw [select_slt_zero_of_nonneg _ _ _ _ (by rw [hv1]; exact hstep), hv1]
    have hlt := (Tnn.stepWord (T ValueIdx.ix0)).isLt
    rw [BitVec.toInt_eq_toNat_cond] at hstep ⊢
    split at hstep <;> omega
  · show BitVec.toInt (select (cmpi .slt (constantI S_ 32 0#32) (constantI S_ 32 0#32))
        (addi (constantI S_ 32 0#32) (constantI S_ 32 1000000#32)) (constantI S_ 32 0#32) (Shape.Idx.first h_S_)) = 0
    exact toInt_wrap_ofNat (s := S_) 0 (by norm_num)
  · show BitVec.toInt (select (cmpi .slt (constantI S_ 32 0#32) (constantI S_ 32 0#32))
        (addi (constantI S_ 32 0#32) (constantI S_ 32 7#32)) (constantI S_ 32 0#32) (Shape.Idx.first h_S_)) = 0
    exact toInt_wrap_ofNat (s := S_) 0 (by norm_num)

/-! ## The sum over the five neighbours -/

/-- The reference's sum over the last axis from the constant zero, read at row `b`, state `s`: the sum
    of the five entries `(b, s, k)`. -/
theorem reduceAdd_apply (x : FVec Ideal S1000000x4x5 .f32) (b : Fin 1000000) (s : Fin 4) :
    Host.reduceAdd x (constant (F := Ideal) S_ .f32 0x00000000#32) reducesTo_S1000000x4x5_S1000000x4_d2 h_S_ (ix2 b s)
      = ∑ k : Fin 5, x (ix3 b s k) := by
  have hr : S1000000x4x5.Reduces [2] S1000000x4 := by decide
  rw [hostReduceAdd_apply, Ideal.hostReduceAdd_single reducesTo_S1000000x4x5_S1000000x4_d2 hr, constant_apply,
    Ideal.ofBits_zero_f32, zero_add]
  show ∑ k : Fin 5, x (hr.lift (ix2 b s) k) = ∑ k : Fin 5, x (ix3 b s k)
  refine Finset.sum_congr rfl fun k _ => congrArg x (funext fun a => ?_)
  match a with
  | ⟨0, _⟩ => exact Fin.ext rfl
  | ⟨1, _⟩ => exact Fin.ext rfl
  | ⟨2, _⟩ => exact Fin.ext rfl

/-! ## The clip -/

/-- The word `0xBF800000` is minus one. -/
theorem ofBits_neg_one_f32 : Ideal.ofBits .f32 0xBF800000#32 = -1 :=
  IdealRules.sign_bit.ideal_negOnePat .f32

/-- One element of the clip: `min 1 (max (−1) y)`. -/
theorem clip_pt (y : Ideal .f32) :
    FloatOps.minimumf (FloatOps.ofBits (F := Ideal) .f32 0x3F800000#32)
      (FloatOps.maximumf (FloatOps.ofBits (F := Ideal) .f32 0xBF800000#32) y) = min 1 (max (-1) y) := by
  have hm : FloatOps.ofBits (F := Ideal) .f32 0xBF800000#32 = (-1 : EReal) := ofBits_neg_one_f32
  have h1 : FloatOps.ofBits (F := Ideal) .f32 0x3F800000#32 = (1 : EReal) := Ideal.ofBits_one_f32
  rw [hm, h1]; rfl

/-- The reference's clip over a whole array, as it writes it, read at an index. -/
theorem clip_chain_apply (v72 : FVec Ideal S1000000x4 .f32) (i : S1000000x4.Idx) :
    minimumf (broadcastInDim S1000000x4 ![] bcast_S_S1000000x4 (id (constant (F := Ideal) S_ .f32 0x3F800000#32)))
      (maximumf (broadcastInDim S1000000x4 ![] bcast_S_S1000000x4 (id (constant (F := Ideal) S_ .f32 0xBF800000#32))) v72) i
      = min 1 (max (-1) (v72 i)) :=
  clip_pt (v72 i)

end Cert.ReferenceIdeal.Hand

end
-- ==== Proof.RefNets.lean ====
/-
  The reference's two small networks, entry by entry: the conductances (a tanh layer on the eleven
  features, an affine layer, then `p ↦ p + 1` above zero and `exp p` at and below) and the power loss
  (a tanh layer, an affine layer, the logistic function), each read at one row and one column of its
  array as the finite sums of products it is.
-/
import proofs.«405011_j38749194944738_3_alg».proof.Proof.RefOps
import Idealize.ShloMosaic.PureOps.Ideal.Laws
import Idealize.ShloMosaic.Lib.Pipeline.Value
import Idealize.ShloMosaic.Lib.ValueLayout
import Idealize.ShloMosaic.Lib.IdealHost

noncomputable section

namespace Cert.ReferenceIdeal.Hand

open Idealize.ShloMosaic Idealize.ShloMosaic.ValueIdx Cert.ReferenceIdeal Cert.ReferenceIdeal.Gen Cert.Tnn

namespace Nets

/-! ## A product of two matrices on the host, entry by entry -/

section Products
variable {a k b : Nat} {φ₁ φ₂ : FTy}

/-- The left operand contracted along its columns, the right one along its rows: entry `(p, q)` is
    the sum over `c` of `l (p, c) · r (c, q)`. -/
theorem dotGeneral_rows_cols
    (w : DotDims.WF ⟨2, ![a, k]⟩ ⟨2, ![k, b]⟩ ⟨2, ![a, b]⟩ [1] [0] [0] [1] [] [])
    (prec : Option ContractPrecision) (l : FVec Ideal ⟨2, ![a, k]⟩ φ₁) (r : FVec Ideal ⟨2, ![k, b]⟩ φ₂)
    (p : Fin a) (q : Fin b) :
    Host.dotGeneral (⟨[1], [0], [0], [1], [], [], w⟩ : DotDims _ _ _) prec l r (ix2 p q)
      = ∑ c : Fin k, l (ix2 p c) * r (ix2 c q) := by
  show FloatOps.dotGeneral _ prec _ l r (ix2 p q) = _
  rw [Ideal.dotGeneral_apply,
    ← Equiv.sum_comp (contrEquiv1 (⟨[1], [0], [0], [1], [], [], w⟩ : DotDims ⟨2, ![a, k]⟩ ⟨2, ![k, b]⟩ ⟨2, ![a, b]⟩) k rfl rfl).symm]
  refine Finset.sum_congr rfl fun c _ => ?_
  have c2 := contrEquiv1_symm_val
    (⟨[1], [0], [0], [1], [], [], w⟩ : DotDims ⟨2, ![a, k]⟩ ⟨2, ![k, b]⟩ ⟨2, ![a, b]⟩) k rfl rfl c
  have l2 : (⟨[1], [0], [0], [1], [], [], w⟩ : DotDims ⟨2, ![a, k]⟩ ⟨2, ![k, b]⟩ ⟨2, ![a, b]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, k]⟩ ⟨2, ![k, b]⟩ ⟨2, ![a, b]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

end Products

/-! ## A bias row laid under every row -/

/-- A length-`n` array as the one row of a `[1, n]` array reads its entry `c` at `(u, c)`. -/
theorem broadcastInDim_n_1n_apply {α : Type} {n : ℕ} (h : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] h x (ix2 u c) = x (ix1 c) := by
  refine broadcastInDim_apply _ h x (ix2 u c) (ix1 c) fun ax => ?_
  match ax with
  | ⟨0, _⟩ =>
    show c.val = if n = 1 then 0 else c.val
    split
    · have := c.isLt; omega
    · rfl

/-- A `[1, n]` array repeated along `B` rows reads, at `(p, c)`, its one row at `c`. -/
theorem broadcastInDim_1n_Bn_apply {α : Type} {B n : ℕ} (h : (⟨2, ![1, n]⟩ : Shape).BroadcastsInDim ⟨2, ![B, n]⟩ ![0, 1])
    (x : (⟨2, ![1, n]⟩ : Shape).Idx → α) (p : Fin B) (c : Fin n) :
    broadcastInDim ⟨2, ![B, n]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if n = 1 then 0 else c.val
    split
    · have := c.isLt; omega
    · rfl

/-! ## The pointwise functions at an entry -/

theorem hostTanh_apply {s : Shape} {φ : FTy} (v : FVec Ideal s φ) (i : s.Idx) : Host.tanh v i = Ideal.tanh (v i) := rfl
theorem hostExp_apply {s : Shape} {φ : FTy} (v : FVec Ideal s φ) (i : s.Idx) : Host.exp v i = Ideal.exp (v i) := rfl
theorem hostExpm1_apply {s : Shape} {φ : FTy} (v : FVec Ideal s φ) (i : s.Idx) : Host.expm1 v i = Ideal.exp (v i) - 1 := rfl
theorem hostNegf_apply {s : Shape} {φ : FTy} (v : FVec Ideal s φ) (i : s.Idx) : Host.negf v i = -(v i) := rfl
theorem cmpf_def {φ : FTy} (p : CmpFPredicate) (x y : Ideal φ) : FloatOps.cmpf p x y = Ideal.cmp p x y := rfl

/-- Choosing by "`p` is above zero" is the case split on `0 < p`. -/
theorem select_ogt_zero (p A B : EReal) : Scalar.select (Ideal.cmp .ogt p 0) A B = if 0 < p then A else B := by
  unfold Ideal.cmp Scalar.select
  by_cases h : 0 < p
  · simp [h]
  · simp [h]

/-- Taking one away and adding it back changes no extended real. -/
theorem sub_one_add_one (a : EReal) : a - 1 + 1 = a := by
  induction a using EReal.rec with
  | bot => simp
  | coe r => rw [← EReal.coe_one, ← EReal.coe_sub, ← EReal.coe_add]; congr 1; ring
  | top => rw [← EReal.coe_one, EReal.top_sub_coe, EReal.top_add_coe]

/-- The reference's exponential-linear step plus one — `p` above zero, `1 · (exp p − 1)` at and below,
    then `+ 1` — is `p + 1` above zero and `exp p` at and below. -/
theorem elu_add_one (p : EReal) :
    Scalar.select (Ideal.cmp .ogt p 0) p (1 * (Ideal.exp (Scalar.select (Ideal.cmp .ogt p 0) 0 p) - 1)) + 1 = elu1 p := by
  rw [select_ogt_zero, select_ogt_zero]
  unfold elu1
  by_cases h : 0 < p
  · rw [if_pos h, if_pos h]
  · rw [if_neg h, if_neg h, if_neg h, one_mul, sub_one_add_one]

/-! ## The four products of the two networks, entry by entry -/

theorem dg_11x2 (l : FVec Ideal S1000000x11 .f32) (r : FVec Ideal S11x2 .f32) (b : Fin 1000000) (h : Fin 2) :
    Host.dotGeneral dot_S1000000x11_S11x2_S1000000x2_1_0_0_1_n_n none l r (ix2 b h) = ∑ k : Fin 11, l (ix2 b k) * r (ix2 k h) :=
  dotGeneral_rows_cols _ none l r b h

theorem dg_2x15 (l : FVec Ideal S1000000x2 .f32) (r : FVec Ideal S2x15 .f32) (b : Fin 1000000) (c : Fin 15) :
    Host.dotGeneral dot_S1000000x2_S2x15_S1000000x15_1_0_0_1_n_n none l r (ix2 b c) = ∑ h : Fin 2, l (ix2 b h) * r (ix2 h c) :=
  dotGeneral_rows_cols _ none l r b c

theorem dg_11x4 (l : FVec Ideal S1000000x11 .f32) (r : FVec Ideal S11x4 .f32) (b : Fin 1000000) (h : Fin 4) :
    Host.dotGeneral dot_S1000000x11_S11x4_S1000000x4_1_0_0_1_n_n none l r (ix2 b h) = ∑ k : Fin 11, l (ix2 b k) * r (ix2 k h) :=
  dotGeneral_rows_cols _ none l r b h

theorem dg_4x4 (l : FVec Ideal S1000000x4 .f32) (r : FVec Ideal S4x4 .f32) (b : Fin 1000000) (v : Fin 4) :
    Host.dotGeneral dot_S1000000x4_S4x4_S1000000x4_1_0_0_1_n_n none l r (ix2 b v) = ∑ h : Fin 4, l (ix2 b h) * r (ix2 h v) :=
  dotGeneral_rows_cols _ none l r b v

end Nets

open Nets

/-- The conductances at row `b`, column `c`. -/
theorem condF_apply (feat : FVec Ideal S1000000x11 .f32) (cw1 : FVec Ideal S11x2 .f32) (cb1 : FVec Ideal S2 .f32) (cw2 : FVec Ideal S2x15 .f32) (cb2 : FVec Ideal S15 .f32) (b : Fin 1000000) (c : Fin 15) :
    condF (F := Ideal) feat cw1 cb1 cw2 cb2 (ix2 b c)
      = Tnn.elu1 ((∑ h : Fin 2, Ideal.tanh ((∑ k : Fin 11, feat (ix2 b k) * cw1 (ix2 k h)) + cb1 (ix1 h)) * cw2 (ix2 h c)) + cb2 (ix1 c)) := by
  simp only [condF, addf_apply, select_apply, cmpf_apply, mulf_apply, hostExpm1_apply, hostTanh_apply, id_eq,
    dg_2x15, dg_11x2,
    broadcastInDim_1n_Bn_apply bcast_S1x2_S1000000x2_0_1, broadcastInDim_n_1n_apply bcast_S2_S1x2_1,
    broadcastInDim_1n_Bn_apply bcast_S1x15_S1000000x15_0_1, broadcastInDim_n_1n_apply bcast_S15_S1x15_1,
    broadcastInDim_scalar_apply bcast_S_S1000000x15, constant_apply,
    cmpf_def, Ideal.ofBits_zero_f32, Ideal.ofBits_one_f32, elu_add_one]

/-- The power loss at row `b`, column `v`. -/
theorem plF_nzF_apply (feat : FVec Ideal S1000000x11 .f32) (pw1 : FVec Ideal S11x4 .f32) (pb1 : FVec Ideal S4 .f32) (pw2 : FVec Ideal S4x4 .f32) (pb2 : FVec Ideal S4 .f32) (b : Fin 1000000) (v : Fin 4) :
    plF (F := Ideal) (nzF (F := Ideal) feat pw1 pb1 pw2 pb2) (ix2 b v)
      = Ideal.logistic ((∑ h : Fin 4, Ideal.tanh ((∑ k : Fin 11, feat (ix2 b k) * pw1 (ix2 k h)) + pb1 (ix1 h)) * pw2 (ix2 h v)) + pb2 (ix1 v)) := by
  simp only [plF, nzF, hostDivf_apply, addf_apply, hostExp_apply, hostNegf_apply, hostTanh_apply,
    dg_4x4, dg_11x4,
    broadcastInDim_1n_Bn_apply bcast_S1x4_S1000000x4_0_1, broadcastInDim_n_1n_apply bcast_S4_S1x4_1,
    broadcastInDim_scalar_apply bcast_S_S1000000x4, constant_apply,
    Ideal.ofBits_one_f32]
  rfl

end Cert.ReferenceIdeal.Hand

end
-- ==== Proof.RefValue.lean ====
/-
  The reference's term, read index by index, is the specified array: with the time step not negative the
  slice of `u` it takes is slice `min step 3`; with every table word an index of its axis the three
  gathers are plain lookups; the two concatenations are the six temperatures and the eleven features;
  each `dot_general` is a finite sum over its contracted axis; `elu p + 1` is `p + 1` above zero and
  `exp p` at and below; `1 / (1 + exp (−z))` is the logistic function; the sum over the last axis is
  the sum over the five neighbours.
-/
import proofs.«405011_j38749194944738_3_alg».proof.Proof.RefRun
import proofs.«405011_j38749194944738_3_alg».proof.Proof.RefStage
import proofs.«405011_j38749194944738_3_alg».proof.Proof.RefNets
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.ReferenceIdeal.Hand

open Idealize.ShloMosaic Idealize.ShloMosaic.TcCoe Idealize.ShloMosaic.ValueIdx Idealize.SL.Sem Cert.ReferenceIdeal Cert.Tnn

/-- The dimension numbers of a gather that takes, for every row of a `[B, n]` array, the columns a `[R, C, 1]` table of
    start indices names: the result is `[B, R, C]`. -/
abbrev colsDims3 (B n R C : Nat)
    (wf : GatherDims.WF ⟨2, ![B, n]⟩ ⟨3, ![R, C, 1]⟩ ⟨3, ![B, R, C]⟩ [0] [1] [] [1] [] 2 ![B, 1]) :
    GatherDims ⟨2, ![B, n]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- Element `(b, r, c)` of that gather is the operand's row `b` at the column the table holds at `(r, c)`, read signed
    and clamped into `[0, n − 1]`. -/
theorem gather_cols3_apply {α : Type} {B n R C w : Nat} (hn : 0 < n)
    (wf : GatherDims.WF ⟨2, ![B, n]⟩ ⟨3, ![R, C, 1]⟩ ⟨3, ![B, R, C]⟩ [0] [1] [] [1] [] 2 ![B, 1])
    (x : (⟨2, ![B, n]⟩ : Shape).Idx → α) (idx : IVec ⟨3, ![R, C, 1]⟩ w) (b : Fin B) (r : Fin R) (c : Fin C) :
    Host.gather (colsDims3 B n R C wf) x idx (ix3 b r c)
      = x (ix2 b ⟨min (idx (ix3 r c (0 : Fin 1))).toInt.toNat (n - 1), by omega⟩) := by
  unfold Host.gather
  congr 1
  funext a
  refine Fin.ext ?_
  have hnb : ∀ a : Fin 2, a ∉ (colsDims3 B n R C wf).operandBatchingDims := fun _ => List.not_mem_nil
  match a with
  | ⟨0, h0⟩ =>
    show (colsDims3 B n R C wf).start (ix3 b r c) idx ⟨0, h0⟩ + (colsDims3 B n R C wf).batchCoord (ix3 b r c) ⟨0, h0⟩
      + (colsDims3 B n R C wf).offCoord (ix3 b r c) ⟨0, h0⟩ = b.val
    have hs : (⟨0, h0⟩ : Fin 2) ∉ (colsDims3 B n R C wf).startIndexMap := fun h =>
      absurd (congrArg Fin.val (List.mem_singleton.mp h)) Nat.zero_ne_one
    have hk : (⟨0, h0⟩ : Fin 2) ∈ (colsDims3 B n R C wf).sKept :=
      (GatherDims.mem_sKept _ _).mpr ⟨fun h => absurd (congrArg Fin.val (List.mem_singleton.mp h)) Nat.zero_ne_one, hnb _⟩
    rw [GatherDims.batchCoord_eq_zero _ _ _ (hnb _)]
    unfold GatherDims.start GatherDims.offCoord
    rw [dif_neg hs, dif_pos hk]
    have key : ∀ (k : Nat) (hk : k < ([0] : List (Fin 3)).length), (([0] : List (Fin 3))[k]'hk) = 0 := by
      intro k hk
      have : k = 0 := by simpa using hk
      subst this; rfl
    simp only [Nat.zero_add]
    rw [key]
  | ⟨1, h1⟩ =>
    show (colsDims3 B n R C wf).start (ix3 b r c) idx ⟨1, h1⟩ + (colsDims3 B n R C wf).batchCoord (ix3 b r c) ⟨1, h1⟩
      + (colsDims3 B n R C wf).offCoord (ix3 b r c) ⟨1, h1⟩ = min (idx (ix3 r c (0 : Fin 1))).toInt.toNat (n - 1)
    have hs : (⟨1, h1⟩ : Fin 2) ∈ (colsDims3 B n R C wf).startIndexMap := List.mem_singleton.mpr rfl
    rw [GatherDims.batchCoord_eq_zero _ _ _ (hnb _),
      GatherDims.offCoord_eq_zero _ _ _ (fun h => ((GatherDims.mem_sKept _ _).mp h).1 (List.mem_singleton.mpr rfl))]
    simp only [Nat.add_zero]
    unfold GatherDims.start
    rw [dif_pos hs]
    have hsi : (colsDims3 B n R C wf).siIdx (ix3 b r c) ⟨List.idxOf (⟨1, h1⟩ : Fin 2) (colsDims3 B n R C wf).startIndexMap,
        List.idxOf_lt_length_iff.2 hs⟩ = ix3 r c (0 : Fin 1) := by
      funext e; refine Fin.ext ?_
      match e with
      | ⟨0, _⟩ => rfl
      | ⟨1, _⟩ => rfl
      | ⟨2, _⟩ => rfl
    rw [hsi]
    rfl

/-- The dimension numbers of a gather that takes, for every row of a `[B, n]` array, the columns a `[C, 1]` table of start
    indices names: the result is `[B, C]`. -/
abbrev colsDims2 (B n C : Nat)
    (wf : GatherDims.WF ⟨2, ![B, n]⟩ ⟨2, ![C, 1]⟩ ⟨2, ![B, C]⟩ [0] [1] [] [1] [] 1 ![B, 1]) :
    GatherDims ⟨2, ![B, n]⟩ ⟨2, ![C, 1]⟩ ⟨2, ![B, C]⟩ where
  offsetDims := [0]
  collapsedSliceDims := [1]
  operandBatchingDims := []
  startIndicesBatchingDims := []
  startIndexMap := [1]
  indexVectorDim := 1
  sliceSizes := ![B, 1]
  wf := wf

/-- Element `(b, c)` of that gather is the operand's row `b` at the column the table holds at `c`, read signed and
    clamped into `[0, n − 1]`. -/
theorem gather_cols2_apply {α : Type} {B n C w : Nat} (hn : 0 < n)
    (wf : GatherDims.WF ⟨2, ![B, n]⟩ ⟨2, ![C, 1]⟩ ⟨2, ![B, C]⟩ [0] [1] [] [1] [] 1 ![B, 1])
    (x : (⟨2, ![B, n]⟩ : Shape).Idx → α) (idx : IVec ⟨2, ![C, 1]⟩ w) (b : Fin B) (c : Fin C) :
    Host.gather (colsDims2 B n C wf) x idx (ix2 b c)
      = x (ix2 b ⟨min (idx (ix2 c (0 : Fin 1))).toInt.toNat (n - 1), by omega⟩) := by
  unfold Host.gather
  congr 1
  funext a
  refine Fin.ext ?_
  have hnb : ∀ a : Fin 2, a ∉ (colsDims2 B n C wf).operandBatchingDims := fun _ => List.not_mem_nil
  match a with
  | ⟨0, h0⟩ =>
    show (colsDims2 B n C wf).start (ix2 b c) idx ⟨0, h0⟩ + (colsDims2 B n C wf).batchCoord (ix2 b c) ⟨0, h0⟩
      + (colsDims2 B n C wf).offCoord (ix2 b c) ⟨0, h0⟩ = b.val
    have hs : (⟨0, h0⟩ : Fin 2) ∉ (colsDims2 B n C wf).startIndexMap := fun h =>
      absurd (congrArg Fin.val (List.mem_singleton.mp h)) Nat.zero_ne_one
    have hk : (⟨0, h0⟩ : Fin 2) ∈ (colsDims2 B n C wf).sKept :=
      (GatherDims.mem_sKept _ _).mpr ⟨fun h => absurd (congrArg Fin.val (List.mem_singleton.mp h)) Nat.zero_ne_one, hnb _⟩
    rw [GatherDims.batchCoord_eq_zero _ _ _ (hnb _)]
    unfold GatherDims.start GatherDims.offCoord
    rw [dif_neg hs, dif_pos hk]
    have key : ∀ (k : Nat) (hk : k < ([0] : List (Fin 2)).length), (([0] : List (Fin 2))[k]'hk) = 0 := by
      intro k hk
      have : k = 0 := by simpa using hk
      subst this; rfl
    simp only [Nat.zero_add]
    rw [key]
  | ⟨1, h1⟩ =>
    show (colsDims2 B n C wf).start (ix2 b c) idx ⟨1, h1⟩ + (colsDims2 B n C wf).batchCoord (ix2 b c) ⟨1, h1⟩
      + (colsDims2 B n C wf).offCoord (ix2 b c) ⟨1, h1⟩ = min (idx (ix2 c (0 : Fin 1))).toInt.toNat (n - 1)
    have hs : (⟨1, h1⟩ : Fin 2) ∈ (colsDims2 B n C wf).startIndexMap := List.mem_singleton.mpr rfl
    rw [GatherDims.batchCoord_eq_zero _ _ _ (hnb _),
      GatherDims.offCoord_eq_zero _ _ _ (fun h => ((GatherDims.mem_sKept _ _).mp h).1 (List.mem_singleton.mpr rfl))]
    simp only [Nat.add_zero]
    unfold GatherDims.start
    rw [dif_pos hs]
    have hsi : (colsDims2 B n C wf).siIdx (ix2 b c) ⟨List.idxOf (⟨1, h1⟩ : Fin 2) (colsDims2 B n C wf).startIndexMap,
        List.idxOf_lt_length_iff.2 hs⟩ = ix2 c (0 : Fin 1) := by
      funext e; refine Fin.ext ?_
      match e with
      | ⟨0, _⟩ => rfl
      | ⟨1, _⟩ => rfl
    rw [hsi]
    rfl

/-! ## Index words -/

/-- A word below `2 ^ 31` reads the same signed and unsigned. -/
theorem toInt_of_small {w : BitVec 32} (h : w.toNat < 2 ^ 31) : w.toInt = (w.toNat : Int) := by
  rw [BitVec.toInt_eq_toNat_cond]; split <;> omega

/-- A word that is not negative read signed reads the same unsigned. -/
theorem toInt_of_nonneg {w : BitVec 32} (h : 0 ≤ w.toInt) : w.toInt = (w.toNat : Int) := by
  rw [BitVec.toInt_eq_toNat_cond] at h ⊢
  have := w.isLt
  split <;> rename_i hc
  · rfl
  · rw [if_neg hc] at h; omega

/-- A select on "the index is negative" takes the index itself where the index is not negative, whatever array of
    zeros it is compared with. -/
theorem select_slt_of_nonneg {s : Shape} {α : Type} (i z : IVec s 32) (a b : s.Idx → α) (j : s.Idx)
    (hz : z j = 0#32) (h : 0 ≤ (i j).toInt) : select (cmpi .slt i z) a b j = b j := by
  have hlt : (i j).slt 0#32 = false := by
    simp only [BitVec.slt, BitVec.toInt_zero, decide_eq_false_iff_not, Int.not_lt]
    exact h
  show (if BitVec.ofBool ((i j).slt (z j)) = 1 then _ else _) = _
  rw [hz, hlt]
  rfl

/-- A table word below `n`, read signed and clamped into `[0, n − 1]`, is the index `tabOf n` makes of it. -/
theorem clamp_eq_tabOf (n : Nat) [NeZero n] (hn : n ≤ 2 ^ 31) (w : BitVec 32) (hw : w.toNat < n) :
    min w.toInt.toNat (n - 1) = (tabOf n w).val := by
  show min w.toInt.toNat (n - 1) = w.toNat % n
  rw [toInt_of_small (by omega), Int.toNat_natCast, Nat.mod_eq_of_lt hw]
  omega

/-! ## Concatenation along the columns -/

/-- Two arrays with the same rows laid side by side: column `k` of the result is column `k` of the first where
    `k` is below the first's width, and column `k` less that width of the second otherwise. -/
theorem concat_cols_apply {α : Type} {B n₁ n₂ N : Nat} (hN : N = n₁ + n₂)
    (x₁ : (⟨2, ![B, n₁]⟩ : Shape).Idx → α) (x₂ : (⟨2, ![B, n₂]⟩ : Shape).Idx → α)
    (h : Shape.Concatenates [⟨2, ![B, n₁]⟩, ⟨2, ![B, n₂]⟩] ⟨2, ![B, N]⟩ 1) (b : Fin B) (k : Fin N) :
    concatenate ⟨2, ![B, N]⟩ 1 [⟨⟨2, ![B, n₁]⟩, x₁⟩, ⟨⟨2, ![B, n₂]⟩, x₂⟩] h (ix2 b k)
      = if hk : k.val < n₁ then x₁ (ix2 b ⟨k.val, hk⟩) else x₂ (ix2 b ⟨k.val - n₁, by omega⟩) := by
  split
  · next hk =>
    refine concatenate_pair_apply_left (1 : Fin 2) x₁ x₂ h (ix2 b k) rfl (ix2 b ⟨k.val, hk⟩) fun a => ?_
    match a with
    | ⟨0, _⟩ => rfl
    | ⟨1, _⟩ => rfl
  · next hk =>
    refine concatenate_pair_apply_right (1 : Fin 2) x₁ x₂ h (ix2 b k) rfl rfl (ix2 b ⟨k.val - n₁, by omega⟩) (fun a ha => ?_) ?_
    · match a with
      | ⟨0, _⟩ => rfl
      | ⟨1, _⟩ => exact absurd rfl ha
    · show (k.val - n₁) + n₁ = k.val
      omega

/-! ## Broadcasts read at an index -/

/-- A vector laid along the columns of every row, by way of one row: at `(p, q)` it reads the vector at `q`. -/
theorem bias_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α) (p : Fin B) (q : Fin n) :
    broadcastInDim ⟨2, ![B, n]⟩ ![0, 1] h₂ (broadcastInDim ⟨2, ![1, n]⟩ ![1] h₁ v) (ix2 p q) = v (ix1 q) := by
  refine (broadcastInDim_apply ![0, 1] h₂ _ (ix2 p q) (ix2 (0 : Fin 1) q) fun a => ?_).trans
    (broadcastInDim_apply ![1] h₁ v (ix2 (0 : Fin 1) q) (ix1 q) fun a => ?_)
  · match a with
    | ⟨0, _⟩ => exact (if_pos rfl).symm
    | ⟨1, _⟩ =>
      show q.val = if n = 1 then 0 else q.val
      split
      · omega
      · rfl
  · match a with
    | ⟨0, _⟩ =>
      show q.val = if n = 1 then 0 else q.val
      split
      · omega
      · rfl

/-- A table given a trailing axis of one element reads, at `(r, c, 0)`, the table at `(r, c)`. -/
theorem unit3_apply {α : Type} {R C : Nat} (h : (⟨2, ![R, C]⟩ : Shape).BroadcastsInDim ⟨3, ![R, C, 1]⟩ ![0, 1])
    (v : (⟨2, ![R, C]⟩ : Shape).Idx → α) (r : Fin R) (c : Fin C) (u : Fin 1) :
    broadcastInDim ⟨3, ![R, C, 1]⟩ ![0, 1] h v (ix3 r c u) = v (ix2 r c) := by
  refine broadcastInDim_apply ![0, 1] h v (ix3 r c u) (ix2 r c) fun a => ?_
  match a with
  | ⟨0, _⟩ =>
    show r.val = if R = 1 then 0 else r.val
    split
    · omega
    · rfl
  | ⟨1, _⟩ =>
    show c.val = if C = 1 then 0 else c.val
    split
    · omega
    · rfl

/-- A vector given a trailing axis of one element reads, at `(c, 0)`, the vector at `c`. -/
theorem unit2_apply {α : Type} {C : Nat} (h : (⟨1, ![C]⟩ : Shape).BroadcastsInDim ⟨2, ![C, 1]⟩ ![0])
    (v : (⟨1, ![C]⟩ : Shape).Idx → α) (c : Fin C) (u : Fin 1) :
    broadcastInDim ⟨2, ![C, 1]⟩ ![0] h v (ix2 c u) = v (ix1 c) := by
  refine broadcastInDim_apply ![0] h v (ix2 c u) (ix1 c) fun a => ?_
  match a with
  | ⟨0, _⟩ =>
    show c.val = if C = 1 then 0 else c.val
    split
    · omega
    · rfl

/-- An array repeated along a new last axis, by way of a last axis of one element: at `(b, v, k)` it reads the array
    at `(b, v)`. -/
theorem repeat_last_apply {α : Type} {B V K : Nat} (h₁ : (⟨2, ![B, V]⟩ : Shape).BroadcastsInDim ⟨3, ![B, V, 1]⟩ ![0, 1])
    (h₂ : (⟨3, ![B, V, 1]⟩ : Shape).BroadcastsInDim ⟨3, ![B, V, K]⟩ ![0, 1, 2]) (x : (⟨2, ![B, V]⟩ : Shape).Idx → α)
    (b : Fin B) (v : Fin V) (k : Fin K) :
    broadcastInDim ⟨3, ![B, V, K]⟩ ![0, 1, 2] h₂ (broadcastInDim ⟨3, ![B, V, 1]⟩ ![0, 1] h₁ x) (ix3 b v k) = x (ix2 b v) := by
  refine (broadcastInDim_apply ![0, 1, 2] h₂ _ (ix3 b v k) (ix3 b v (0 : Fin 1)) fun a => ?_).trans (unit3_apply h₁ x b v 0)
  match a with
  | ⟨0, _⟩ =>
    show b.val = if B = 1 then 0 else b.val
    split
    · omega
    · rfl
  | ⟨1, _⟩ =>
    show v.val = if V = 1 then 0 else v.val
    split
    · omega
    · rfl
  | ⟨2, _⟩ => exact (if_pos rfl).symm

/-! ## The stages of the reference's term, read at an index -/

/-- The two inputs the table `tcW` names, with every word of it an index of the seven inputs: entry `(b, e)` is
    row `b` of the inputs at the column `tcW e`. -/
theorem gthF_apply (inp : FVec Ideal S1000000x7 .f32) (tcW : IVec S2 32) (htc : ∀ i, (tcW i).toNat < 7)
    (b : Fin 1000000) (e : Fin 2) : gthF inp tcW (ix2 b e) = inp (ix2 b (tcOf tcW e)) := by
  unfold gthF
  refine (gather_cols2_apply (by decide) Facts₀.gather_S1000000x7_S2x1_S1000000x2_0_1_n_n_1_1_10000001_wf inp _ b e).trans ?_
  congr 2
  apply Fin.ext
  show min (BitVec.toInt _).toNat (7 - 1) = (tabOf 7 (tcW (ix1 e))).val
  rw [unit2_apply, select_slt_of_nonneg _ _ _ _ _ (broadcastInDim_scalar_apply _ _ _)
    (by rw [toInt_of_small (by have := htc (ix1 e); omega)]; omega)]
  exact clamp_eq_tabOf 7 (by decide) _ (htc _)

/-- A gather of columns by a table of words below `n`, the table first wrapped (a negative word counts from the end)
    and given a trailing unit axis: entry `(b, r, c)` is row `b` of the operand at the column `tab (r, c)`. -/
theorem gather_tab3_apply {α : Type} {B n R C : Nat} [NeZero n] (hn : n ≤ 2 ^ 31)
    (wf : GatherDims.WF ⟨2, ![B, n]⟩ ⟨3, ![R, C, 1]⟩ ⟨3, ![B, R, C]⟩ [0] [1] [] [1] [] 2 ![B, 1])
    (x : (⟨2, ![B, n]⟩ : Shape).Idx → α) (tab z a : IVec ⟨2, ![R, C]⟩ 32) (hz : ∀ i, z i = 0#32)
    (hb : (⟨2, ![R, C]⟩ : Shape).BroadcastsInDim ⟨3, ![R, C, 1]⟩ ![0, 1]) (htab : ∀ i, (tab i).toNat < n)
    (b : Fin B) (r : Fin R) (c : Fin C) :
    Host.gather (colsDims3 B n R C wf) x (broadcastInDim ⟨3, ![R, C, 1]⟩ ![0, 1] hb (select (cmpi .slt tab z) a tab)) (ix3 b r c)
      = x (ix2 b (tabOf n (tab (ix2 r c)))) := by
  refine (gather_cols3_apply (Nat.pos_of_ne_zero (NeZero.ne n)) wf x _ b r c).trans ?_
  congr 2
  apply Fin.ext
  show min (BitVec.toInt _).toNat (n - 1) = (tabOf n (tab (ix2 r c))).val
  rw [unit3_apply, select_slt_of_nonneg _ _ _ _ _ (hz _)
    (by rw [toInt_of_small (by have := htab (ix2 r c); omega)]; omega)]
  exact clamp_eq_tabOf n hn _ (htab _)

/-- Each state's clipped rate of change, from the temperatures, the conductances and the power loss of its row. -/
theorem outF_apply (X : FVec Ideal S1000000x4 .f32) (caps : FVec Ideal S4 .f32) (tiW adjW : IVec S4x5 32)
    (tmp : FVec Ideal S1000000x6 .f32) (cond : FVec Ideal S1000000x15 .f32) (pl : FVec Ideal S1000000x4 .f32)
    (hti : ∀ i, (tiW i).toNat < 6) (hadj : ∀ i, (adjW i).toNat < 15) (b : Fin 1000000) (v : Fin 4) :
    outF X caps tiW adjW tmp cond pl (ix2 b v)
      = min 1 (max (-1) (Ideal.exp (caps (ix1 v)) *
          ((∑ k : Fin 5, (tmp (ix2 b (tiOf tiW v k)) - X (ix2 b v)) * cond (ix2 b (adjOf adjW v k))) + pl (ix2 b v)))) := by
  simp only [outF]
  rw [clip_chain_apply, mulf_apply, addf_apply, reduceAdd_apply, bias_apply, Nets.hostExp_apply]
  refine congrArg (fun s => min 1 (max (-1) (Ideal.exp (caps (ix1 v)) * (s + pl (ix2 b v))))) (Finset.sum_congr rfl fun k _ => ?_)
  rw [mulf_apply, subf_apply, repeat_last_apply]
  exact congrArg₂ (· * ·)
    (congrArg (· - X (ix2 b v)) (gather_tab3_apply (n := 6) (by decide) Facts₀.gather_S1000000x6_S4x5x1_S1000000x4x5_0_1_n_n_1_2_10000001_wf
      tmp tiW _ _ (fun i => broadcastInDim_scalar_apply _ _ _) Gen.bcast_S4x5_S4x5x1_0_1 hti b v k))
    (gather_tab3_apply (n := 15) (by decide) Facts₀.gather_S1000000x15_S4x5x1_S1000000x4x5_0_1_n_n_1_2_10000001_wf
      cond adjW _ _ (fun i => broadcastInDim_scalar_apply _ _ _) Gen.bcast_S4x5_S4x5x1_0_1 hadj b v k)

/-- The six temperatures of a row: its four states, then the two inputs the table `tcW` names. -/
theorem tmpF_gthF_at (X : FVec Ideal S1000000x4 .f32) (inp : FVec Ideal S1000000x7 .f32) (tcW : IVec S2 32)
    (htc : ∀ i, (tcW i).toNat < 7) (b : Fin 1000000) (k : Fin 6) :
    tmpF X (gthF inp tcW) (ix2 b k) = temps (tcOf tcW) (fun v => X (ix2 b v)) (fun f => inp (ix2 b f)) k := by
  unfold tmpF temps
  refine (concat_cols_apply (n₁ := 4) (n₂ := 2) rfl X (gthF inp tcW) _ b k).trans ?_
  split
  · rfl
  · exact gthF_apply inp tcW htc b _

/-- The eleven features of a row: its seven inputs, then its four states. -/
theorem featF_at (inp : FVec Ideal S1000000x7 .f32) (X : FVec Ideal S1000000x4 .f32) (b : Fin 1000000) (k : Fin 11) :
    featF inp X (ix2 b k) = feats (fun v => X (ix2 b v)) (fun f => inp (ix2 b f)) k := by
  unfold featF feats
  exact concat_cols_apply (n₁ := 7) (n₂ := 4) rfl inp X _ b k

/-- On the precondition's domain the reference's term is the specified array. -/
theorem term_eq (T : (⟨0, ![]⟩ : Shape).Idx → EReal) (X : SB4.Idx → EReal) (U : S4B7.Idx → EReal) (caps : (⟨1, ![4]⟩ : Shape).Idx → EReal) (cw1 : (⟨2, ![11, 2]⟩ : Shape).Idx → EReal) (cb1 : (⟨1, ![2]⟩ : Shape).Idx → EReal) (cw2 : (⟨2, ![2, 15]⟩ : Shape).Idx → EReal) (cb2 : (⟨1, ![15]⟩ : Shape).Idx → EReal) (pw1 : (⟨2, ![11, 4]⟩ : Shape).Idx → EReal) (pb1 : (⟨1, ![4]⟩ : Shape).Idx → EReal) (pw2 : (⟨2, ![4, 4]⟩ : Shape).Idx → EReal) (pb2 : (⟨1, ![4]⟩ : Shape).Idx → EReal) (tiW : (⟨2, ![4, 5]⟩ : Shape).Idx → BitVec 32) (adjW : (⟨2, ![4, 5]⟩ : Shape).Idx → BitVec 32) (tcW : (⟨1, ![2]⟩ : Shape).Idx → BitVec 32)
    (hD : InDomainArgs T X U caps cw1 cb1 cw2 cb2 pw1 pb1 pw2 pb2 tiW adjW tcW) :
    term T X U caps cw1 cb1 cw2 cb2 pw1 pb1 pw2 pb2 tiW adjW tcW = Gargs T X U caps cw1 cb1 cw2 cb2 pw1 pb1 pw2 pb2 tiW adjW tcW := by
  have hD' : InDomain T X U (netOf caps cw1 cb1 cw2 cb2 pw1 pb1 pw2 pb2) tiW adjW tcW := hD
  funext i
  obtain ⟨b, v, rfl⟩ : ∃ (b : Fin 1000000) (v : Fin 4), i = ix2 b v := ⟨i 0, i 1, eq_ix2 i⟩
  simp only [term, termF]
  rw [outF_apply _ _ _ _ _ _ _ hD'.ti hD'.adj]
  simp only [plF_nzF_apply, condF_apply, featF_at, tmpF_gthF_at _ _ _ hD'.tc, inpF_apply _ _ hD'.step]
  rfl

end Cert.ReferenceIdeal.Hand

end
-- ==== Proof.Pre.lean ====
/-
  What the precondition says. It is the conjunction, over every float argument, of "every entry's
  absolute value is below +∞" — so every entry is a real number —, over each index table, of
  "every word is at least 0 and below the extent of the axis it selects from" as signed integers — so
  its unsigned value is below that extent —, and of "the time step is at least 0".
-/
import proofs.«405011_j38749194944738_3_alg».proof.Pre_finite_inputs
import proofs.«405011_j38749194944738_3_alg».proof.Proof.Spec
import Idealize.ShloMosaic.Lib.ReduceAll
import Idealize.ShloMosaic.Lib.StableHlo.Predicate

noncomputable section

namespace Cert.Pre_finite_inputs.Hand

open Idealize.ShloMosaic Idealize.ShloMosaic.ValueIdx Cert.Pre_finite_inputs Cert.Tnn

/-- The pattern with all exponent bits set and a zero significand denotes +∞. -/
theorem inf_eq_top : Ideal.ofBits .f32 0x7F800000#32 = (⊤ : EReal) := by
  simp [Ideal.ofBits, Ideal.ieee]

/-- An extended real whose absolute value `max x (−x)` is below +∞ is neither +∞ nor −∞. -/
theorem fin_of_abs_lt (x : EReal) (h : Ideal.cmp .olt (max x (-x)) (Ideal.ofBits .f32 0x7F800000#32) = 1#1) : Fin' x := by
  rw [inf_eq_top] at h
  simp only [Ideal.cmp, StableHlo.Predicate.ofBool_eq_one_iff, decide_eq_true_eq] at h
  constructor
  · rintro rfl
    simp at h
  · rintro rfl
    simp at h

/-- A 32-bit word that is, as a signed integer, at least 0 and below a small `n` has unsigned value below `n`. -/
theorem lt_of_cmps (w : BitVec 32) (n : Nat) (hn : n < 2 ^ 31)
    (h1 : IntOp.cmpi .sge w 0#32 = 1#1) (h2 : IntOp.cmpi .slt w (BitVec.ofNat 32 n) = 1#1) : w.toNat < n := by
  simp only [IntOp.cmpi, StableHlo.Predicate.ofBool_eq_one_iff, BitVec.sle, BitVec.slt, decide_eq_true_eq] at h1 h2
  rw [StableHlo.Predicate.toInt_ofNat_small n hn] at h2
  have h0 : (0#32 : BitVec 32).toInt = 0 := by decide
  rw [h0] at h1
  have hw : w.toInt = w.toNat := by
    rw [BitVec.toInt_eq_toNat_cond] at h1 ⊢
    split
    · rfl
    · rename_i hc
      rw [if_neg hc] at h1
      have := w.isLt
      omega
  omega

/-- The step word compared "at least 0" as a signed integer: its signed value is not negative. -/
theorem step_of (t : EReal) (h : IntOp.cmpi .sge (stepWord t) 0#32 = 1#1) : 0 ≤ (stepWord t).toInt := by
  simp only [IntOp.cmpi, StableHlo.Predicate.ofBool_eq_one_iff, BitVec.sle, decide_eq_true_eq] at h
  have h0 : (0#32 : BitVec 32).toInt = 0 := by decide
  omega

/-- The scalar shape has one index. -/
instance : Subsingleton S_.Idx := ⟨fun a b => funext fun d => d.elim0⟩

/-- "Every entry's absolute value is below +∞", as the conjunction over all entries of an array, gives
    that every entry is a real number. -/
theorem fin_arr {s : Shape} {axes : List (Fin s.rank)} (A : s.Idx → EReal) (hb : S_.BroadcastsInDim s ![])
    (hr : s.ReducesTo axes S_) (h0 : 0 < S_.numel) (init : S_.Idx → BitVec 1)
    (e : Host.reduce IntOp.andi (cmpf (F := Ideal) (φ := .f32) .olt (Host.absf A) (broadcastInDim s ![] hb (constant S_ .f32 0x7F800000#32)))
      init hr h0 ix0 = 1#1) (i : s.Idx) : Fin' (A i) :=
  fin_of_abs_lt _ (Host.reduce_andi_all _ _ _ _ _ e i)

/-- The same for a scalar, compared with +∞ itself. -/
theorem fin_scalar {axes : List (Fin S_.rank)} (A : S_.Idx → EReal)
    (hr : S_.ReducesTo axes S_) (h0 : 0 < S_.numel) (init : S_.Idx → BitVec 1)
    (e : Host.reduce IntOp.andi (cmpf (F := Ideal) (φ := .f32) .olt (Host.absf A) (constant S_ .f32 0x7F800000#32))
      init hr h0 ix0 = 1#1) (i : S_.Idx) : Fin' (A i) :=
  fin_of_abs_lt _ (Host.reduce_andi_all _ _ _ _ _ e i)

/-- "Every word is at least 0 and below `n`", as the conjunction over all words of a table, gives that
    every word's unsigned value is below `n`. -/
theorem tab_arr {s : Shape} {axes : List (Fin s.rank)} (W : s.Idx → BitVec 32) (n : Nat) (hn : n < 2 ^ 31)
    (hb : S_.BroadcastsInDim s ![]) (hr : s.ReducesTo axes S_) (h0 : 0 < S_.numel) (init : S_.Idx → BitVec 1)
    (e : Host.reduce IntOp.andi (andi (cmpi .sge W (broadcastInDim s ![] hb (constantI S_ 32 0#32)))
        (cmpi .slt W (broadcastInDim s ![] hb (constantI S_ 32 (BitVec.ofNat 32 n))))) init hr h0 ix0 = 1#1)
    (i : s.Idx) : (W i).toNat < n := by
  obtain ⟨h1, h2⟩ := IntOp.andi_eq_one.1 (Host.reduce_andi_all _ _ _ _ _ e i)
  exact lt_of_cmps _ n hn h1 h2

/-- The precondition, all ones, gives its content of the fifteen arguments. -/
theorem inDomain [Cert.Pre_finite_inputs.Facts] (T : (⟨0, ![]⟩ : Shape).Idx → EReal) (X : SB4.Idx → EReal) (U : S4B7.Idx → EReal) (caps : (⟨1, ![4]⟩ : Shape).Idx → EReal) (cw1 : (⟨2, ![11, 2]⟩ : Shape).Idx → EReal) (cb1 : (⟨1, ![2]⟩ : Shape).Idx → EReal) (cw2 : (⟨2, ![2, 15]⟩ : Shape).Idx → EReal) (cb2 : (⟨1, ![15]⟩ : Shape).Idx → EReal) (pw1 : (⟨2, ![11, 4]⟩ : Shape).Idx → EReal) (pb1 : (⟨1, ![4]⟩ : Shape).Idx → EReal) (pw2 : (⟨2, ![4, 4]⟩ : Shape).Idx → EReal) (pb2 : (⟨1, ![4]⟩ : Shape).Idx → EReal) (tiW : (⟨2, ![4, 5]⟩ : Shape).Idx → BitVec 32) (adjW : (⟨2, ![4, 5]⟩ : Shape).Idx → BitVec 32) (tcW : (⟨1, ![2]⟩ : Shape).Idx → BitVec 32)
    (h : Cert.Pre_finite_inputs.fn (F := Ideal) T X U caps cw1 cb1 cw2 cb2 pw1 pb1 pw2 pb2 tiW adjW tcW = fun _ => 1#1) :
    InDomainArgs T X U caps cw1 cb1 cw2 cb2 pw1 pb1 pw2 pb2 tiW adjW tcW := by
  have h0 := congrFun h ix0
  dsimp only [fn, fn_part1, fn_part2, fn_part3, fn_part4] at h0
  obtain ⟨h0, hstep⟩ := IntOp.andi_eq_one.1 h0
  obtain ⟨h0, htc⟩ := IntOp.andi_eq_one.1 h0
  obtain ⟨h0, hadj⟩ := IntOp.andi_eq_one.1 h0
  obtain ⟨h0, hti⟩ := IntOp.andi_eq_one.1 h0
  obtain ⟨h0, hpb2⟩ := IntOp.andi_eq_one.1 h0
  obtain ⟨h0, hpw2⟩ := IntOp.andi_eq_one.1 h0
  obtain ⟨h0, hpb1⟩ := IntOp.andi_eq_one.1 h0
  obtain ⟨h0, hpw1⟩ := IntOp.andi_eq_one.1 h0
  obtain ⟨h0, hcb2⟩ := IntOp.andi_eq_one.1 h0
  obtain ⟨h0, hcw2⟩ := IntOp.andi_eq_one.1 h0
  obtain ⟨h0, hcb1⟩ := IntOp.andi_eq_one.1 h0
  obtain ⟨h0, hcw1⟩ := IntOp.andi_eq_one.1 h0
  obtain ⟨h0, hcaps⟩ := IntOp.andi_eq_one.1 h0
  obtain ⟨h0, hU⟩ := IntOp.andi_eq_one.1 h0
  obtain ⟨hT, hX⟩ := IntOp.andi_eq_one.1 h0
  exact
    { t := fin_scalar T _ _ _ hT ix0
      x := fin_arr X _ _ _ _ hX
      u := fin_arr U _ _ _ _ hU
      net :=
        { caps := fun v => fin_arr caps _ _ _ _ hcaps _
          cw1 := fun k j => fin_arr cw1 _ _ _ _ hcw1 _
          cb1 := fun j => fin_arr cb1 _ _ _ _ hcb1 _
          cw2 := fun j c => fin_arr cw2 _ _ _ _ hcw2 _
          cb2 := fun c => fin_arr cb2 _ _ _ _ hcb2 _
          pw1 := fun k j => fin_arr pw1 _ _ _ _ hpw1 _
          pb1 := fun j => fin_arr pb1 _ _ _ _ hpb1 _
          pw2 := fun j v => fin_arr pw2 _ _ _ _ hpw2 _
          pb2 := fun v => fin_arr pb2 _ _ _ _ hpb2 _ }
      ti := tab_arr tiW 6 (by norm_num) _ _ _ _ hti
      adj := tab_arr adjW 15 (by norm_num) _ _ _ _ hadj
      tc := tab_arr tcW 7 (by norm_num) _ _ _ _ htc
      step := step_of _ hstep }

end Cert.Pre_finite_inputs.Hand

end
-- ==== Proof.lean ====
/-
  The certificate of the thermal-network step kernel against its jnp reference, over the extended reals.

  Precondition: every float argument finite; every word of the three index tables an index of the axis
  it selects from; the time step `int(t · 2)` not negative. On that domain both programs end with the
  array whose row `b` is `Tnn.rowSpec` of the state row `x[b]` and the input row `u[min step 3, b]`:
  the reference by reading its gathers, concatenations and products index by index (`RefValue`); the
  kernel because its one-hot products are those lookups, its grouping product the sum over a state's
  five neighbours, its identity products transposes, and `∑ T·C − x·∑ C = ∑ (T − x)·C` on real numbers
  (`SpecMath`, `KerPay`, `KerHost`, `KerValue`). The kernel clips the step into `[0, 3]` before the
  pipeline reads it, so the slice of `u` it fetches is inside the array for every input and both of its
  frames hold with no hypothesis (`KerOk`, `KernelOk`); the reference's frame is its run with the result
  dropped. The idealized kernel is the word-level kernel's own text read over the extended reals, no
  operation rewritten, so `preserves` is `True`.
-/
import proofs.«405011_j38749194944738_3_alg».proof.Defs
import proofs.«405011_j38749194944738_3_alg».proof.Proof.Gen.Kernel
import proofs.«405011_j38749194944738_3_alg».proof.Proof.Gen.Kernel.Skeleton
import proofs.«405011_j38749194944738_3_alg».proof.Proof.Gen.Kernel.Launch
import proofs.«405011_j38749194944738_3_alg».proof.Proof.Gen.Kernel.Points
import proofs.«405011_j38749194944738_3_alg».proof.Proof.Gen.Kernel.Frame
import proofs.«405011_j38749194944738_3_alg».proof.Proof.Gen.KernelIdeal
import proofs.«405011_j38749194944738_3_alg».proof.Proof.Gen.KernelIdeal.Skeleton
import proofs.«405011_j38749194944738_3_alg».proof.Proof.Gen.KernelIdeal.Launch
import proofs.«405011_j38749194944738_3_alg».proof.Proof.Gen.KernelIdeal.Points
import proofs.«405011_j38749194944738_3_alg».proof.Proof.Gen.KernelIdeal.Frame
import proofs.«405011_j38749194944738_3_alg».proof.Proof.Gen.ReferenceIdeal
import proofs.«405011_j38749194944738_3_alg».proof.Proof.Gen.Pre_finite_inputs
import proofs.«405011_j38749194944738_3_alg».proof.Proof.KernelOk
import proofs.«405011_j38749194944738_3_alg».proof.Proof.KerValue
import proofs.«405011_j38749194944738_3_alg».proof.Proof.RefValue
import proofs.«405011_j38749194944738_3_alg».proof.Proof.Pre
import Idealize.ShloMosaic.Adequacy
import Idealize.ShloMosaic.Init

noncomputable section

namespace Cert.Proof

open Idealize.ShloMosaic Idealize.SL.Sem

/-- The word-level kernel runs and leaves its arguments unchanged: the clipped step is always a slice of `u`. -/
theorem frame_k : Cert.frame_Kernel (hKernel := Cert.Kernel.Gen.facts) (hPre_finite_inputs := Cert.Pre_finite_inputs.Gen.facts) :=
  fun m ρ _ => Cert.Kernel.Gen.frame m ρ (Cert.Kernel.Hand.ok m)

/-- The same for the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.Hand.ok m)

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- From memories agreeing on the arguments both programs end at `Tnn.Gargs` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hD : ∀ c, Cert.KernelIdeal.Hand.DomM m c := fun c =>
    @Cert.Pre_finite_inputs.Hand.inDomain Cert.Pre_finite_inputs.Gen.facts _ _ _ _ _ _ _ _ _ _ _ _ _ _ _ (hpre c)
  refine ⟨fun c => Cert.KernelIdeal.Hand.GM m c, Cert.KernelIdeal.Hand.run m ρ hD, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10, e11, e12, e13, e14⟩ := hagree c
  show Cert.ReferenceIdeal.Hand.term (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
  rw [e0, e1, e2, e3, e4, e5, e6, e7, e8, e9, e10, e11, e12, e13, e14]
  exact Cert.ReferenceIdeal.Hand.term_eq _ _ _ _ _ _ _ _ _ _ _ _ _ _ _ (hD c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
